-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x128 .f32) (main_arg11 : FVec F S128x128 .f32) (main_arg12 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : FVec F S50000x128 .f32) (main_arg2 : IVec S2x800000 32) (main_arg3 : FVec F S800000 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x256 : Shape := ⟨2, ![50000, 256]⟩
abbrev S800000x256 : Shape := ⟨2, ![800000, 256]⟩
abbrev S800000x128 : Shape := ⟨2, ![800000, 128]⟩
abbrev S50000x1 : Shape := ⟨2, ![50000, 1]⟩
abbrev S5000x256 : Shape := ⟨2, ![5000, 256]⟩

abbrev nBuf : Space → Nat
  | .hbm => 119
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S128x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S50000x128, .f32⟩
  | .hbm, ⟨22, _⟩ => ⟨S1x800000, .i32⟩
  | .hbm, ⟨23, _⟩ => ⟨S800000, .i32⟩
  | .hbm, ⟨24, _⟩ => ⟨S1x800000, .i32⟩
  | .hbm, ⟨25, _⟩ => ⟨S800000, .i32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .i1⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .i1⟩
  | .hbm, ⟨44, _⟩ => ⟨S50000, .f32⟩
  | .hbm, ⟨45, _⟩ => ⟨S_, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000, .f32⟩
  | .hbm, ⟨58, _⟩ => ⟨S800000, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000, .f32⟩
  | .hbm, ⟨68, _⟩ => ⟨S800000, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000, .f32⟩
  | .hbm, ⟨78, _⟩ => ⟨S800000, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000, .f32⟩
  | .hbm, ⟨88, _⟩ => ⟨S800000, .f32⟩
  | .hbm, ⟨89, _⟩ => ⟨S50000x256, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x256, .f32⟩
  | .hbm, ⟨99, _⟩ => ⟨S800000x128, .f32⟩
  | .hbm, ⟨100, _⟩ => ⟨S800000x1, .f32⟩
  | .hbm, ⟨101, _⟩ => ⟨S800000x128, .f32⟩
  | .hbm, ⟨102, _⟩ => ⟨S800000x128, .f32⟩
  | .hbm, ⟨103, _⟩ => ⟨S800000x128, .f32⟩
  | .hbm, ⟨104, _⟩ => ⟨S800000x1, .f32⟩
  | .hbm, ⟨105, _⟩ => ⟨S800000x128, .f32⟩
  | .hbm, ⟨106, _⟩ => ⟨S800000x128, .f32⟩
  | .hbm, ⟨107, _⟩ => ⟨S800000x256, .f32⟩
  | .hbm, ⟨108, _⟩ => ⟨S_, .f32⟩
  | .hbm, ⟨109, _⟩ => ⟨S50000x256, .f32⟩
  | .hbm, ⟨110, _⟩ => ⟨S800000x1, .i32⟩
  | .hbm, ⟨111, _⟩ => ⟨S50000x256, .f32⟩
  | .hbm, ⟨112, _⟩ => ⟨S50000x128, .f32⟩
  | .hbm, ⟨113, _⟩ => ⟨S50000x128, .f32⟩
  | .hbm, ⟨114, _⟩ => ⟨S50000, .f32⟩
  | .hbm, ⟨115, _⟩ => ⟨S50000x1, .f32⟩
  | .hbm, ⟨116, _⟩ => ⟨S50000x128, .f32⟩
  | .hbm, ⟨117, _⟩ => ⟨S50000x128, .f32⟩
  | .hbm, ⟨118, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x256, .f32⟩
  | .local _ .vmem, ⟨29, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_v23 : Ref sig .tc := ⟨.hbm, 48, rfl⟩
abbrev main_c : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_6 : Ref sig .tc := ⟨.hbm, 59, rfl⟩
abbrev main_v32 : Ref sig .tc := ⟨.hbm, 60, rfl⟩
abbrev main_v33 : Ref sig .tc := ⟨.hbm, 61, rfl⟩
abbrev main_c_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_8 : Ref sig .tc := ⟨.hbm, 69, rfl⟩
abbrev main_v40 : Ref sig .tc := ⟨.hbm, 70, rfl⟩
abbrev main_v41 : Ref sig .tc := ⟨.hbm, 71, rfl⟩
abbrev main_c_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_10 : Ref sig .tc := ⟨.hbm, 79, rfl⟩
abbrev main_v48 : Ref sig .tc := ⟨.hbm, 80, rfl⟩
abbrev main_v49 : Ref sig .tc := ⟨.hbm, 81, rfl⟩
abbrev main_c_11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_12 : Ref sig .tc := ⟨.hbm, 90, rfl⟩
abbrev main_v57 : Ref sig .tc := ⟨.hbm, 91, rfl⟩
abbrev main_v58 : Ref sig .tc := ⟨.hbm, 92, rfl⟩
abbrev main_c_13 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_14 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S128x128_S128x128 : S128x128.ShapeCasts S128x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  concatenates_S50000x128_S50000x128_S50000x256_d1 : Shape.Concatenates [S50000x128, S50000x128] S50000x256 1
  slices_S800000x256_S800000x128_0_0 : S800000x256.Slices ![0, 0] S800000x128
  bcast_S800000x1_S800000x128_0_1 : S800000x1.BroadcastsInDim S800000x128 (![0, 1] : Fin 2 → Fin S800000x128.rank)
  slices_S800000x256_S800000x128_0_128 : S800000x256.Slices ![0, 128] S800000x128
  concatenates_S800000x128_S800000x128_S800000x256_d1 : Shape.Concatenates [S800000x128, S800000x128] S800000x256 1
  bcast_S_S50000x256 : S_.BroadcastsInDim S50000x256 (![] : Fin 0 → Fin S50000x256.rank)
  slices_S50000x256_S50000x128_0_0 : S50000x256.Slices ![0, 0] S50000x128
  slices_S50000x256_S50000x128_0_128 : S50000x256.Slices ![0, 128] S50000x128
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S5000x128_S5000x128 : S5000x128.ShapeCasts S5000x128
  concatenates_S5000x128_S5000x128_S5000x256_d1 : Shape.Concatenates [S5000x128, S5000x128] S5000x256 1
  inb_S5000x256_S5000x256_0_0 : ∀ a, (![0, 0] : Fin 2 → Nat) a + S5000x256.size a ≤ S5000x256.size a
  h_S5000x256 : 0 < S5000x256.numel
  dot_S128x128_S128x128_S128x128_1_0_0_1_n_n_wf : DotDims.WF S128x128 S128x128 S128x128 [1] [0] [0] [1] [] []
  dot_S1x128_S128x128_S1x128_1_0_0_1_n_n_wf : DotDims.WF S1x128 S128x128 S1x128 [1] [0] [0] [1] [] []
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S50000x128.size a
  hwx0_10 : ∀ i : grid0.Coords, EltTy.bits .f32 = 32 ∨ (Rect.block (s := S50000x128) S5000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x256.size a ≤ S50000x256.size a
  hwx1_8 : ∀ i : grid1.Coords, EltTy.bits .f32 = 32 ∨ (Rect.block (s := S50000x256) S5000x256.size (cc1_transform_8 i) (hinb1_8 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S5000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S5000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_2) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v76) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v81) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v77) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_0) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v82) S5000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S800000x1 : Shape := ⟨2, ![800000, 1]⟩
abbrev S800000x128 : Shape := ⟨2, ![800000, 128]⟩
abbrev S50000x256 : Shape := ⟨2, ![50000, 256]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S800000, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S50000x128, .f32⟩
  | 14 => ⟨S1x128, .f32⟩
  | 15 => ⟨S50000x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S1x800000, .i32⟩
  | 22 => ⟨S800000, .i32⟩
  | 23 => ⟨S1x800000, .i32⟩
  | 24 => ⟨S800000, .i32⟩
  | 25 => ⟨S50000, .i32⟩
  | 26 => ⟨S850000, .i32⟩
  | 27 => ⟨S850000, .i32⟩
  | 28 => ⟨S_, .f32⟩
  | 29 => ⟨S50000, .f32⟩
  | 30 => ⟨S850000, .f32⟩
  | 31 => ⟨S_, .f32⟩
  | 32 => ⟨S50000, .f32⟩
  | 33 => ⟨S850000x1, .i32⟩
  | 34 => ⟨S50000, .f32⟩
  | 35 => ⟨S_, .f32⟩
  | 36 => ⟨S50000, .f32⟩
  | 37 => ⟨S50000, .i1⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000, .f32⟩
  | 62 => ⟨S850000, .f32⟩
  | 63 => ⟨S850000x1, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x128, .f32⟩
  | 73 => ⟨S850000x128, .f32⟩
  | 74 => ⟨S850000x128, .f32⟩
  | 75 => ⟨S_, .f32⟩
  | 76 => ⟨S50000x128, .f32⟩
  | 77 => ⟨S850000x1, .i32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S_, .f32⟩
  | 85 => ⟨S50000x128, .f32⟩
  | 86 => ⟨S50000x128, .i1⟩
  | 87 => ⟨S_, .f32⟩
  | 88 => ⟨S50000x128, .f32⟩
  | 89 => ⟨S50000x128, .f32⟩
  | 90 => ⟨S50000x128, .f32⟩
  | 91 => ⟨S1x800000, .i32⟩
  | 92 => ⟨S800000, .i32⟩
  | 93 => ⟨S1x800000, .i32⟩
  | 94 => ⟨S800000, .i32⟩
  | 95 => ⟨S_, .f32⟩
  | 96 => ⟨S50000, .f32⟩
  | 97 => ⟨S800000x1, .i32⟩
  | 98 => ⟨S50000, .f32⟩
  | 99 => ⟨S_, .f32⟩
  | 100 => ⟨S50000, .f32⟩
  | 101 => ⟨S50000, .i1⟩
  | 102 => ⟨S50000, .f32⟩
  | 103 => ⟨S_, .f32⟩
  | 104 => ⟨S_, .f32⟩
  | 105 => ⟨S50000, .f32⟩
  | 106 => ⟨S50000, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000, .f32⟩
  | 116 => ⟨S800000, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000, .f32⟩
  | 126 => ⟨S800000, .f32⟩
  | 127 => ⟨S50000x128, .f32⟩
  | _ => ⟨S50000x128, .f32⟩

abbrev hbmTy0_1 (i : Nat) : BufTy := match i % 128 with
  | 0 => ⟨S800000x1, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S800000x128, .f32⟩
  | 11 => ⟨S800000x128, .f32⟩
  | 12 => ⟨S_, .f32⟩
  | 13 => ⟨S50000x128, .f32⟩
  | 14 => ⟨S800000x1, .i32⟩
  | 15 => ⟨S50000x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S_, .f32⟩
  | 25 => ⟨S_, .f32⟩
  | 26 => ⟨S50000x128, .f32⟩
  | 27 => ⟨S50000x128, .i1⟩
  | 28 => ⟨S_, .f32⟩
  | 29 => ⟨S50000x128, .f32⟩
  | 30 => ⟨S50000x128, .f32⟩
  | 31 => ⟨S50000x128, .f32⟩
  | 32 => ⟨S50000x256, .f32⟩
  | 33 => ⟨S_, .f32⟩
  | 34 => ⟨S50000x256, .f32⟩
  | 35 => ⟨S50000x256, .i1⟩
  | 36 => ⟨S_, .f32⟩
  | 37 => ⟨S50000x256, .f32⟩
  | 38 => ⟨S50000x256, .i1⟩
  | 39 => ⟨S_, .f32⟩
  | 40 => ⟨S_, .f32⟩
  | 41 => ⟨S50000x256, .f32⟩
  | 42 => ⟨S50000x256, .f32⟩
  | 43 => ⟨S50000x256, .f32⟩
  | 44 => ⟨S_, .f32⟩
  | 45 => ⟨S50000x256, .f32⟩
  | 46 => ⟨S50000x256, .f32⟩
  | 47 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v23 : Ref sig .tc := ⟨.hbm, 42, rfl⟩
abbrev main_c : Ref sig .tc := ⟨.hbm, 43, rfl⟩
abbrev main_v24 : Ref sig .tc := ⟨.hbm, 44, rfl⟩
abbrev main_v25 : Ref sig .tc := ⟨.hbm, 45, rfl⟩
abbrev main_c_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_v41 : Ref sig .tc := ⟨.hbm, 65, rfl⟩
abbrev main_v42 : Ref sig .tc := ⟨.hbm, 66, rfl⟩
abbrev main_c_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_10 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_11 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_call2_v0 : Ref sig .tc := ⟨.hbm, 104, rfl⟩
abbrev main_call2_v1 : Ref sig .tc := ⟨.hbm, 105, rfl⟩
abbrev main_v68 : Ref sig .tc := ⟨.hbm, 106, rfl⟩
abbrev main_c_13 : Ref sig .tc := ⟨.hbm, 107, rfl⟩
abbrev main_v69 : Ref sig .tc := ⟨.hbm, 108, rfl⟩
abbrev main_v70 : Ref sig .tc := ⟨.hbm, 109, rfl⟩
abbrev main_c_14 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_15 : Ref sig .tc := ⟨.hbm, 117, rfl⟩
abbrev main_v77 : Ref sig .tc := ⟨.hbm, 118, rfl⟩
abbrev main_v78 : Ref sig .tc := ⟨.hbm, 119, rfl⟩
abbrev main_c_16 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_c_17 : Ref sig .tc := ⟨.hbm, 129, rfl⟩
abbrev main_v87 : Ref sig .tc := ⟨.hbm, 130, rfl⟩
abbrev main_v88 : Ref sig .tc := ⟨.hbm, 131, rfl⟩
abbrev main_c_18 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_19 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_call3_cst : Ref sig .tc := ⟨.hbm, 149, rfl⟩
abbrev main_call3_v0 : Ref sig .tc := ⟨.hbm, 150, rfl⟩
abbrev main_v104 : Ref sig .tc := ⟨.hbm, 151, rfl⟩
abbrev main_cst_20 : Ref sig .tc := ⟨.hbm, 152, rfl⟩
abbrev main_call4_cst : Ref sig .tc := ⟨.hbm, 153, rfl⟩
abbrev main_call4_v0 : Ref sig .tc := ⟨.hbm, 154, rfl⟩
abbrev main_call4_v1 : Ref sig .tc := ⟨.hbm, 155, rfl⟩
abbrev main_call4_v2 : Ref sig .tc := ⟨.hbm, 156, rfl⟩
abbrev main_call4_v3 : Ref sig .tc := ⟨.hbm, 157, rfl⟩
abbrev main_call4_v4 : Ref sig .tc := ⟨.hbm, 158, rfl⟩
abbrev main_v105 : Ref sig .tc := ⟨.hbm, 159, rfl⟩
abbrev main_v106 : Ref sig .tc := ⟨.hbm, 160, rfl⟩
abbrev main_call5_cst : Ref sig .tc := ⟨.hbm, 161, rfl⟩
abbrev main_call5_v0 : Ref sig .tc := ⟨.hbm, 162, rfl⟩
abbrev main_call5_v1 : Ref sig .tc := ⟨.hbm, 163, rfl⟩
abbrev main_call5_cst_0 : Ref sig .tc := ⟨.hbm, 164, rfl⟩
abbrev main_call5_v2 : Ref sig .tc := ⟨.hbm, 165, rfl⟩
abbrev main_call5_v3 : Ref sig .tc := ⟨.hbm, 166, rfl⟩
abbrev main_call5_cst_1 : Ref sig .tc := ⟨.hbm, 167, rfl⟩
abbrev main_call5_call0_v0 : Ref sig .tc := ⟨.hbm, 168, rfl⟩
abbrev main_call5_call0_v1 : Ref sig .tc := ⟨.hbm, 169, rfl⟩
abbrev main_call5_v4 : Ref sig .tc := ⟨.hbm, 170, rfl⟩
abbrev main_call5_v5 : Ref sig .tc := ⟨.hbm, 171, rfl⟩
abbrev main_call5_cst_2 : Ref sig .tc := ⟨.hbm, 172, rfl⟩
abbrev main_call5_v6 : Ref sig .tc := ⟨.hbm, 173, rfl⟩
abbrev main_call5_v7 : Ref sig .tc := ⟨.hbm, 174, rfl⟩
abbrev main_v107 : Ref sig .tc := ⟨.hbm, 175, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  concatenates_S50000x128_S50000x128_S50000x256_d1 : Shape.Concatenates [S50000x128, S50000x128] S50000x256 1
  bcast_S_S50000x256 : S_.BroadcastsInDim S50000x256 (![] : Fin 0 → Fin S50000x256.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
import Idealize.ShloMosaic.PureOps.Ideal
import Idealize.ShloMosaic.Lib.ValueIdx
import Mathlib.Algebra.BigOperators.Group.Finset.Basic

/-!
# The two graph convolutions as functions of the inputs, entry by entry

A graph on 50000 nodes is given by 800000 directed edges: edge e goes from node row(e) to node col(e) (two rows of
signed 32-bit words) and carries the weight ew(e). Node features are rows of 128 numbers. Everything below is over the
extended reals.

* The weighted in-degree of node n is the sum of ew(e) over the edges whose col word, read signed, is n (a word
  that names no node is dropped). With a unit self-loop on every node the degree is one more.
* The normalisation of a degree d is d^(-1/2) where d is positive and 0 elsewhere; an edge is normalised by the
  product of its weight and the normalisations of the degrees of its two ends. A gather reads an end through its
  word wrapped (a negative word counts from the end of the table) and clamped into the table.
* Propagating features F along normalised edges gives at node n the sum, over the edges into n, of the edge's
  normalisation times the feature row of its source.
* The first branch propagates hp = h Wh + bh with self-loops, applies a linear map and a leaky rectifier; the
  second propagates (x Wx + bx) Wi without self-loops, adds (x Wx + bx) Wroot and a bias, and applies a rectifier and
  a leaky rectifier. The result is the two branches side by side under an exponential linear unit.
-/

noncomputable section

open scoped BigOperators

namespace Cert.Graph

open Idealize.ShloMosaic Idealize.ShloMosaic.ValueIdx

/-- The literal shapes of the arrays. -/
abbrev SND : Shape := ⟨2, ![50000, 128]⟩
abbrev SN2D : Shape := ⟨2, ![50000, 256]⟩
abbrev SDD : Shape := ⟨2, ![128, 128]⟩
abbrev SD : Shape := ⟨1, ![128]⟩
abbrev SE : Shape := ⟨1, ![800000]⟩
abbrev S2E : Shape := ⟨2, ![2, 800000]⟩

/-- An index word as a gather wraps it: a negative word counts from the end of the 50000 rows. -/
def wrapW (v : BitVec 32) : BitVec 32 := if v.slt 0#32 then v + 50000#32 else v

/-- The row a gather reads for an index word: the wrapped word, read signed and clamped into the table. -/
def gix (v : BitVec 32) : Fin 50000 := ⟨min (wrapW v).toInt.toNat (50000 - 1), by omega⟩

/-- The normalisation of a degree: its inverse square root where it is positive, zero elsewhere. -/
def dinvOf (d : EReal) : EReal := if 0 < d then Ideal.rsqrt d else 0

/-- The slope 0.01 as the float it is written with. -/
abbrev slope : EReal := Ideal.ofBits .f32 0x3C23D70A#32

/-- The leaky rectifier. -/
def leaky (z : EReal) : EReal := if 0 ≤ z then z else slope * z

/-- The exponential linear unit. -/
def elu (z : EReal) : EReal := if 0 < z then z else Ideal.exp z - 1

section

variable (ei : S2E.Idx → BitVec 32) (ew : SE.Idx → EReal)

/-- The source word of edge e. -/
def row (e : Fin 800000) : BitVec 32 := ei (ix2 (0 : Fin 2) e)
/-- The target word of edge e. -/
def col (e : Fin 800000) : BitVec 32 := ei (ix2 (1 : Fin 2) e)

/-- The edges into node n. -/
def into (n : Fin 50000) : Finset (Fin 800000) := Finset.univ.filter fun e => (col ei e).toInt = (n.val : ℤ)

/-- The weighted in-degree of node n, without self-loops. -/
def degP (n : Fin 50000) : EReal := ∑ e ∈ into ei n, ew (ix1 e)

/-- The normalisation of node n without self-loops, and with a unit self-loop on every node. -/
def dinvP (n : Fin 50000) : EReal := dinvOf (degP ei ew n)
def dinvL (n : Fin 50000) : EReal := dinvOf (degP ei ew n + 1)

/-- The normalisation of edge e from a normalisation of nodes. -/
def normWith (dv : Fin 50000 → EReal) (e : Fin 800000) : EReal :=
  dv (gix (row ei e)) * ew (ix1 e) * dv (gix (col ei e))

/-- Features propagated along the normalised edges: at node n, over the edges into n. -/
def agg (nrm : Fin 800000 → EReal) (feat : Fin 50000 → Fin 128 → EReal) (n : Fin 50000) (k : Fin 128) : EReal :=
  ∑ e ∈ into ei n, nrm e * feat (gix (row ei e)) k

end

/-- A feature table times a 128 × 128 matrix. -/
def mm (A : Fin 50000 → Fin 128 → EReal) (W : SDD.Idx → EReal) (n : Fin 50000) (k : Fin 128) : EReal :=
  ∑ j : Fin 128, A n j * W (ix2 j k)

/-- A linear layer on an array of feature rows. -/
def lin (X : SND.Idx → EReal) (W : SDD.Idx → EReal) (b : SD.Idx → EReal) (n : Fin 50000) (k : Fin 128) : EReal :=
  (∑ j : Fin 128, X (ix2 n j) * W (ix2 j k)) + b (ix1 k)

section

variable (h x : SND.Idx → EReal) (ei : S2E.Idx → BitVec 32) (ew : SE.Idx → EReal)
  (Wh : SDD.Idx → EReal) (bh : SD.Idx → EReal) (Wx : SDD.Idx → EReal) (bx : SD.Idx → EReal)
  (Wsg : SDD.Idx → EReal) (bsg : SD.Idx → EReal) (Wi Wroot : SDD.Idx → EReal) (barma : SD.Idx → EReal)

/-- The first branch before its linear map: hp propagated with self-loops (the loop at n carries dinvL n · 1 · dinvL n). -/
def sg (n : Fin 50000) (k : Fin 128) : EReal :=
  agg ei (normWith ei ew (dinvL ei ew)) (lin h Wh bh) n k + dinvL ei ew n * dinvL ei ew n * lin h Wh bh n k

/-- The second branch's propagated part: (x Wx + bx) Wi propagated without self-loops. -/
def arma (n : Fin 50000) (k : Fin 128) : EReal :=
  agg ei (normWith ei ew (dinvP ei ew)) (mm (lin x Wx bx) Wi) n k

/-- The second branch from any table in place of x Wx + bx. -/
def o2With (xp : Fin 50000 → Fin 128 → EReal) (n : Fin 50000) (k : Fin 128) : EReal :=
  leaky (max (agg ei (normWith ei ew (dinvP ei ew)) (mm xp Wi) n k + mm xp Wroot n k + barma (ix1 k)) 0)

/-- The first branch. -/
def o1 (n : Fin 50000) (k : Fin 128) : EReal :=
  leaky (mm (sg h ei ew Wh bh) Wsg n k + bsg (ix1 k))

/-- The second branch. -/
def o2 (n : Fin 50000) (k : Fin 128) : EReal :=
  o2With ei ew Wi Wroot barma (lin x Wx bx) n k

/-- The result at row n, column j: the first branch in columns 0 … 127, the second in columns 128 … 255. -/
def out (n : Fin 50000) (j : Fin 256) : EReal :=
  elu (if hj : j.val < 128 then o1 h ei ew Wh bh Wsg bsg n ⟨j.val, hj⟩
       else o2 x ei ew Wx bx Wi Wroot barma n ⟨j.val - 128, by omega⟩)

end

end Cert.Graph

end
-- ==== Proof.KDefs.lean ====
import proofs.«401336_j87402584473615_3_alg».proof.Proof.Gen.KernelIdeal.Frame
import proofs.«401336_j87402584473615_3_alg».proof.Proof.Spec

set_option maxRecDepth 16384

noncomputable section

open scoped BigOperators

/-!
# Names for the arrays the kernel-side value proof reads

The launch arrays, the first call's three output arrays, the arrays the second call finds, and the result array, each as
a plain function of an index of its literal shape.
-/

namespace Cert.KernelIdeal.Val

open Cert.KernelIdeal Cert.KernelIdeal.Gen Cert.Graph
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The launch arrays as plain functions. -/
abbrev aH (c : Dev nD) : SND.Idx → EReal := m ((c.tc : Thread nD τ).loc main_arg0)
abbrev aX (c : Dev nD) : SND.Idx → EReal := m ((c.tc : Thread nD τ).loc main_arg1)
abbrev aEi (c : Dev nD) : S2E.Idx → BitVec 32 := m ((c.tc : Thread nD τ).loc main_arg2)
abbrev aEw (c : Dev nD) : SE.Idx → EReal := m ((c.tc : Thread nD τ).loc main_arg3)
abbrev aWh (c : Dev nD) : SDD.Idx → EReal := m ((c.tc : Thread nD τ).loc main_arg4)
abbrev aBh (c : Dev nD) : SD.Idx → EReal := m ((c.tc : Thread nD τ).loc main_arg5)
abbrev aWx (c : Dev nD) : SDD.Idx → EReal := m ((c.tc : Thread nD τ).loc main_arg6)
abbrev aBx (c : Dev nD) : SD.Idx → EReal := m ((c.tc : Thread nD τ).loc main_arg7)
abbrev aWsg (c : Dev nD) : SDD.Idx → EReal := m ((c.tc : Thread nD τ).loc main_arg8)
abbrev aBsg (c : Dev nD) : SD.Idx → EReal := m ((c.tc : Thread nD τ).loc main_arg9)
abbrev aWi (c : Dev nD) : SDD.Idx → EReal := m ((c.tc : Thread nD τ).loc main_arg10)
abbrev aWroot (c : Dev nD) : SDD.Idx → EReal := m ((c.tc : Thread nD τ).loc main_arg11)
abbrev aBarma (c : Dev nD) : SD.Idx → EReal := m ((c.tc : Thread nD τ).loc main_arg12)

/-- Region 0's three output arrays and region 1's four computed input arrays, as plain functions. -/
abbrev kXp (c : Dev nD) : SND.Idx → EReal := W2 m ρ c (Proc.devRef .tc main_v6_0)
abbrev kHp (c : Dev nD) : SND.Idx → EReal := W2 m ρ c (Proc.devRef .tc main_v6_1)
abbrev kXpw (c : Dev nD) : SND.Idx → EReal := W2 m ρ c (Proc.devRef .tc main_v6_2)

/-- Region 1's computed input arrays (what the second call finds), as plain functions. -/
abbrev kSgp (c : Dev nD) : SND.Idx → EReal := V7 m ρ c main_v76
abbrev kSl (c : Dev nD) : SND.Idx → EReal := V7 m ρ c main_v81
abbrev kArmap (c : Dev nD) : SND.Idx → EReal := V7 m ρ c main_v77
abbrev kXp7 (c : Dev nD) : SND.Idx → EReal := V7 m ρ c main_v6_0
abbrev kWsg7 (c : Dev nD) : SDD.Idx → EReal := V7 m ρ c main_arg8
abbrev kWroot7 (c : Dev nD) : SDD.Idx → EReal := V7 m ρ c main_arg11
abbrev kBsg7 (c : Dev nD) : (⟨2, ![1, 128]⟩ : Shape).Idx → EReal := V7 m ρ c main_v2
abbrev kBarma7 (c : Dev nD) : (⟨2, ![1, 128]⟩ : Shape).Idx → EReal := V7 m ρ c main_v3
/-- The result array after the run, as a plain function. -/
abbrev kOut (c : Dev nD) : SN2D.Idx → EReal := W8 m ρ c (Proc.devRef .tc main_v82)

end Cert.KernelIdeal.Val

end
-- ==== Proof.KReg0.lean ====
import proofs.«401336_j87402584473615_3_alg».proof.Proof.KDefs
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Val

open Cert.KernelIdeal Cert.KernelIdeal.Gen Cert.Graph
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The three contractions at an index

Each of the three products contracts the left operand's second axis against the right operand's first; the four
coordinate facts per product say which coordinate of the operands an output index and a contraction position name. -/

theorem dK_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin 2) ∈ dot_S5000x128_S128x128_S5000x128_1_0_0_1_n_n.lhsBatch by decide), dif_pos (show (0 : Fin 2) ∈ dot_S5000x128_S128x128_S5000x128_1_0_0_1_n_n.lhsNonContracting by decide)]
  rfl
theorem dK_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dK_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dK_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin 2) ∈ dot_S5000x128_S128x128_S5000x128_1_0_0_1_n_n.rhsBatch by decide), dif_pos (show (1 : Fin 2) ∈ dot_S5000x128_S128x128_S5000x128_1_0_0_1_n_n.rhsNonContracting by decide)]
  rfl

theorem dW_lhs_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin 2) ∈ dot_S128x128_S128x128_S128x128_1_0_0_1_n_n.lhsBatch by decide), dif_pos (show (0 : Fin 2) ∈ dot_S128x128_S128x128_S128x128_1_0_0_1_n_n.lhsNonContracting by decide)]
  rfl
theorem dW_lhs_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem dW_rhs_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem dW_rhs_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin 2) ∈ dot_S128x128_S128x128_S128x128_1_0_0_1_n_n.rhsBatch by decide), dif_pos (show (1 : Fin 2) ∈ dot_S128x128_S128x128_S128x128_1_0_0_1_n_n.rhsNonContracting by decide)]
  rfl

theorem dB_lhs_0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin 2) ∈ dot_S1x128_S128x128_S1x128_1_0_0_1_n_n.lhsBatch by decide), dif_pos (show (0 : Fin 2) ∈ dot_S1x128_S128x128_S1x128_1_0_0_1_n_n.lhsNonContracting by decide)]
  rfl
theorem dB_lhs_1 (i : S1x128.Idx) (q : dot_S1x128_S128x128_S1x128_1_0_0_1_n_n.contr.Idx) :
    (dot_S1x128_S128x128_S1x128_1_0_0_1_n_n.lhsIdx i q 1).val = (q ⟨0, by decide⟩).val :=
  dot_S1x128_S128x128_S1x128_1_0_0_1_n_n.lhsIdx_val_of_single rfl i q
theorem dB_rhs_0 (i : S1x128.Idx) (q : dot_S1x128_S128x128_S1x128_1_0_0_1_n_n.contr.Idx) :
    (dot_S1x128_S128x128_S1x128_1_0_0_1_n_n.rhsIdx i q 0).val = (q ⟨0, by decide⟩).val :=
  dot_S1x128_S128x128_S1x128_1_0_0_1_n_n.rhsIdx_val_of_single rfl i q
theorem dB_rhs_1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin 2) ∈ dot_S1x128_S128x128_S1x128_1_0_0_1_n_n.rhsBatch by decide), dif_pos (show (1 : Fin 2) ∈ dot_S1x128_S128x128_S1x128_1_0_0_1_n_n.rhsNonContracting by decide)]
  rfl

/-- A block of 5000 rows times a 128 × 128 matrix, into a zero accumulator, at row p and column k. -/
theorem matmul_blk_apply (x : FVec Ideal S5000x128 .f32) (w : FVec Ideal S128x128 .f32) (p : Fin 5000) (k : Fin 128) :
    matmul (F := Ideal) dot_S5000x128_S128x128_S5000x128_1_0_0_1_n_n none x w (constant S5000x128 .f32 0x00000000#32) (ix2 p k)
      = ∑ j : Fin 128, x (ix2 p j) * w (ix2 j k) := by
  refine (Ideal.matmul_constant_zero_apply dot_S5000x128_S128x128_S5000x128_1_0_0_1_n_n none x w (ix2 p k)).trans ?_
  rw [← Equiv.sum_comp (contrEquiv1 dot_S5000x128_S128x128_S5000x128_1_0_0_1_n_n 128 rfl rfl).symm]
  refine Finset.sum_congr rfl fun j _ => ?_
  have hk := contrEquiv1_symm_val dot_S5000x128_S128x128_S5000x128_1_0_0_1_n_n 128 rfl rfl j
  have el : dot_S5000x128_S128x128_S5000x128_1_0_0_1_n_n.lhsIdx (ix2 p k) ((contrEquiv1 dot_S5000x128_S128x128_S5000x128_1_0_0_1_n_n 128 rfl rfl).symm j) = ix2 p j := funext fun a => Fin.ext (by
    match a with
    | ⟨0, _⟩ => exact dK_lhs_0 _ _
    | ⟨1, _⟩ => exact (dK_lhs_1 _ _).trans hk)
  have er : dot_S5000x128_S128x128_S5000x128_1_0_0_1_n_n.rhsIdx (ix2 p k) ((contrEquiv1 dot_S5000x128_S128x128_S5000x128_1_0_0_1_n_n 128 rfl rfl).symm j) = ix2 j k := funext fun a => Fin.ext (by
    match a with
    | ⟨0, _⟩ => exact (dK_rhs_0 _ _).trans hk
    | ⟨1, _⟩ => exact dK_rhs_1 _ _)
  rw [el, er]

/-- The first stored value at row p, column k: the block's row times the matrix's column, plus the bias row's entry. -/
theorem pay1_apply (x : Vec Ideal S5000x128 .f32) (w : Vec Ideal S128x128 .f32) (b : Vec Ideal S1x128 .f32) (p : Fin 5000) (k : Fin 128) :
    k0_pay1 (F := Ideal) x w b (ix2 p k) = (∑ j : Fin 128, x (ix2 p j) * w (ix2 j k)) + b (ix2 (0 : Fin 1) k) := by
  unfold k0_pay1
  refine (addf_apply _ _ _).trans ?_
  rw [matmul_blk_apply, shapeCast_self, broadcastTo_1b_ab_apply]

/-- The second stored value, the same shape over the h block, its matrix and its bias row. -/
theorem pay2_apply (x : Vec Ideal S5000x128 .f32) (w : Vec Ideal S128x128 .f32) (b : Vec Ideal S1x128 .f32) (p : Fin 5000) (k : Fin 128) :
    k0_pay2 (F := Ideal) x w b (ix2 p k) = (∑ j : Fin 128, x (ix2 p j) * w (ix2 j k)) + b (ix2 (0 : Fin 1) k) := by
  unfold k0_pay2
  refine (addf_apply _ _ _).trans ?_
  rw [matmul_blk_apply, shapeCast_self, broadcastTo_1b_ab_apply]

/-- The third stored value: the x block times the product matrix, plus the product bias row. -/
theorem pay3_apply (x : Vec Ideal S5000x128 .f32) (w : Vec Ideal S128x128 .f32) (b : Vec Ideal S1x128 .f32) (p : Fin 5000) (k : Fin 128) :
    k0_pay3 (F := Ideal) x w b (ix2 p k) = (∑ j : Fin 128, x (ix2 p j) * w (ix2 j k)) + b (ix2 (0 : Fin 1) k) := by
  unfold k0_pay3
  refine (addf_apply _ _ _).trans ?_
  rw [shapeCast_self, matmul_blk_apply, shapeCast_self, broadcastTo_1b_ab_apply]

/-! ## Region 0 at any entry contents

The first call runs over ten points; point t stages rows 5000·t … 5000·t + 4999 of the two feature tables and the whole
of every matrix and bias row, and writes back the same rows of its three results. -/

section Region

variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-- Rows times a matrix plus a one-row bias, as a whole array. -/
def affAt (X : SND.Idx → EReal) (W : SDD.Idx → EReal) (B : S1x128.Idx → EReal) (n : Fin 50000) (k : Fin 128) : EReal :=
  (∑ j : Fin 128, X (ix2 n j) * W (ix2 j k)) + B (ix2 (0 : Fin 1) k)
def affine (X : SND.Idx → EReal) (W : SDD.Idx → EReal) (B : S1x128.Idx → EReal) : SND.Idx → EReal :=
  fun i => affAt X W B (i 0) (i 1)

/-- The block index of every window at every point: the row-blocked windows sit at block t, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- Window 0's block at point t, at (p, j), is the x table at row 5000·t + p. -/
theorem blk0_apply (c : Dev nD) (t : Fin cfg0.N) (y : S5000x128.Idx) (i : SND.Idx)
    (h0 : (i 0).val = 5000 * t.val + (y 0).val) (h1 : (i 1).val = (y 1).val) :
    (iblk0 V c 0 t : Vec Ideal S5000x128 .f32) y = (V c main_arg1 : SND.Idx → EReal) i := by
  obtain ⟨e0, e1, -⟩ := idx_facts t
  unfold iblk0
  rw [View.read_apply]
  show V c main_arg1 _ = V c main_arg1 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- Window 1's block at point t, at (p, j), is its table at row 5000·t + p. -/
theorem blk1_apply (c : Dev nD) (t : Fin cfg0.N) (y : S5000x128.Idx) (i : SND.Idx)
    (h0 : (i 0).val = 5000 * t.val + (y 0).val) (h1 : (i 1).val = (y 1).val) :
    (iblk0 V c 1 t : Vec Ideal S5000x128 .f32) y = (V c main_arg0 : SND.Idx → EReal) i := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t (0 : Fin 2) * 5000 + 1 * (y 0).val = (i 0).val; rw [e0, h0]; omega
  | ⟨1, _⟩ => show win0_1.index t (1 : Fin 2) * 128 + 1 * (y 1).val = (i 1).val; rw [e1, h1]; omega

/-- Window 2 stages its whole array at every point. -/
theorem blk2_apply (c : Dev nD) (t : Fin cfg0.N) (y : S128x128.Idx) :
    (iblk0 V c 2 t : Vec Ideal S128x128 .f32) y = (V c main_arg6 : SDD.Idx → EReal) y := by
  obtain ⟨-, -, -, -, e0, e1, -⟩ := idx_facts t
  unfold iblk0
  rw [View.read_apply]
  show V c main_arg6 _ = V c main_arg6 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- Window 3 stages its whole array at every point. -/
theorem blk3_apply (c : Dev nD) (t : Fin cfg0.N) (y : S1x128.Idx) :
    (iblk0 V c 3 t : Vec Ideal S1x128 .f32) y = (V c main_v1 : S1x128.Idx → EReal) y := by
  obtain ⟨-, -, -, -, -, -, e0, e1, -⟩ := idx_facts t
  unfold iblk0
  rw [View.read_apply]
  show V c main_v1 _ = V c main_v1 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- Window 4 stages its whole array at every point. -/
theorem blk4_apply (c : Dev nD) (t : Fin cfg0.N) (y : S128x128.Idx) :
    (iblk0 V c 4 t : Vec Ideal S128x128 .f32) y = (V c main_arg4 : SDD.Idx → EReal) y := by
  obtain ⟨-, -, -, -, -, -, -, -, e0, e1, -⟩ := idx_facts t
  unfold iblk0
  rw [View.read_apply]
  show V c main_arg4 _ = V c main_arg4 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Window 5 stages its whole array at every point. -/
theorem blk5_apply (c : Dev nD) (t : Fin cfg0.N) (y : S1x128.Idx) :
    (iblk0 V c 5 t : Vec Ideal S1x128 .f32) y = (V c main_v0 : S1x128.Idx → EReal) y := by
  obtain ⟨-, -, -, -, -, -, -, -, -, -, e0, e1, -⟩ := idx_facts t
  unfold iblk0
  rw [View.read_apply]
  show V c main_v0 _ = V c main_v0 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- Window 6 stages its whole array at every point. -/
theorem blk6_apply (c : Dev nD) (t : Fin cfg0.N) (y : S128x128.Idx) :
    (iblk0 V c 6 t : Vec Ideal S128x128 .f32) y = (V c main_v4 : SDD.Idx → EReal) y := by
  obtain ⟨-, -, -, -, -, -, -, -, -, -, -, -, e0, e1, -⟩ := idx_facts t
  unfold iblk0
  rw [View.read_apply]
  show V c main_v4 _ = V c main_v4 _
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

/-- Window 7 stages its whole array at every point. -/
theorem blk7_apply (c : Dev nD) (t : Fin cfg0.N) (y : S1x128.Idx) :
    (iblk0 V c 7 t : Vec Ideal S1x128 .f32) y = (V c main_v5 : S1x128.Idx → EReal) y := by
  obtain ⟨-, -, -, -, -, -, -, -, -, -, -, -, -, -, e0, e1, -⟩ := idx_facts t
  unfold iblk0
  rw [View.read_apply]
  show V c main_v5 _ = V c main_v5 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- A stored value at block entry (p, q), where the block's row p is row n of the table: the table's row times the
    matrix's column plus the bias row's entry. -/
theorem sum_blk (X : SND.Idx → EReal) (W : SDD.Idx → EReal) (B : S1x128.Idx → EReal)
    (x : Vec Ideal S5000x128 .f32) (w : Vec Ideal S128x128 .f32) (b : Vec Ideal S1x128 .f32)
    (p : Fin 5000) (q : Fin 128) (n : Fin 50000)
    (hx : ∀ j : Fin 128, x (ix2 p j) = X (ix2 n j))
    (hw : ∀ j l : Fin 128, w (ix2 j l) = W (ix2 j l))
    (hb : ∀ l : Fin 128, b (ix2 (0 : Fin 1) l) = B (ix2 (0 : Fin 1) l)) :
    (∑ j : Fin 128, x (ix2 p j) * w (ix2 j q)) + b (ix2 (0 : Fin 1) q) = affine X W B (ix2 n q) := by
  show _ = (∑ j : Fin 128, X (ix2 n j) * W (ix2 j q)) + B (ix2 (0 : Fin 1) q)
  rw [hb]
  congr 1
  exact Finset.sum_congr rfl fun j _ => by rw [hx, hw]

/-- The three stored values at a block entry and the array index it is written to. -/
theorem pay1_blk (X : SND.Idx → EReal) (W : SDD.Idx → EReal) (B : S1x128.Idx → EReal)
    (x : Vec Ideal S5000x128 .f32) (w : Vec Ideal S128x128 .f32) (b : Vec Ideal S1x128 .f32)
    (p : Fin 5000) (q : Fin 128) (n : Fin 50000) (y : S5000x128.Idx) (i : SND.Idx)
    (hy : y = ix2 p q) (hi : i = ix2 n q)
    (hx : ∀ j : Fin 128, x (ix2 p j) = X (ix2 n j))
    (hw : ∀ j l : Fin 128, w (ix2 j l) = W (ix2 j l))
    (hb : ∀ l : Fin 128, b (ix2 (0 : Fin 1) l) = B (ix2 (0 : Fin 1) l)) :
    k0_pay1 (F := Ideal) x w b y = affine X W B i := by
  subst hy hi
  exact (pay1_apply x w b p q).trans (sum_blk X W B x w b p q n hx hw hb)

theorem pay2_blk (X : SND.Idx → EReal) (W : SDD.Idx → EReal) (B : S1x128.Idx → EReal)
    (x : Vec Ideal S5000x128 .f32) (w : Vec Ideal S128x128 .f32) (b : Vec Ideal S1x128 .f32)
    (p : Fin 5000) (q : Fin 128) (n : Fin 50000) (y : S5000x128.Idx) (i : SND.Idx)
    (hy : y = ix2 p q) (hi : i = ix2 n q)
    (hx : ∀ j : Fin 128, x (ix2 p j) = X (ix2 n j))
    (hw : ∀ j l : Fin 128, w (ix2 j l) = W (ix2 j l))
    (hb : ∀ l : Fin 128, b (ix2 (0 : Fin 1) l) = B (ix2 (0 : Fin 1) l)) :
    k0_pay2 (F := Ideal) x w b y = affine X W B i := by
  subst hy hi
  exact (pay2_apply x w b p q).trans (sum_blk X W B x w b p q n hx hw hb)

theorem pay3_blk (X : SND.Idx → EReal) (W : SDD.Idx → EReal) (B : S1x128.Idx → EReal)
    (x : Vec Ideal S5000x128 .f32) (w : Vec Ideal S128x128 .f32) (b : Vec Ideal S1x128 .f32)
    (p : Fin 5000) (q : Fin 128) (n : Fin 50000) (y : S5000x128.Idx) (i : SND.Idx)
    (hy : y = ix2 p q) (hi : i = ix2 n q)
    (hx : ∀ j : Fin 128, x (ix2 p j) = X (ix2 n j))
    (hw : ∀ j l : Fin 128, w (ix2 j l) = W (ix2 j l))
    (hb : ∀ l : Fin 128, b (ix2 (0 : Fin 1) l) = B (ix2 (0 : Fin 1) l)) :
    k0_pay3 (F := Ideal) x w b y = affine X W B i := by
  subst hy hi
  exact (pay3_apply x w b p q).trans (sum_blk X W B x w b p q n hx hw hb)

/-- What point t writes back through window 8 is block t of the affine map of the arrays the region found. -/
theorem flushed8_eq (c : Dev nD) (t : Fin cfg0.N) :
    (dat0 V c).flushed 8 t = ((cfg0.win 8).blk t).view.read (Elt Ideal)
      (affine (V c main_arg1) (V c main_arg6) (V c main_v1)) := by
  show (cfg0.win 8).cut (grid0.coords t) ((dat0 V c).after 8 t) = _
  rw [after0_8]
  unfold out0_8
  rw [View.canon_unit_zero hz]
  simp only [View.ld_unit_zero (S := S5000x128) hz, View.ld_unit_zero (S := S128x128) hz, View.ld_unit_zero (S := S1x128) hz]
  obtain ⟨-, -, -, -, -, -, -, -, -, -, -, -, -, -, -, -, e0, e1, -⟩ := idx_facts t
  have ht : t.val < grid0.N := t.isLt
  rw [N_0] at ht
  funext j
  rw [View.read_apply]
  have hj0 : (j 0).val < 5000 := (j 0).isLt
  have hj1 : (j 1).val < 128 := (j 1).isLt
  refine pay1_blk (V c main_arg1) (V c main_arg6) (V c main_v1) (iblk0 V c 0 t) (iblk0 V c 2 t) (iblk0 V c 3 t)
    ⟨(j 0).val, hj0⟩ ⟨(j 1).val, hj1⟩ ⟨5000 * t.val + (j 0).val, by omega⟩
    ((cfg0.win 8).xinj (grid0.coords t) j) (((cfg0.win 8).blk t).view.emb j) ?_ ?_
    (fun l => blk0_apply V c t _ _ rfl rfl) (fun a l => blk2_apply V c t _) (fun l => blk3_apply V c t _)
  · funext a
    match a with
    | ⟨0, _⟩ => rfl
    | ⟨1, _⟩ => rfl
  · funext a
    apply Fin.ext
    match a with
    | ⟨0, _⟩ => show win0_8.index t (0 : Fin 2) * 5000 + 1 * (j 0).val = 5000 * t.val + (j 0).val; rw [e0]; omega
    | ⟨1, _⟩ => show win0_8.index t (1 : Fin 2) * 128 + 1 * (j 1).val = (j 1).val; rw [e1]; omega

/-- What point t writes back through window 9 is block t of the affine map of the arrays the region found. -/
theorem flushed9_eq (c : Dev nD) (t : Fin cfg0.N) :
    (dat0 V c).flushed 9 t = ((cfg0.win 9).blk t).view.read (Elt Ideal)
      (affine (V c main_arg0) (V c main_arg4) (V c main_v0)) := by
  show (cfg0.win 9).cut (grid0.coords t) ((dat0 V c).after 9 t) = _
  rw [after0_9]
  unfold out0_9
  rw [View.canon_unit_zero hz]
  simp only [View.ld_unit_zero (S := S5000x128) hz, View.ld_unit_zero (S := S128x128) hz, View.ld_unit_zero (S := S1x128) hz]
  obtain ⟨-, -, -, -, -, -, -, -, -, -, -, -, -, -, -, -, -, -, e0, e1, -⟩ := idx_facts t
  have ht : t.val < grid0.N := t.isLt
  rw [N_0] at ht
  funext j
  rw [View.read_apply]
  have hj0 : (j 0).val < 5000 := (j 0).isLt
  have hj1 : (j 1).val < 128 := (j 1).isLt
  refine pay2_blk (V c main_arg0) (V c main_arg4) (V c main_v0) (iblk0 V c 1 t) (iblk0 V c 4 t) (iblk0 V c 5 t)
    ⟨(j 0).val, hj0⟩ ⟨(j 1).val, hj1⟩ ⟨5000 * t.val + (j 0).val, by omega⟩
    ((cfg0.win 9).xinj (grid0.coords t) j) (((cfg0.win 9).blk t).view.emb j) ?_ ?_
    (fun l => blk1_apply V c t _ _ rfl rfl) (fun a l => blk4_apply V c t _) (fun l => blk5_apply V c t _)
  · funext a
    match a with
    | ⟨0, _⟩ => rfl
    | ⟨1, _⟩ => rfl
  · funext a
    apply Fin.ext
    match a with
    | ⟨0, _⟩ => show win0_9.index t (0 : Fin 2) * 5000 + 1 * (j 0).val = 5000 * t.val + (j 0).val; rw [e0]; omega
    | ⟨1, _⟩ => show win0_9.index t (1 : Fin 2) * 128 + 1 * (j 1).val = (j 1).val; rw [e1]; omega

/-- What point t writes back through window 10 is block t of the affine map of the arrays the region found. -/
theorem flushed10_eq (c : Dev nD) (t : Fin cfg0.N) :
    (dat0 V c).flushed 10 t = ((cfg0.win 10).blk t).view.read (Elt Ideal)
      (affine (V c main_arg1) (V c main_v4) (V c main_v5)) := by
  show (cfg0.win 10).cut (grid0.coords t) ((dat0 V c).after 10 t) = _
  rw [after0_10]
  unfold out0_10
  rw [View.canon_unit_zero hz]
  simp only [View.ld_unit_zero (S := S5000x128) hz, View.ld_unit_zero (S := S128x128) hz, View.ld_unit_zero (S := S1x128) hz]
  obtain ⟨-, -, -, -, -, -, -, -, -, -, -, -, -, -, -, -, -, -, -, -, e0, e1⟩ := idx_facts t
  have ht : t.val < grid0.N := t.isLt
  rw [N_0] at ht
  funext j
  rw [View.read_apply]
  have hj0 : (j 0).val < 5000 := (j 0).isLt
  have hj1 : (j 1).val < 128 := (j 1).isLt
  refine pay3_blk (V c main_arg1) (V c main_v4) (V c main_v5) (iblk0 V c 0 t) (iblk0 V c 6 t) (iblk0 V c 7 t)
    ⟨(j 0).val, hj0⟩ ⟨(j 1).val, hj1⟩ ⟨5000 * t.val + (j 0).val, by omega⟩
    ((cfg0.win 10).xinj (grid0.coords t) j) (((cfg0.win 10).blk t).view.emb j) ?_ ?_
    (fun l => blk0_apply V c t _ _ rfl rfl) (fun a l => blk6_apply V c t _) (fun l => blk7_apply V c t _)
  · funext a
    match a with
    | ⟨0, _⟩ => rfl
    | ⟨1, _⟩ => rfl
  · funext a
    apply Fin.ext
    match a with
    | ⟨0, _⟩ => show win0_10.index t (0 : Fin 2) * 5000 + 1 * (j 0).val = 5000 * t.val + (j 0).val; rw [e0]; omega
    | ⟨1, _⟩ => show win0_10.index t (1 : Fin 2) * 128 + 1 * (j 1).val = (j 1).val; rw [e1]; omega

/-- An index of the result array is in point t's block of window 8 iff each coordinate is in the block's range. -/
theorem mem_blk8 (t : Fin cfg0.N) (i : SND.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v6_0).slice (win0_8.rect t)).set ↔ _
  rw [View.set_slice_whole, Rect.mem_set_unit]
  exact Iff.rfl

/-- Row r of the result lies in the block of point r / 5000, which is written back. -/
theorem cover8 (i : SND.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : grid0.N = 10 := N_0
  obtain ⟨t, htv⟩ : ∃ t : Fin cfg0.N, t.val = (i 0).val / 5000 := ⟨⟨(i 0).val / 5000, by show _ < grid0.N; omega⟩, rfl⟩
  obtain ⟨-, -, -, -, -, -, -, -, -, -, -, -, -, -, -, -, e0, e1, -⟩ := idx_facts t
  refine ⟨t, flush0_8 t, ?_⟩
  rw [mem_blk8]
  intro a
  match a with
  | ⟨0, _⟩ => show win0_8.index t (0 : Fin 2) * 5000 ≤ (i 0).val ∧ (i 0).val < win0_8.index t (0 : Fin 2) * 5000 + 5000; rw [e0, htv]; omega
  | ⟨1, _⟩ => show win0_8.index t (1 : Fin 2) * 128 ≤ (i 1).val ∧ (i 1).val < win0_8.index t (1 : Fin 2) * 128 + 128; rw [e1]; omega

/-- The whole result array of window 8 after the region. -/
theorem final8 (c : Dev nD) :
    (dat0 V c).arrAt 8 cfg0.N = affine (V c main_arg1) (V c main_arg6) (V c main_v1) :=
  (dat0 V c).arrAt_eq_of_cover 8 (affine (V c main_arg1) (V c main_arg6) (V c main_v1)) (fun t _ => flushed8_eq V c t) cover8

/-- An index of the result array is in point t's block of window 9 iff each coordinate is in the block's range. -/
theorem mem_blk9 (t : Fin cfg0.N) (i : SND.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v6_1).slice (win0_9.rect t)).set ↔ _
  rw [View.set_slice_whole, Rect.mem_set_unit]
  exact Iff.rfl

/-- Row r of the result lies in the block of point r / 5000, which is written back. -/
theorem cover9 (i : SND.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  have hN : grid0.N = 10 := N_0
  obtain ⟨t, htv⟩ : ∃ t : Fin cfg0.N, t.val = (i 0).val / 5000 := ⟨⟨(i 0).val / 5000, by show _ < grid0.N; omega⟩, rfl⟩
  obtain ⟨-, -, -, -, -, -, -, -, -, -, -, -, -, -, -, -, -, -, e0, e1, -⟩ := idx_facts t
  refine ⟨t, flush0_9 t, ?_⟩
  rw [mem_blk9]
  intro a
  match a with
  | ⟨0, _⟩ => show win0_9.index t (0 : Fin 2) * 5000 ≤ (i 0).val ∧ (i 0).val < win0_9.index t (0 : Fin 2) * 5000 + 5000; rw [e0, htv]; omega
  | ⟨1, _⟩ => show win0_9.index t (1 : Fin 2) * 128 ≤ (i 1).val ∧ (i 1).val < win0_9.index t (1 : Fin 2) * 128 + 128; rw [e1]; omega

/-- The whole result array of window 9 after the region. -/
theorem final9 (c : Dev nD) :
    (dat0 V c).arrAt 9 cfg0.N = affine (V c main_arg0) (V c main_arg4) (V c main_v0) :=
  (dat0 V c).arrAt_eq_of_cover 9 (affine (V c main_arg0) (V c main_arg4) (V c main_v0)) (fun t _ => flushed9_eq V c t) cover9

/-- An index of the result array is in point t's block of window 10 iff each coordinate is in the block's range. -/
theorem mem_blk10 (t : Fin cfg0.N) (i : SND.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v6_2).slice (win0_10.rect t)).set ↔ _
  rw [View.set_slice_whole, Rect.mem_set_unit]
  exact Iff.rfl

/-- Row r of the result lies in the block of point r / 5000, which is written back. -/
theorem cover10 (i : SND.Idx) :
    ∃ t : Fin cfg0.N, (cfg0.win 10).flush t = true ∧ i ∈ ((cfg0.win 10).blk t).view.set := by
  have hi0 : (i 0).val < 50000 := (i 0).isLt
  have hi1 : (i 1).val < 128 := (i 1).isLt
  have hN : grid0.N = 10 := N_0
  obtain ⟨t, htv⟩ : ∃ t : Fin cfg0.N, t.val = (i 0).val / 5000 := ⟨⟨(i 0).val / 5000, by show _ < grid0.N; omega⟩, rfl⟩
  obtain ⟨-, -, -, -, -, -, -, -, -, -, -, -, -, -, -, -, -, -, -, -, e0, e1⟩ := idx_facts t
  refine ⟨t, flush0_10 t, ?_⟩
  rw [mem_blk10]
  intro a
  match a with
  | ⟨0, _⟩ => show win0_10.index t (0 : Fin 2) * 5000 ≤ (i 0).val ∧ (i 0).val < win0_10.index t (0 : Fin 2) * 5000 + 5000; rw [e0, htv]; omega
  | ⟨1, _⟩ => show win0_10.index t (1 : Fin 2) * 128 ≤ (i 1).val ∧ (i 1).val < win0_10.index t (1 : Fin 2) * 128 + 128; rw [e1]; omega

/-- The whole result array of window 10 after the region. -/
theorem final10 (c : Dev nD) :
    (dat0 V c).arrAt 10 cfg0.N = affine (V c main_arg1) (V c main_v4) (V c main_v5) :=
  (dat0 V c).arrAt_eq_of_cover 10 (affine (V c main_arg1) (V c main_v4) (V c main_v5)) (fun t _ => flushed10_eq V c t) cover10

end Region

/-! ## The arrays the first call finds, and its three results -/

/-- The affine map at row n, column k. -/
theorem affine_apply (X : SND.Idx → EReal) (W : SDD.Idx → EReal) (B : S1x128.Idx → EReal) (n : Fin 50000) (k : Fin 128) :
    affine X W B (ix2 n k) = (∑ j : Fin 128, X (ix2 n j) * W (ix2 j k)) + B (ix2 (0 : Fin 1) k) := rfl

/-- The bias row of x as the 1 × 128 array the host reshapes it to. -/
abbrev bxRow (c : Dev nD) : S1x128.Idx → EReal := shapeCast S1x128 (aBx m c) shapeCasts_S128_S1x128
abbrev bhRow (c : Dev nD) : S1x128.Idx → EReal := shapeCast S1x128 (aBh m c) shapeCasts_S128_S1x128

/-- What the host operations before the first call leave in the arrays it stages: the two bias rows reshaped to
    1 × 128, the matrix product Wx·Wi and the row product bx·Wi. -/
theorem V1_v1 (c : Dev nD) : (V1 m ρ c main_v1 : S1x128.Idx → EReal) = bxRow m c := by
  dsimp only [V1, W1, hostOps0]; after_results; rfl
theorem V1_v0 (c : Dev nD) : (V1 m ρ c main_v0 : S1x128.Idx → EReal) = bhRow m c := by
  dsimp only [V1, W1, hostOps0]; after_results; rfl
theorem V1_v4 (c : Dev nD) : (V1 m ρ c main_v4 : SDD.Idx → EReal)
    = Host.dotGeneral (F := Ideal) (φ₁ := .f32) (φ₂ := .f32) dot_S128x128_S128x128_S128x128_1_0_0_1_n_n none (aWx m c) (aWi m c) := by
  dsimp only [V1, W1, hostOps0]; after_results
theorem V1_v5 (c : Dev nD) : (V1 m ρ c main_v5 : S1x128.Idx → EReal)
    = Host.dotGeneral (F := Ideal) (φ₁ := .f32) (φ₂ := .f32) dot_S1x128_S128x128_S1x128_1_0_0_1_n_n none (bxRow m c) (aWi m c) := by
  dsimp only [V1, W1, hostOps0]; after_results; rfl

/-- No host operation before the first call writes an argument array: each is as launched. -/
theorem V1_arg1 (c : Dev nD) : (V1 m ρ c main_arg1 : SND.Idx → EReal) = aX m c := by
  show W1 m ρ c (Proc.devRef .tc main_arg1) = W0 m ρ c (Proc.devRef .tc main_arg1)
  exact StableHlo.after_of_forall_not_mem (b := Proc.devRef .tc main_arg1) _ _ (List.forall_iff_forall_mem.mp (by
    simp only [hostOps0, List.Forall, StableHlo.reshape_writes, StableHlo.binary_writes, Finset.mem_singleton]
    repeat' apply And.intro
    all_goals exact StableHlo.devRef_ne_of_ne (by decide)))

theorem V1_arg0 (c : Dev nD) : (V1 m ρ c main_arg0 : SND.Idx → EReal) = aH m c := by
  show W1 m ρ c (Proc.devRef .tc main_arg0) = W0 m ρ c (Proc.devRef .tc main_arg0)
  exact StableHlo.after_of_forall_not_mem (b := Proc.devRef .tc main_arg0) _ _ (List.forall_iff_forall_mem.mp (by
    simp only [hostOps0, List.Forall, StableHlo.reshape_writes, StableHlo.binary_writes, Finset.mem_singleton]
    repeat' apply And.intro
    all_goals exact StableHlo.devRef_ne_of_ne (by decide)))

theorem V1_arg6 (c : Dev nD) : (V1 m ρ c main_arg6 : SDD.Idx → EReal) = aWx m c := by
  show W1 m ρ c (Proc.devRef .tc main_arg6) = W0 m ρ c (Proc.devRef .tc main_arg6)
  exact StableHlo.after_of_forall_not_mem (b := Proc.devRef .tc main_arg6) _ _ (List.forall_iff_forall_mem.mp (by
    simp only [hostOps0, List.Forall, StableHlo.reshape_writes, StableHlo.binary_writes, Finset.mem_singleton]
    repeat' apply And.intro
    all_goals exact StableHlo.devRef_ne_of_ne (by decide)))

theorem V1_arg4 (c : Dev nD) : (V1 m ρ c main_arg4 : SDD.Idx → EReal) = aWh m c := by
  show W1 m ρ c (Proc.devRef .tc main_arg4) = W0 m ρ c (Proc.devRef .tc main_arg4)
  exact StableHlo.after_of_forall_not_mem (b := Proc.devRef .tc main_arg4) _ _ (List.forall_iff_forall_mem.mp (by
    simp only [hostOps0, List.Forall, StableHlo.reshape_writes, StableHlo.binary_writes, Finset.mem_singleton]
    repeat' apply And.intro
    all_goals exact StableHlo.devRef_ne_of_ne (by decide)))

/-! ## The two host products at an index -/

theorem hostDot_dW_apply (a : FVec Ideal S128x128 .f32) (b : FVec Ideal S128x128 .f32) (p : Fin 128) (k : Fin 128) :
    Host.dotGeneral (F := Ideal) (φ₁ := .f32) (φ₂ := .f32) dot_S128x128_S128x128_S128x128_1_0_0_1_n_n none a b (ix2 p k) = ∑ l : Fin 128, a (ix2 p l) * b (ix2 l k) := by
  refine (Ideal.dotGeneral_apply dot_S128x128_S128x128_S128x128_1_0_0_1_n_n none HostSchedule.single a b (ix2 p k)).trans ?_
  rw [← Equiv.sum_comp (contrEquiv1 dot_S128x128_S128x128_S128x128_1_0_0_1_n_n 128 rfl rfl).symm]
  refine Finset.sum_congr rfl fun l _ => ?_
  have hk := contrEquiv1_symm_val dot_S128x128_S128x128_S128x128_1_0_0_1_n_n 128 rfl rfl l
  have el : dot_S128x128_S128x128_S128x128_1_0_0_1_n_n.lhsIdx (ix2 p k) ((contrEquiv1 dot_S128x128_S128x128_S128x128_1_0_0_1_n_n 128 rfl rfl).symm l) = ix2 p l := funext fun a => Fin.ext (by
    match a with
    | ⟨0, _⟩ => exact dW_lhs_0 _ _
    | ⟨1, _⟩ => exact (dW_lhs_1 _ _).trans hk)
  have er : dot_S128x128_S128x128_S128x128_1_0_0_1_n_n.rhsIdx (ix2 p k) ((contrEquiv1 dot_S128x128_S128x128_S128x128_1_0_0_1_n_n 128 rfl rfl).symm l) = ix2 l k := funext fun a => Fin.ext (by
    match a with
    | ⟨0, _⟩ => exact (dW_rhs_0 _ _).trans hk
    | ⟨1, _⟩ => exact dW_rhs_1 _ _)
  rw [el, er]

theorem hostDot_dB_apply (a : FVec Ideal S1x128 .f32) (b : FVec Ideal S128x128 .f32) (p : Fin 1) (k : Fin 128) :
    Host.dotGeneral (F := Ideal) (φ₁ := .f32) (φ₂ := .f32) dot_S1x128_S128x128_S1x128_1_0_0_1_n_n none a b (ix2 p k) = ∑ l : Fin 128, a (ix2 p l) * b (ix2 l k) := by
  refine (Ideal.dotGeneral_apply dot_S1x128_S128x128_S1x128_1_0_0_1_n_n none HostSchedule.single a b (ix2 p k)).trans ?_
  rw [← Equiv.sum_comp (contrEquiv1 dot_S1x128_S128x128_S1x128_1_0_0_1_n_n 128 rfl rfl).symm]
  refine Finset.sum_congr rfl fun l _ => ?_
  have hk := contrEquiv1_symm_val dot_S1x128_S128x128_S1x128_1_0_0_1_n_n 128 rfl rfl l
  have el : dot_S1x128_S128x128_S1x128_1_0_0_1_n_n.lhsIdx (ix2 p k) ((contrEquiv1 dot_S1x128_S128x128_S1x128_1_0_0_1_n_n 128 rfl rfl).symm l) = ix2 p l := funext fun a => Fin.ext (by
    match a with
    | ⟨0, _⟩ => exact dB_lhs_0 _ _
    | ⟨1, _⟩ => exact (dB_lhs_1 _ _).trans hk)
  have er : dot_S1x128_S128x128_S1x128_1_0_0_1_n_n.rhsIdx (ix2 p k) ((contrEquiv1 dot_S1x128_S128x128_S1x128_1_0_0_1_n_n 128 rfl rfl).symm l) = ix2 l k := funext fun a => Fin.ext (by
    match a with
    | ⟨0, _⟩ => exact (dB_rhs_0 _ _).trans hk
    | ⟨1, _⟩ => exact dB_rhs_1 _ _)
  rw [el, er]

/-! ## The three results -/

/-- The first result is x·Wx + bx. -/
theorem W2_xp (c : Dev nD) (n : Fin 50000) (k : Fin 128) :
    kXp m ρ c (ix2 n k) = lin (aX m c) (aWx m c) (aBx m c) n k := by
  have e : (kXp m ρ c : SND.Idx → EReal) = affine (aX m c) (aWx m c) (bxRow m c) := by
    refine ((W2_arr m ρ c 8).trans (final8 (V1 m ρ) c)).trans ?_
    rw [V1_arg1, V1_arg6, V1_v1]
  rw [e, affine_apply]
  unfold lin bxRow
  rw [shapeCast_a_1a_apply]

/-- The second result is h·Wh + bh. -/
theorem W2_hp (c : Dev nD) (n : Fin 50000) (k : Fin 128) :
    kHp m ρ c (ix2 n k) = lin (aH m c) (aWh m c) (aBh m c) n k := by
  have e : (kHp m ρ c : SND.Idx → EReal) = affine (aH m c) (aWh m c) (bhRow m c) := by
    refine ((W2_arr m ρ c 9).trans (final9 (V1 m ρ) c)).trans ?_
    rw [V1_arg0, V1_arg4, V1_v0]
  rw [e, affine_apply]
  unfold lin bhRow
  rw [shapeCast_a_1a_apply]

/-- The third result is x·(Wx·Wi) + bx·Wi, each product written as its sum. -/
theorem W2_xpw (c : Dev nD) (n : Fin 50000) (k : Fin 128) :
    kXpw m ρ c (ix2 n k) = (∑ j : Fin 128, aX m c (ix2 n j) * (∑ l : Fin 128, aWx m c (ix2 j l) * aWi m c (ix2 l k)))
      + ∑ l : Fin 128, aBx m c (ix1 l) * aWi m c (ix2 l k) := by
  have e : (kXpw m ρ c : SND.Idx → EReal) = affine (aX m c)
      (Host.dotGeneral (F := Ideal) (φ₁ := .f32) (φ₂ := .f32) dot_S128x128_S128x128_S128x128_1_0_0_1_n_n none (aWx m c) (aWi m c))
      (Host.dotGeneral (F := Ideal) (φ₁ := .f32) (φ₂ := .f32) dot_S1x128_S128x128_S1x128_1_0_0_1_n_n none (bxRow m c) (aWi m c)) := by
    refine ((W2_arr m ρ c 10).trans (final10 (V1 m ρ) c)).trans ?_
    rw [V1_arg1, V1_v4, V1_v5]
  rw [e, affine_apply, hostDot_dB_apply]
  congr 1
  · exact Finset.sum_congr rfl fun j _ => by rw [hostDot_dW_apply]
  · exact Finset.sum_congr rfl fun l _ => by unfold bxRow; rw [shapeCast_a_1a_apply]

end Cert.KernelIdeal.Val

end
-- ==== Proof.LibSegment.lean ====
import Idealize.ShloMosaic.PureOps.Ideal
import Idealize.ShloMosaic.Lib.ValueIdx
import Idealize.ShloMosaic.Lib.StableHlo.Predicate
import Mathlib.Algebra.BigOperators.Group.Finset.Basic

/-!
# Row-wise scatter-add and row gather, read at an index

Two index-level reads of the host operations on a rank-2 table whose ROWS are addressed by an [E × 1] column of
start indices.

* A scatter with an additive body whose updates are whole rows: update row e is added into the operand row named
  by the e-th start index, read as a signed integer; a row whose start index is negative or past the last row is
  dropped. At (n, k) the result is the operand plus the sum, over the update rows whose start index is n, of
  their k-th entry.
* A gather of whole rows: result row e is the operand row named by the e-th start index, read signed and clamped
  into the table.
-/

noncomputable section

open scoped BigOperators

namespace Cert.Segment

open Idealize.ShloMosaic Idealize.ShloMosaic.ValueIdx
open Idealize.ShloMosaic.StableHlo.Predicate (ixP)

/-! ## The scatter: where update (e, k') lands -/

section Scatter

variable {N C E w : Nat} (d : ScatterDims ⟨2, ![N, C]⟩ ⟨2, ![E, 1]⟩ ⟨2, ![E, C]⟩)

/-- A coordinate of a rank-2 index on an axis known to be the first. -/
private theorem ix2_val_of_eq_zero {n0 n1 : Nat} (a : Fin n0) (b : Fin n1) (X : Fin 2) (hX : X = 0) :
    ((ix2 a b) X).val = a.val := by
  subst hX; rfl

/-- A coordinate of a rank-2 index on an axis known to be the second. -/
private theorem ix2_val_of_eq_one {n0 n1 : Nat} (a : Fin n0) (b : Fin n1) (X : Fin 2) (hX : X = 1) :
    ((ix2 a b) X).val = b.val := by
  subst hX; rfl

/-- An axis of a rank-2 shape that is not the second is the first. -/
private theorem fin2_eq_zero {X : Fin 2} (h : X ≠ 1) : X = 0 :=
  match X, h with
  | ⟨0, _⟩, _ => rfl
  | ⟨1, _⟩, h => absurd rfl h

/-- With the window on the updates' axis 1, the only update scatter axis is axis 0. -/
private theorem uScatter_eq_zero (huw : d.updateWindowDims = [1]) (X : Fin 2) (hX : X ∈ d.uScatter) : X = 0 := by
  have h2 := (List.mem_filter.1 hX).2
  rw [huw] at h2
  exact fin2_eq_zero (by simpa using h2)

/-- The start-indices index update (e, k') reads its one start component at: row e of the column. -/
theorem siIdx_rows (hsd : d.scatterDimsToOperandDims = [0]) (huw : d.updateWindowDims = [1]) (hivd : d.indexVectorDim = 1)
    (e : Fin E) (k' : Fin C) (c : Fin d.scatterDimsToOperandDims.length) :
    d.siIdx (ix2 e k') c = ixP e := by
  funext b
  match b with
  | ⟨0, _⟩ =>
    -- the one update scatter axis is axis 0 of the updates (axis 1 is the window axis); it reads the column's axis 0
    unfold ScatterDims.siIdx
    rw [dif_neg (by rw [hivd]; simp)]
    unfold ScatterDims.siCoord
    apply Fin.ext
    simp only [Fin.val_cast]
    refine ix2_val_of_eq_zero e k' _ ?_
    exact uScatter_eq_zero d huw _ (List.getElem_mem _)
  | ⟨1, _⟩ =>
    unfold ScatterDims.siIdx
    rw [dif_pos (by rw [hivd])]
    apply Fin.ext
    show c.val = 0
    have hl : d.scatterDimsToOperandDims.length = 1 := by rw [hsd]; rfl
    have := c.isLt
    omega

/-- On the operand's axis 0 the window of update (e, k') starts at the start index of row e, read signed … -/
theorem start_zero (hsd : d.scatterDimsToOperandDims = [0]) (huw : d.updateWindowDims = [1]) (hivd : d.indexVectorDim = 1)
    (idx : IVec ⟨2, ![E, 1]⟩ w) (e : Fin E) (k' : Fin C) :
    d.start (ix2 e k') idx (0 : Fin 2) = (idx (ixP e)).toInt := by
  unfold ScatterDims.start
  rw [dif_pos (show (0 : Fin 2) ∈ d.scatterDimsToOperandDims by rw [hsd]; exact List.mem_singleton.mpr rfl),
    siIdx_rows d hsd huw hivd]

/-- … and on axis 1, which the start index does not name, at 0. -/
theorem start_one (hsd : d.scatterDimsToOperandDims = [0]) (idx : IVec ⟨2, ![E, 1]⟩ w) (e : Fin E) (k' : Fin C) :
    d.start (ix2 e k') idx (1 : Fin 2) = 0 := by
  unfold ScatterDims.start
  rw [dif_neg (by rw [hsd]; simp)]

/-- The operand's axis 0 is inserted: the window coordinate there is 0 … -/
theorem window_zero (hiw : d.insertedWindowDims = [0]) (e : Fin E) (k' : Fin C) :
    d.window (ix2 e k') (0 : Fin 2) = 0 := by
  unfold ScatterDims.window
  rw [dif_neg]
  intro h
  have h2 := (List.mem_filter.1 h).2
  rw [hiw] at h2
  simp at h2

/-- … and on axis 1, the one kept axis, it is the update's column k'. -/
theorem window_one (huw : d.updateWindowDims = [1]) (hiw : d.insertedWindowDims = [0]) (e : Fin E) (k' : Fin C) :
    d.window (ix2 e k') (1 : Fin 2) = k'.val := by
  unfold ScatterDims.window
  have hmem : (1 : Fin 2) ∈ d.sKept := List.mem_filter.2 ⟨List.mem_finRange _, by rw [hiw]; simp⟩
  rw [dif_pos hmem]
  refine ix2_val_of_eq_one e k' _ ?_
  have hall : ∀ X ∈ d.updateWindowDims, X = 1 := by
    intro X hX; rw [huw] at hX; exact List.mem_singleton.1 hX
  exact hall _ (List.getElem_mem _)

/-- WHERE AN UPDATE LANDS. Update (e, k') lands on (n, k) exactly when the start index of row e, read signed, is n and
    k' = k; with a start index that is negative or at least N it lands nowhere. -/
theorem resultIdx?_rows (huw : d.updateWindowDims = [1]) (hiw : d.insertedWindowDims = [0])
    (hsd : d.scatterDimsToOperandDims = [0]) (hivd : d.indexVectorDim = 1)
    (idx : IVec ⟨2, ![E, 1]⟩ w) (e : Fin E) (k' : Fin C) (n : Fin N) (k : Fin C) :
    d.resultIdx? (ix2 e k') idx = some (ix2 n k) ↔ (idx (ixP e)).toInt = (n.val : ℤ) ∧ k' = k := by
  have hs0 := start_zero d hsd huw hivd idx e k'
  have hs1 := start_one d hsd idx e k'
  have hw0 := window_zero d hiw e k'
  have hw1 := window_one d huw hiw e k'
  have hn := n.isLt
  have hk' := k'.isLt
  unfold ScatterDims.resultIdx?
  constructor
  · intro h
    split at h
    · next hc =>
      have h' := Option.some.inj h
      have h0 : (d.start (ix2 e k') idx (0 : Fin 2) + (d.window (ix2 e k') (0 : Fin 2) : ℤ)).toNat = n.val :=
        congrArg (fun f : (⟨2, ![N, C]⟩ : Shape).Idx => (f (0 : Fin 2)).val) h'
      have h1 : (d.start (ix2 e k') idx (1 : Fin 2) + (d.window (ix2 e k') (1 : Fin 2) : ℤ)).toNat = k.val :=
        congrArg (fun f : (⟨2, ![N, C]⟩ : Shape).Idx => (f (1 : Fin 2)).val) h'
      have hc0 := (hc (0 : Fin 2)).1
      rw [hs0, hw0] at h0 hc0
      rw [hs1, hw1] at h1
      exact ⟨by omega, Fin.ext (by omega)⟩
    · exact absurd h (by simp)
  · rintro ⟨h0, rfl⟩
    have hc : ∀ a, 0 ≤ d.start (ix2 e k') idx a + (d.window (ix2 e k') a : ℤ)
        ∧ d.start (ix2 e k') idx a + (d.window (ix2 e k') a : ℤ) < ((⟨2, ![N, C]⟩ : Shape).size a : ℤ) := by
      refine Fin.forall_fin_two.2 ⟨?_, ?_⟩
      · rw [hs0, hw0]
        show 0 ≤ _ ∧ _ < (N : ℤ)
        omega
      · rw [hs1, hw1]
        show 0 ≤ _ ∧ _ < (C : ℤ)
        omega
    rw [dif_pos hc]
    congr 1
    refine funext (Fin.forall_fin_two.2 ⟨?_, ?_⟩)
    · apply Fin.ext
      show (d.start (ix2 e k') idx (0 : Fin 2) + (d.window (ix2 e k') (0 : Fin 2) : ℤ)).toNat = n.val
      rw [hs0, hw0]; omega
    · apply Fin.ext
      show (d.start (ix2 e k') idx (1 : Fin 2) + (d.window (ix2 e k') (1 : Fin 2) : ℤ)).toNat = k'.val
      rw [hs1, hw1]; omega

/-- THE SCATTER READ AT (n, k): the operand there plus the k-th entries of the update rows whose start index, read
    signed, is n. (The update indices landing on (n, k) are the (e, k) with start index n: one per such row e.) -/
theorem hostScatterAdd_rows (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ixP e)).toInt = (n.val : ℤ)), upd (ix2 e k) := by
  unfold Ideal.hostScatterAdd
  congr 1
  -- every update index is (e, k'); it is in the left sum exactly when its start index is n and k' = k
  have hrow : ∀ j : (⟨2, ![E, C]⟩ : Shape).Idx,
      d.resultIdx? j idx = some (ix2 n k) ↔ (idx (ixP (j 0))).toInt = (n.val : ℤ) ∧ j 1 = k := by
    intro j
    obtain ⟨a, b, rfl⟩ : ∃ a b, j = ix2 a b := ⟨_, _, eq_ix2 j⟩
    exact resultIdx?_rows d huw hiw hsd hivd idx a b n k
  refine Finset.sum_nbij' (fun j => j 0) (fun e => ix2 e k) ?_ ?_ ?_ ?_ ?_
  · intro j hj
    exact Finset.mem_filter.2 ⟨Finset.mem_univ _, ((hrow j).1 (Finset.mem_filter.1 hj).2).1⟩
  · intro e he
    exact Finset.mem_filter.2 ⟨Finset.mem_univ _, (hrow (ix2 e k)).2 ⟨(Finset.mem_filter.1 he).2, rfl⟩⟩
  · intro j hj
    have hk := ((hrow j).1 (Finset.mem_filter.1 hj).2).2
    obtain ⟨a, b, rfl⟩ : ∃ a b, j = ix2 a b := ⟨_, _, eq_ix2 j⟩
    have hb : b = k := hk
    subst hb; rfl
  · intro e _
    rfl
  · intro j hj
    have hk := ((hrow j).1 (Finset.mem_filter.1 hj).2).2
    obtain ⟨a, b, rfl⟩ : ∃ a b, j = ix2 a b := ⟨_, _, eq_ix2 j⟩
    have hb : b = k := hk
    subst hb; rfl

end Scatter

/-! ## The gather of rows -/

section Gather

variable {α : Type} {N C E w : Nat} (d : GatherDims ⟨2, ![N, C]⟩ ⟨2, ![E, 1]⟩ ⟨2, ![E, C]⟩)

/-- With the offset on the result's axis 1, the only batch axis of the result is axis 0. -/
private theorem batchDims_eq_zero (hoff : d.offsetDims = [1]) (X : Fin 2) (hX : X ∈ d.batchDims) : X = 0 := by
  have h2 := (List.mem_filter.1 hX).2
  rw [hoff] at h2
  exact fin2_eq_zero (by simpa using h2)

/-- The start-indices index result (e, k) reads its one start component at: row e of the column. -/
theorem gather_siIdx_rows (hoff : d.offsetDims = [1]) (hsim : d.startIndexMap = [0]) (hivd : d.indexVectorDim = 1)
    (e : Fin E) (k : Fin C) (c : Fin d.startIndexMap.length) :
    d.siIdx (ix2 e k) c = ixP e := by
  funext b
  match b with
  | ⟨0, _⟩ =>
    -- the result's one batch axis is its axis 0 (axis 1 is the offset axis); it reads the column's axis 0
    unfold GatherDims.siIdx
    rw [dif_neg (by rw [hivd]; simp)]
    unfold GatherDims.siCoord
    apply Fin.ext
    simp only [Fin.val_cast]
    exact ix2_val_of_eq_zero e k _ (batchDims_eq_zero d hoff _ (List.getElem_mem _))
  | ⟨1, _⟩ =>
    unfold GatherDims.siIdx
    rw [dif_pos (by rw [hivd])]
    apply Fin.ext
    show c.val = 0
    have hl : d.startIndexMap.length = 1 := by rw [hsim]; rfl
    have := c.isLt
    omega

/-- THE GATHER READ AT (e, k): the operand's row named by the start index of e, read signed and clamped into
    [0, N − 1], at column k. (Axis 0 of the operand is collapsed and start-indexed, with slice size 1 there, so the
    row is the clamped start alone; axis 1 is not start-indexed, so the column is the result's offset coordinate.) -/
theorem gather_rows (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (k : Fin C) (hN : 0 < N) :
    Host.gather d x idx (ix2 e k) = x (ix2 ⟨min (idx (ixP e)).toInt.toNat (N - 1), by omega⟩ k) := by
  unfold Host.gather
  congr 1
  have hb : ∀ a : Fin 2, a ∉ d.operandBatchingDims := fun a => by rw [hob]; exact List.not_mem_nil
  refine funext (Fin.forall_fin_two.2 ⟨?_, ?_⟩)
  · -- the row
    apply Fin.ext
    show d.start (ix2 e k) idx (0 : Fin 2) + d.batchCoord (ix2 e k) (0 : Fin 2) + d.offCoord (ix2 e k) (0 : Fin 2)
      = min (idx (ixP e)).toInt.toNat (N - 1)
    have hk0 : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk0, Nat.add_zero]
    unfold GatherDims.start
    rw [dif_pos hm, gather_siIdx_rows d hoff hsim hivd, hsl]
    rfl
  · -- the column
    apply Fin.ext
    show d.start (ix2 e k) idx (1 : Fin 2) + d.batchCoord (ix2 e k) (1 : Fin 2) + d.offCoord (ix2 e k) (1 : Fin 2) = k.val
    have hk1 : (1 : Fin 2) ∈ d.sKept := by rw [GatherDims.mem_sKept, hcoll, hob]; simp
    have hs1 : d.start (ix2 e k) idx (1 : Fin 2) = 0 := by
      unfold GatherDims.start
      rw [dif_neg (by rw [hsim]; simp)]
    rw [hs1, GatherDims.batchCoord_eq_zero _ _ _ (hb 1), Nat.zero_add]
    unfold GatherDims.offCoord
    rw [dif_pos hk1]
    refine ix2_val_of_eq_one e k _ ?_
    have hall : ∀ X ∈ d.offsetDims, X = 1 := by
      intro X hX; rw [hoff] at hX; exact List.mem_singleton.1 hX
    exact hall _ (List.getElem_mem _)

end Gather

end Cert.Segment

end
-- ==== Proof.LibSegment1.lean ====
import Idealize.ShloMosaic.PureOps.Ideal
import Idealize.ShloMosaic.Lib.ValueIdx
import Idealize.ShloMosaic.Lib.StableHlo.Predicate
import Mathlib.Algebra.BigOperators.Group.Finset.Basic

/-!
# Entry-wise scatter-add, read at an index

The index-level read of the host's accumulating scatter on a rank-1 operand of N entries whose ENTRIES are addressed
by an [E × 1] column of start indices, the updates being a vector of E single values.

Update e is added into the operand entry named by the e-th start index, read as a signed integer; an update whose
start index is negative or at least N is dropped. At n the result is the operand there plus the sum of the updates
whose start index is n.

The operand's one axis is start-indexed and inserted, so there is no window: the landing position of update e is its
start index alone.
-/

noncomputable section

open scoped BigOperators

namespace Cert.Segment

open Idealize.ShloMosaic Idealize.ShloMosaic.ValueIdx
open Idealize.ShloMosaic.StableHlo.Predicate (ixP)

/-! ## The scatter: where update e lands -/

section ScatterEntries

variable {N E w : Nat} (d : ScatterDims ⟨1, ![N]⟩ ⟨2, ![E, 1]⟩ ⟨1, ![E]⟩)

/-- A rank-1 index has one axis; its coordinate there is the entry it was built from. -/
private theorem ix1_val {n : Nat} (a : Fin n) (X : Fin 1) : ((ix1 a) X).val = a.val := by
  have hX : X = 0 := Subsingleton.elim _ _
  subst hX; rfl

/-- The start-indices index update e reads its one start component at: row e of the column. -/
theorem siIdx_entries (hsd : d.scatterDimsToOperandDims = [0]) (hivd : d.indexVectorDim = 1)
    (e : Fin E) (c : Fin d.scatterDimsToOperandDims.length) :
    d.siIdx (ix1 e) c = ixP e := by
  funext b
  match b with
  | ⟨0, _⟩ =>
    -- the column's axis 0 is read by the updates' one axis, whichever position the lists give it
    unfold ScatterDims.siIdx
    rw [dif_neg (by rw [hivd]; simp)]
    unfold ScatterDims.siCoord
    apply Fin.ext
    simp only [Fin.val_cast]
    exact ix1_val e _
  | ⟨1, _⟩ =>
    -- the column's axis 1 is the index vector's; the start index has one component, number 0
    unfold ScatterDims.siIdx
    rw [dif_pos (by rw [hivd])]
    apply Fin.ext
    show c.val = 0
    have hl : d.scatterDimsToOperandDims.length = 1 := by rw [hsd]; rfl
    have := c.isLt
    omega

/-- On the operand's one axis the window of update e starts at the start index of row e, read signed. -/
theorem start_entries (hsd : d.scatterDimsToOperandDims = [0]) (hivd : d.indexVectorDim = 1)
    (idx : IVec ⟨2, ![E, 1]⟩ w) (e : Fin E) :
    d.start (ix1 e) idx (0 : Fin 1) = (idx (ixP e)).toInt := by
  unfold ScatterDims.start
  rw [dif_pos (show (0 : Fin 1) ∈ d.scatterDimsToOperandDims by rw [hsd]; exact List.mem_singleton.mpr rfl),
    siIdx_entries d hsd hivd]

/-- The operand's one axis is inserted: the window coordinate there is 0. -/
theorem window_entries (hiw : d.insertedWindowDims = [0]) (e : Fin E) :
    d.window (ix1 e) (0 : Fin 1) = 0 := by
  unfold ScatterDims.window
  rw [dif_neg]
  intro h
  have h2 := (List.mem_filter.1 h).2
  rw [hiw] at h2
  simp at h2

/-- WHERE AN UPDATE LANDS. Update e lands on entry n exactly when the start index of row e, read signed, is n; with a
    start index that is negative or at least N it lands nowhere. -/
theorem resultIdx?_entries (hiw : d.insertedWindowDims = [0])
    (hsd : d.scatterDimsToOperandDims = [0]) (hivd : d.indexVectorDim = 1)
    (idx : IVec ⟨2, ![E, 1]⟩ w) (e : Fin E) (n : Fin N) :
    d.resultIdx? (ix1 e) idx = some (ix1 n) ↔ (idx (ixP e)).toInt = (n.val : ℤ) := by
  have hs0 := start_entries d hsd hivd idx e
  have hw0 := window_entries d hiw e
  have hn := n.isLt
  unfold ScatterDims.resultIdx?
  constructor
  · intro h
    split at h
    · next hc =>
      have h' := Option.some.inj h
      have h0 : (d.start (ix1 e) idx (0 : Fin 1) + (d.window (ix1 e) (0 : Fin 1) : ℤ)).toNat = n.val :=
        congrArg (fun f : (⟨1, ![N]⟩ : Shape).Idx => (f (0 : Fin 1)).val) h'
      have hc0 := (hc (0 : Fin 1)).1
      rw [hs0, hw0] at h0 hc0
      omega
    · exact absurd h (by simp)
  · intro h0
    have hc : ∀ a, 0 ≤ d.start (ix1 e) idx a + (d.window (ix1 e) a : ℤ)
        ∧ d.start (ix1 e) idx a + (d.window (ix1 e) a : ℤ) < ((⟨1, ![N]⟩ : Shape).size a : ℤ) := by
      intro a
      have ha : a = 0 := Subsingleton.elim _ _
      subst ha
      rw [hs0, hw0]
      show 0 ≤ _ ∧ _ < (N : ℤ)
      omega
    rw [dif_pos hc]
    congr 1
    funext a
    have ha : a = 0 := Subsingleton.elim _ _
    subst ha
    apply Fin.ext
    show (d.start (ix1 e) idx (0 : Fin 1) + (d.window (ix1 e) (0 : Fin 1) : ℤ)).toNat = n.val
    rw [hs0, hw0]; omega

/-- THE SCATTER READ AT n: the operand there plus the updates whose start index, read signed, is n. (The updates have
    no window axis, so an update index is a row e of the column, and it lands on n exactly when its start index is n.) -/
theorem hostScatterAdd_entries (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ixP e)).toInt = (n.val : ℤ)), upd (ix1 e) := by
  -- with no window axis among the updates, every update axis is a scatter axis: nothing more is asked of that list
  have _ := huw
  unfold Ideal.hostScatterAdd
  congr 1
  -- every update index is a single row e; it is in the left sum exactly when its start index is n
  have hrow : ∀ j : (⟨1, ![E]⟩ : Shape).Idx,
      d.resultIdx? j idx = some (ix1 n) ↔ (idx (ixP (j 0))).toInt = (n.val : ℤ) := by
    intro j
    obtain ⟨a, rfl⟩ : ∃ a, j = ix1 a := ⟨_, eq_ix1 j⟩
    exact resultIdx?_entries d hiw hsd hivd idx a n
  refine Finset.sum_nbij' (fun j => j 0) (fun e => ix1 e) ?_ ?_ ?_ ?_ ?_
  · intro j hj
    exact Finset.mem_filter.2 ⟨Finset.mem_univ _, (hrow j).1 (Finset.mem_filter.1 hj).2⟩
  · intro e he
    exact Finset.mem_filter.2 ⟨Finset.mem_univ _, (hrow (ix1 e)).2 (Finset.mem_filter.1 he).2⟩
  · intro j _
    exact (eq_ix1 j).symm
  · intro e _
    rfl
  · intro j _
    exact congrArg upd (eq_ix1 j)

end ScatterEntries

end Cert.Segment

end
-- ==== Proof.LibGraphIdx.lean ====
import Idealize.ShloMosaic.PureOps.Ideal
import Idealize.ShloMosaic.Lib.ValueIdx
import Idealize.ShloMosaic.Lib.ValueLayout
import Idealize.ShloMosaic.Lib.StableHlo.Predicate
import Mathlib.Algebra.BigOperators.Group.Finset.Basic
import Mathlib.Algebra.BigOperators.Fin
import proofs.«401336_j87402584473615_3_alg».proof.Proof.LibSegment
import proofs.«401336_j87402584473615_3_alg».proof.Proof.LibSegment1
import proofs.«401336_j87402584473615_3_alg».proof.Proof.Spec

/-!
# Host operations of a graph convolution, read at an index

Index-level reads of the host operations a graph convolution over a table of 50000 node rows is written with, for any
number E of edges and any number C of feature columns. Nothing here names a program.

* An index word is WRAPPED before a gather: a negative word has 50000 added. A vector of words is laid out as an
  [E × 1] column of start indices.
* A gather through a column reads the table at the start index, read signed and clamped into the table; through the
  wrapped column of a vector v it reads row gix (v e).
* An accumulating scatter through the (unwrapped) column of v adds update e into the row whose number is the word
  v e read signed; a word naming no row is dropped.
* Two tables side by side, a table cut along its columns, a row of the 2 × E edge table as a vector, broadcasts of a
  per-edge scalar, of a per-column row and of a constant, a sum over E + N indices split into its two ranges, and
  the position vector 0, 1, 2, … as index words.
-/

noncomputable section

open scoped BigOperators

namespace Cert.GraphIdx

open Idealize.ShloMosaic Idealize.ShloMosaic.ValueIdx Cert.Graph
open Idealize.ShloMosaic.StableHlo.Predicate (ixP)

variable {α : Type} {E C : Nat}

/-! ## Indices: the two spellings of a rank-1 and of a rank-2 index agree -/

/-- The rank-1 index at a coordinate, in either spelling. -/
theorem ofFin_eq_ix1 {n : Nat} (p : Fin n) : Shape.Idx.ofFin p = ix1 p := by
  funext a
  match a with
  | ⟨0, _⟩ => exact Fin.ext rfl

/-- The rank-2 index at two coordinates, in either spelling. -/
theorem ij_eq_ix2 {n m : Nat} (p : Fin n) (q : Fin m) : StableHlo.Predicate.ij p q = ix2 p q := by
  funext a
  match a with
  | ⟨0, _⟩ => rfl
  | ⟨1, _⟩ => rfl

/-- Column q of a one-row rectangle, in either spelling. -/
theorem i1q_eq_ix2 {m : Nat} (q : Fin m) : StableHlo.Predicate.i1q q = ix2 (0 : Fin 1) q := by
  funext a
  match a with
  | ⟨0, _⟩ => rfl
  | ⟨1, _⟩ => rfl

/-! ## (1) A wrapped vector of index words -/

/-- The wrap of one word: where the word is negative the word plus 50000, else the word. -/
theorem wrap_word (x : BitVec 32) :
    Scalar.select (IntOp.cmpi .slt x 0#32) (IntOp.addi x 50000#32) x = wrapW x := by
  unfold Scalar.select IntOp.cmpi IntOp.addi wrapW
  cases h : x.slt 0#32 <;> simp

/-- THE WRAPPED VECTOR at an index is the wrap of the word there. -/
theorem wrapped_apply (hb : (⟨0, ![]⟩ : Shape).BroadcastsInDim ⟨1, ![E]⟩ ![]) (v : IVec ⟨1, ![E]⟩ 32)
    (i : (⟨1, ![E]⟩ : Shape).Idx) :
    select (cmpi .slt v (broadcastInDim ⟨1, ![E]⟩ ![] hb (constantI ⟨0, ![]⟩ 32 0#32)))
        (addi v (broadcastInDim ⟨1, ![E]⟩ ![] hb (constantI ⟨0, ![]⟩ 32 50000#32))) v i
      = wrapW (v i) :=
  wrap_word (v i)

/-! ## (2) A vector as an [E × 1] column -/

/-- A vector laid out as a column reads, at row e, the vector at e. -/
theorem col_apply (hb1 : (⟨1, ![E]⟩ : Shape).BroadcastsInDim ⟨2, ![E, 1]⟩ ![0]) (w : (⟨1, ![E]⟩ : Shape).Idx → α)
    (e : Fin E) :
    broadcastInDim ⟨2, ![E, 1]⟩ ![0] hb1 w (ixP e) = w (ix1 e) :=
  (StableHlo.Predicate.bcast_col1 hb1 w e).trans (congrArg w (ofFin_eq_ix1 e))

/-- The wrapped vector as a column reads, at row e, the wrap of the word at e. -/
theorem wrapped_col_apply (hb : (⟨0, ![]⟩ : Shape).BroadcastsInDim ⟨1, ![E]⟩ ![])
    (hb1 : (⟨1, ![E]⟩ : Shape).BroadcastsInDim ⟨2, ![E, 1]⟩ ![0]) (v : IVec ⟨1, ![E]⟩ 32) (e : Fin E) :
    broadcastInDim ⟨2, ![E, 1]⟩ ![0] hb1
        (select (cmpi .slt v (broadcastInDim ⟨1, ![E]⟩ ![] hb (constantI ⟨0, ![]⟩ 32 0#32)))
          (addi v (broadcastInDim ⟨1, ![E]⟩ ![] hb (constantI ⟨0, ![]⟩ 32 50000#32))) v) (ixP e)
      = wrapW (v (ix1 e)) :=
  (col_apply hb1 _ e).trans (wrapped_apply hb v (ix1 e))

/-! ## (3) The gather of single entries -/

section GatherEntries

variable (d : GatherDims ⟨1, ![50000]⟩ ⟨2, ![E, 1]⟩ ⟨1, ![E]⟩)

/-- THE ENTRY GATHER AT e: the table at the start index of row e, read signed and clamped into the table (given
    as any row number r equal to that clamped start). -/
theorem gather_entries_at (hcoll : d.collapsedSliceDims = [0]) (hob : d.operandBatchingDims = [])
    (hsim : d.startIndexMap = [0]) (hivd : d.indexVectorDim = 1)
    (x : (⟨1, ![50000]⟩ : Shape).Idx → α) (col : IVec ⟨2, ![E, 1]⟩ 32) (e : Fin E) (r : Fin 50000)
    (hr : r.val = min (col (ixP e)).toInt.toNat (50000 - 1)) :
    Host.gather d x col (ix1 e) = x (ix1 r) := by
  rw [← ofFin_eq_ix1 e, StableHlo.Predicate.gather_take d hcoll hob hsim hivd x col e (by decide), ofFin_eq_ix1]
  exact congrArg (fun q => x (ix1 q)) (Fin.ext hr.symm)

/-- The same with the row spelled out. -/
theorem gather_entries (hcoll : d.collapsedSliceDims = [0]) (hob : d.operandBatchingDims = [])
    (hsim : d.startIndexMap = [0]) (hivd : d.indexVectorDim = 1)
    (x : (⟨1, ![50000]⟩ : Shape).Idx → α) (col : IVec ⟨2, ![E, 1]⟩ 32) (e : Fin E) :
    Host.gather d x col (ix1 e) = x (ix1 ⟨min (col (ixP e)).toInt.toNat (50000 - 1), by omega⟩) :=
  gather_entries_at d hcoll hob hsim hivd x col e _ rfl

/-- THROUGH THE WRAPPED COLUMN of a vector v the entry gather reads, at e, the table at row gix (v e). -/
theorem gather_entries_wrapped (hcoll : d.collapsedSliceDims = [0]) (hob : d.operandBatchingDims = [])
    (hsim : d.startIndexMap = [0]) (hivd : d.indexVectorDim = 1)
    (hb : (⟨0, ![]⟩ : Shape).BroadcastsInDim ⟨1, ![E]⟩ ![])
    (hb1 : (⟨1, ![E]⟩ : Shape).BroadcastsInDim ⟨2, ![E, 1]⟩ ![0])
    (x : (⟨1, ![50000]⟩ : Shape).Idx → α) (v : IVec ⟨1, ![E]⟩ 32) (e : Fin E) :
    Host.gather d x (broadcastInDim ⟨2, ![E, 1]⟩ ![0] hb1
        (select (cmpi .slt v (broadcastInDim ⟨1, ![E]⟩ ![] hb (constantI ⟨0, ![]⟩ 32 0#32)))
          (addi v (broadcastInDim ⟨1, ![E]⟩ ![] hb (constantI ⟨0, ![]⟩ 32 50000#32))) v)) (ix1 e)
      = x (ix1 (gix (v (ix1 e)))) :=
  gather_entries_at d hcoll hob hsim hivd x _ e (gix (v (ix1 e)))
    (by rw [wrapped_col_apply hb hb1 v e]; rfl)

end GatherEntries

/-! ## (4) The gather of rows -/

section GatherRows

variable (d : GatherDims ⟨2, ![50000, C]⟩ ⟨2, ![E, 1]⟩ ⟨2, ![E, C]⟩)

/-- THE ROW GATHER AT (e, k): the table's row at the start index of row e, read signed and clamped into the table
    (given as any row number r equal to that clamped start), at column k. -/
theorem gather_rows_at (hoff : d.offsetDims = [1]) (hcoll : d.collapsedSliceDims = [0])
    (hob : d.operandBatchingDims = []) (hsim : d.startIndexMap = [0]) (hivd : d.indexVectorDim = 1)
    (x : (⟨2, ![50000, C]⟩ : Shape).Idx → α) (col : IVec ⟨2, ![E, 1]⟩ 32) (e : Fin E) (k : Fin C) (r : Fin 50000)
    (hr : r.val = min (col (ixP e)).toInt.toNat (50000 - 1)) :
    Host.gather d x col (ix2 e k) = x (ix2 r k) := by
  rw [Cert.Segment.gather_rows d hoff hcoll hob hsim hivd x col e k (by decide)]
  exact congrArg (fun q => x (ix2 q k)) (Fin.ext hr.symm)

/-- THROUGH THE WRAPPED COLUMN of a vector v the row gather reads, at (e, k), the table at row gix (v e), column k. -/
theorem gather_rows_wrapped (hoff : d.offsetDims = [1]) (hcoll : d.collapsedSliceDims = [0])
    (hob : d.operandBatchingDims = []) (hsim : d.startIndexMap = [0]) (hivd : d.indexVectorDim = 1)
    (hb : (⟨0, ![]⟩ : Shape).BroadcastsInDim ⟨1, ![E]⟩ ![])
    (hb1 : (⟨1, ![E]⟩ : Shape).BroadcastsInDim ⟨2, ![E, 1]⟩ ![0])
    (x : (⟨2, ![50000, C]⟩ : Shape).Idx → α) (v : IVec ⟨1, ![E]⟩ 32) (e : Fin E) (k : Fin C) :
    Host.gather d x (broadcastInDim ⟨2, ![E, 1]⟩ ![0] hb1
        (select (cmpi .slt v (broadcastInDim ⟨1, ![E]⟩ ![] hb (constantI ⟨0, ![]⟩ 32 0#32)))
          (addi v (broadcastInDim ⟨1, ![E]⟩ ![] hb (constantI ⟨0, ![]⟩ 32 50000#32))) v)) (ix2 e k)
      = x (ix2 (gix (v (ix1 e))) k) :=
  gather_rows_at d hoff hcoll hob hsim hivd x _ e k (gix (v (ix1 e)))
    (by rw [wrapped_col_apply hb hb1 v e]; rfl)

end GatherRows

/-! ## (5), (6) The accumulating scatters through the column of a vector -/

/-- THE ENTRY SCATTER AT n: the operand there plus the updates e whose word v e, read signed, is n. -/
theorem scatter_entries_col {φ : FTy} (d : ScatterDims ⟨1, ![50000]⟩ ⟨2, ![E, 1]⟩ ⟨1, ![E]⟩)
    (huw : d.updateWindowDims = []) (hiw : d.insertedWindowDims = [0])
    (hsd : d.scatterDimsToOperandDims = [0]) (hivd : d.indexVectorDim = 1)
    (hb1 : (⟨1, ![E]⟩ : Shape).BroadcastsInDim ⟨2, ![E, 1]⟩ ![0])
    (x : (⟨1, ![50000]⟩ : Shape).Idx → EReal) (v : IVec ⟨1, ![E]⟩ 32) (upd : (⟨1, ![E]⟩ : Shape).Idx → EReal)
    (n : Fin 50000) :
    Host.scatterAdd (F := Ideal) (φ := φ) d x (broadcastInDim ⟨2, ![E, 1]⟩ ![0] hb1 v) upd (ix1 n)
      = x (ix1 n) + ∑ e ∈ Finset.univ.filter (fun e : Fin E => (v (ix1 e)).toInt = (n.val : ℤ)), upd (ix1 e) := by
  show Ideal.hostScatterAdd d x (broadcastInDim ⟨2, ![E, 1]⟩ ![0] hb1 v) upd (ix1 n) = _
  rw [Cert.Segment.hostScatterAdd_entries d huw hiw hsd hivd]
  simp only [col_apply hb1 v]

/-- THE ROW SCATTER AT (n, k): the operand there plus the k-th entries of the update rows e whose word v e, read
    signed, is n. -/
theorem scatter_rows_col {φ : FTy} (d : ScatterDims ⟨2, ![50000, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (hb1 : (⟨1, ![E]⟩ : Shape).BroadcastsInDim ⟨2, ![E, 1]⟩ ![0])
    (x : (⟨2, ![50000, C]⟩ : Shape).Idx → EReal) (v : IVec ⟨1, ![E]⟩ 32) (upd : (⟨2, ![E, C]⟩ : Shape).Idx → EReal)
    (n : Fin 50000) (k : Fin C) :
    Host.scatterAdd (F := Ideal) (φ := φ) d x (broadcastInDim ⟨2, ![E, 1]⟩ ![0] hb1 v) upd (ix2 n k)
      = x (ix2 n k) + ∑ e ∈ Finset.univ.filter (fun e : Fin E => (v (ix1 e)).toInt = (n.val : ℤ)), upd (ix2 e k) := by
  show Ideal.hostScatterAdd d x (broadcastInDim ⟨2, ![E, 1]⟩ ![0] hb1 v) upd (ix2 n k) = _
  rw [Cert.Segment.hostScatterAdd_rows d huw hiw hsd hivd]
  simp only [col_apply hb1 v]

/-! ## (9) Broadcasts over a rectangle, and constants -/

/-- A per-edge scalar laid along the feature columns (vector → column → rectangle) reads, at (e, k), the vector at e. -/
theorem norm_bcast_apply (h1 : (⟨1, ![E]⟩ : Shape).BroadcastsInDim ⟨2, ![E, 1]⟩ ![0])
    (h2 : (⟨2, ![E, 1]⟩ : Shape).BroadcastsInDim ⟨2, ![E, C]⟩ ![0, 1]) (nrm : (⟨1, ![E]⟩ : Shape).Idx → α)
    (e : Fin E) (k : Fin C) :
    broadcastInDim ⟨2, ![E, C]⟩ ![0, 1] h2 (broadcastInDim ⟨2, ![E, 1]⟩ ![0] h1 nrm) (ix2 e k) = nrm (ix1 e) := by
  rw [← ij_eq_ix2, StableHlo.Predicate.bcast_rows h1 h2 nrm e k, ofFin_eq_ix1]

/-- A column laid along the feature columns reads, at (e, k), the column at row e. -/
theorem col_bcast_apply (h2 : (⟨2, ![E, 1]⟩ : Shape).BroadcastsInDim ⟨2, ![E, C]⟩ ![0, 1])
    (c : (⟨2, ![E, 1]⟩ : Shape).Idx → α) (e : Fin E) (k : Fin C) :
    broadcastInDim ⟨2, ![E, C]⟩ ![0, 1] h2 c (ix2 e k) = c (ixP e) := by
  rw [← ij_eq_ix2, StableHlo.Predicate.bcast_of_col h2 c e k]

/-- A bias laid down the rows (vector → one row → rectangle) reads, at (r, k), the vector at k. -/
theorem bias_bcast_apply {R : Nat} (h1 : (⟨1, ![C]⟩ : Shape).BroadcastsInDim ⟨2, ![1, C]⟩ ![1])
    (h2 : (⟨2, ![1, C]⟩ : Shape).BroadcastsInDim ⟨2, ![R, C]⟩ ![0, 1]) (b : (⟨1, ![C]⟩ : Shape).Idx → α)
    (r : Fin R) (k : Fin C) :
    broadcastInDim ⟨2, ![R, C]⟩ ![0, 1] h2 (broadcastInDim ⟨2, ![1, C]⟩ ![1] h1 b) (ix2 r k) = b (ix1 k) := by
  rw [← ij_eq_ix2, StableHlo.Predicate.bcast_cols h1 h2 b r k, ofFin_eq_ix1]

/-- A one-row rectangle laid down the rows reads, at (r, k), the row at (0, k). -/
theorem row_bcast_apply {R : Nat} (h2 : (⟨2, ![1, C]⟩ : Shape).BroadcastsInDim ⟨2, ![R, C]⟩ ![0, 1])
    (v : (⟨2, ![1, C]⟩ : Shape).Idx → α) (r : Fin R) (k : Fin C) :
    broadcastInDim ⟨2, ![R, C]⟩ ![0, 1] h2 v (ix2 r k) = v (ix2 (0 : Fin 1) k) := by
  rw [← ij_eq_ix2, StableHlo.Predicate.bcast_of_row h2 v r k, i1q_eq_ix2]

/-- A bias recast as one row, then laid down the rows, reads, at (r, k), the vector at k. -/
theorem bias_cast_bcast_apply {R : Nat} (hc : (⟨1, ![C]⟩ : Shape).ShapeCasts ⟨2, ![1, C]⟩)
    (h2 : (⟨2, ![1, C]⟩ : Shape).BroadcastsInDim ⟨2, ![R, C]⟩ ![0, 1]) (b : (⟨1, ![C]⟩ : Shape).Idx → α)
    (r : Fin R) (k : Fin C) :
    broadcastInDim ⟨2, ![R, C]⟩ ![0, 1] h2 (shapeCast ⟨2, ![1, C]⟩ b hc) (ix2 r k) = b (ix1 k) := by
  rw [row_bcast_apply h2 _ r k, shapeCast_a_1a_apply b hc (0 : Fin 1) k]

/-- A float constant broadcast to any shape reads, everywhere, the extended real its word encodes. -/
theorem const_bcast_apply {s : Shape} (h : (⟨0, ![]⟩ : Shape).BroadcastsInDim s ![]) (w : BitVec 32) (j : s.Idx) :
    broadcastInDim s ![] h (constant (F := Ideal) ⟨0, ![]⟩ .f32 w) j = Ideal.ofBits .f32 w := rfl

/-- An integer constant broadcast to any shape reads, everywhere, its word. -/
theorem constI_bcast_apply {s : Shape} (h : (⟨0, ![]⟩ : Shape).BroadcastsInDim s ![]) (w : BitVec 32) (j : s.Idx) :
    broadcastInDim s ![] h (constantI ⟨0, ![]⟩ 32 w) j = w := rfl

/-- The all-zero word is the number 0: exponent field 0 and fraction field 0. -/
theorem ofBits_zero : Ideal.ofBits .f32 0x00000000#32 = 0 := by simp [Ideal.ofBits, Ideal.ieee]

/-- The word 0x3F800000 is the number 1: sign plus, exponent field 127, fraction field 0. -/
theorem ofBits_one : Ideal.ofBits .f32 0x3F800000#32 = 1 := by
  rw [show (1 : EReal) = ((1 : ℝ) : EReal) by norm_cast]
  simp [Ideal.ofBits, Ideal.ieee, -EReal.coe_mul]
  norm_num

/-! ## (8) A table cut along its columns; a row of the edge table as a vector -/

/-- Columns o … o + C − 1 of a wider table read, at (r, k), the table at (r, o + k). -/
theorem slice_cols_apply {R D : Nat} (o : Nat) (x : (⟨2, ![R, D]⟩ : Shape).Idx → α)
    (h : (⟨2, ![R, D]⟩ : Shape).Slices ![0, o] ⟨2, ![R, C]⟩) (r : Fin R) (k : Fin C) (hk : o + k.val < D) :
    extractStridedSlice ⟨2, ![R, C]⟩ ![0, o] x h (ix2 r k) = x (ix2 r ⟨o + k.val, hk⟩) :=
  slice2_axis1_apply o x h r k ⟨o + k.val, hk⟩ rfl

/-- Row r₀ of the 2 × E edge table, cut out as a 1 × E table and recast as a vector, reads, at e, the table at
    (r₀, e). (The cut's row offset is given as a number o with r₀ = o.) -/
theorem edge_row_apply (o : Nat) (ei : (⟨2, ![2, E]⟩ : Shape).Idx → α)
    (h : (⟨2, ![2, E]⟩ : Shape).Slices ![o, 0] ⟨2, ![1, E]⟩) (hc : (⟨2, ![1, E]⟩ : Shape).ShapeCasts ⟨1, ![E]⟩)
    (r₀ : Fin 2) (hr : r₀.val = o) (e : Fin E) :
    shapeCast ⟨1, ![E]⟩ (extractStridedSlice ⟨2, ![1, E]⟩ ![o, 0] ei h) hc (ix1 e) = ei (ix2 r₀ e) := by
  rw [shapeCast_1a_a_apply _ hc e]
  exact slice2_axis0_apply o ei h (0 : Fin 1) e r₀ (by rw [hr]; rfl)

/-! ## (7) Two tables side by side, and two vectors end to end -/

/-- Two R × C tables side by side as an R × D table (D = C + C) read, at (r, j), the first at (r, j) where j < C and
    the second at (r, j − C) elsewhere. -/
theorem concat_cols_apply {R D : Nat} (hD : C + C = D) (a b : (⟨2, ![R, C]⟩ : Shape).Idx → α)
    (h : Shape.Concatenates [⟨2, ![R, C]⟩, ⟨2, ![R, C]⟩] ⟨2, ![R, D]⟩ 1) (r : Fin R) (j : Fin D) :
    concatenate ⟨2, ![R, D]⟩ 1 [⟨⟨2, ![R, C]⟩, a⟩, ⟨⟨2, ![R, C]⟩, b⟩] h (ix2 r j)
      = if hj : j.val < C then a (ix2 r ⟨j.val, hj⟩) else b (ix2 r ⟨j.val - C, by omega⟩) := by
  split
  · next hj =>
    refine concatenate_pair_apply_left (1 : Fin 2) a b h (ix2 r j) rfl (ix2 r ⟨j.val, hj⟩) ?_
    intro c
    match c with
    | ⟨0, _⟩ => rfl
    | ⟨1, _⟩ => rfl
  · next hj =>
    refine concatenate_pair_apply_right (1 : Fin 2) a b h (ix2 r j) rfl rfl (ix2 r ⟨j.val - C, by omega⟩) ?_ ?_
    · intro c hc
      match c, hc with
      | ⟨0, _⟩, _ => rfl
      | ⟨1, _⟩, hc => exact absurd rfl hc
    · show j.val - C + C = j.val
      omega

/-- The first table's columns inside the pair: at (r, k), k < C. -/
theorem concat_cols_left {R D : Nat} (hD : C + C = D) (a b : (⟨2, ![R, C]⟩ : Shape).Idx → α)
    (h : Shape.Concatenates [⟨2, ![R, C]⟩, ⟨2, ![R, C]⟩] ⟨2, ![R, D]⟩ 1) (r : Fin R) (k : Fin C) :
    concatenate ⟨2, ![R, D]⟩ 1 [⟨⟨2, ![R, C]⟩, a⟩, ⟨⟨2, ![R, C]⟩, b⟩] h (ix2 r ⟨k.val, by omega⟩) = a (ix2 r k) := by
  rw [concat_cols_apply hD a b h r ⟨k.val, by omega⟩, dif_pos k.isLt]

/-- The second table's columns inside the pair: at (r, C + k), k < C. -/
theorem concat_cols_right {R D : Nat} (hD : C + C = D) (a b : (⟨2, ![R, C]⟩ : Shape).Idx → α)
    (h : Shape.Concatenates [⟨2, ![R, C]⟩, ⟨2, ![R, C]⟩] ⟨2, ![R, D]⟩ 1) (r : Fin R) (k : Fin C) :
    concatenate ⟨2, ![R, D]⟩ 1 [⟨⟨2, ![R, C]⟩, a⟩, ⟨⟨2, ![R, C]⟩, b⟩] h (ix2 r ⟨C + k.val, by omega⟩) = b (ix2 r k) := by
  rw [concat_cols_apply hD a b h r ⟨C + k.val, by omega⟩, dif_neg (by show ¬ C + k.val < C; omega)]
  exact congrArg (fun q => b (ix2 r q)) (Fin.ext (by show C + k.val - C = k.val; omega))

/-- Two vectors of E and N entries end to end as one of T = E + N entries read, at i, the first at i where i < E and
    the second at i − E elsewhere. -/
theorem concat_entries_apply {N T : Nat} (hT : E + N = T) (a : (⟨1, ![E]⟩ : Shape).Idx → α)
    (b : (⟨1, ![N]⟩ : Shape).Idx → α) (h : Shape.Concatenates [⟨1, ![E]⟩, ⟨1, ![N]⟩] ⟨1, ![T]⟩ 0) (i : Fin T) :
    concatenate ⟨1, ![T]⟩ 0 [⟨⟨1, ![E]⟩, a⟩, ⟨⟨1, ![N]⟩, b⟩] h (ix1 i)
      = if hi : i.val < E then a (ix1 ⟨i.val, hi⟩) else b (ix1 ⟨i.val - E, by omega⟩) := by
  split
  · next hi =>
    refine concatenate_pair_apply_left (0 : Fin 1) a b h (ix1 i) rfl (ix1 ⟨i.val, hi⟩) ?_
    intro c
    match c with
    | ⟨0, _⟩ => rfl
  · next hi =>
    refine concatenate_pair_apply_right (0 : Fin 1) a b h (ix1 i) rfl rfl (ix1 ⟨i.val - E, by omega⟩) ?_ ?_
    · intro c hc
      match c, hc with
      | ⟨0, _⟩, hc => exact absurd rfl hc
    · show i.val - E + E = i.val
      omega

/-- The first vector's entries inside the pair: at e, e < E. -/
theorem concat_entries_left {N T : Nat} (hT : E + N = T) (a : (⟨1, ![E]⟩ : Shape).Idx → α)
    (b : (⟨1, ![N]⟩ : Shape).Idx → α) (h : Shape.Concatenates [⟨1, ![E]⟩, ⟨1, ![N]⟩] ⟨1, ![T]⟩ 0) (e : Fin E) :
    concatenate ⟨1, ![T]⟩ 0 [⟨⟨1, ![E]⟩, a⟩, ⟨⟨1, ![N]⟩, b⟩] h (ix1 ⟨e.val, by omega⟩) = a (ix1 e) := by
  rw [concat_entries_apply hT a b h ⟨e.val, by omega⟩, dif_pos e.isLt]

/-- The second vector's entries inside the pair: at E + j, j < N. -/
theorem concat_entries_right {N T : Nat} (hT : E + N = T) (a : (⟨1, ![E]⟩ : Shape).Idx → α)
    (b : (⟨1, ![N]⟩ : Shape).Idx → α) (h : Shape.Concatenates [⟨1, ![E]⟩, ⟨1, ![N]⟩] ⟨1, ![T]⟩ 0) (j : Fin N) :
    concatenate ⟨1, ![T]⟩ 0 [⟨⟨1, ![E]⟩, a⟩, ⟨⟨1, ![N]⟩, b⟩] h (ix1 ⟨E + j.val, by omega⟩) = b (ix1 j) := by
  rw [concat_entries_apply hT a b h ⟨E + j.val, by omega⟩, dif_neg (by show ¬ E + j.val < E; omega)]
  exact congrArg (fun q => b (ix1 q)) (Fin.ext (by show E + j.val - E = j.val; omega))

/-! ## (10) A sum over E + N indices in its two ranges; the position vector as index words -/

/-- A filtered sum over the E + N indices is the filtered sum over the first E plus that over the last N. -/
theorem sum_filter_fin_add {M : Type*} [AddCommMonoid M] {N : Nat} (p : Fin (E + N) → Prop) [DecidablePred p]
    (f : Fin (E + N) → M) :
    ∑ i ∈ Finset.univ.filter p, f i
      = ∑ e ∈ Finset.univ.filter (fun e : Fin E => p (Fin.castAdd N e)), f (Fin.castAdd N e)
        + ∑ j ∈ Finset.univ.filter (fun j : Fin N => p (Fin.natAdd E j)), f (Fin.natAdd E j) := by
  rw [Finset.sum_filter, Fin.sum_univ_add, Finset.sum_filter, Finset.sum_filter]

/-- The same over T indices with T = E + N given by an equation, the two ranges written by their positions. -/
theorem sum_filter_fin_split {M : Type*} [AddCommMonoid M] {N T : Nat} (hT : E + N = T) (p : Fin T → Prop)
    [DecidablePred p] (f : Fin T → M) :
    ∑ i ∈ Finset.univ.filter p, f i
      = ∑ e ∈ Finset.univ.filter (fun e : Fin E => p ⟨e.val, by omega⟩), f ⟨e.val, by omega⟩
        + ∑ j ∈ Finset.univ.filter (fun j : Fin N => p ⟨E + j.val, by omega⟩), f ⟨E + j.val, by omega⟩ := by
  subst hT
  exact sum_filter_fin_add p f

/-- The position vector 0, 1, 2, … reads, at j, the word of the number j. -/
theorem iota_entries_apply {N : Nat} (j : Fin N) : iotaInDim ⟨1, ![N]⟩ 32 0 (ix1 j) = BitVec.ofNat 32 j.val := rfl

/-- The word of a number below 2³¹, read signed, is the number. -/
theorem toInt_ofNat (j : Nat) (hj : j < 2 ^ 31) : (BitVec.ofNat 32 j).toInt = (j : ℤ) :=
  StableHlo.Predicate.toInt_ofNat_small j hj

/-- A non-negative word is its own wrap. -/
theorem wrapW_ofNat (j : Nat) (hj : j < 2 ^ 31) : wrapW (BitVec.ofNat 32 j) = BitVec.ofNat 32 j := by
  have h : (BitVec.ofNat 32 j).slt 0#32 = false := by
    simp only [BitVec.slt, toInt_ofNat j hj, show (0#32 : BitVec 32).toInt = 0 by decide, decide_eq_false_iff_not]
    omega
  unfold wrapW
  rw [h]
  rfl

/-- The row a gather reads for the word of a row number is that row. -/
theorem gix_ofNat (j : Nat) (hj : j < 50000) : gix (BitVec.ofNat 32 j) = ⟨j, hj⟩ := by
  apply Fin.ext
  show min (wrapW (BitVec.ofNat 32 j)).toInt.toNat (50000 - 1) = j
  rw [wrapW_ofNat j (by omega), toInt_ofNat j (by omega), Int.toNat_natCast]
  omega

/-- A FILTERED SUM WITH SELF-LOOPS APPENDED. Index words cw over T = E + N positions whose last N are the position
    words 0, 1, 2, … (position E + j holds the word of j): the positions whose word, read signed, is n are the
    positions below E with that word, and the one position E + n. So the filtered sum is the filtered sum over the
    first E positions plus the term at E + n. -/
theorem sum_filter_with_loops {M : Type*} [AddCommMonoid M] {N T : Nat} (hT : E + N = T) (hN : N ≤ 2 ^ 31)
    (cw : Fin T → BitVec 32) (u : Fin T → M)
    (hloop : ∀ j : Fin N, cw ⟨E + j.val, by omega⟩ = BitVec.ofNat 32 j.val) (n : Fin N) :
    ∑ i ∈ Finset.univ.filter (fun i : Fin T => (cw i).toInt = (n.val : ℤ)), u i
      = ∑ e ∈ Finset.univ.filter (fun e : Fin E => (cw ⟨e.val, by omega⟩).toInt = (n.val : ℤ)), u ⟨e.val, by omega⟩
        + u ⟨E + n.val, by omega⟩ := by
  rw [sum_filter_fin_split hT (fun i : Fin T => (cw i).toInt = (n.val : ℤ)) u]
  congr 1
  -- among the last N positions the word of j, read signed, is j: only j = n passes the filter
  have hf : (Finset.univ.filter fun j : Fin N => (cw ⟨E + j.val, by omega⟩).toInt = (n.val : ℤ)) = {n} := by
    ext j
    simp only [Finset.mem_filter, Finset.mem_univ, true_and, Finset.mem_singleton]
    rw [hloop j, toInt_ofNat j.val (by have := j.isLt; omega)]
    constructor
    · intro h
      exact Fin.ext (by exact_mod_cast h)
    · intro h
      rw [h]
  rw [hf, Finset.sum_singleton]

end Cert.GraphIdx

end
-- ==== Proof.KHostIdx.lean ====
import proofs.«401336_j87402584473615_3_alg».proof.Proof.KDefs
import proofs.«401336_j87402584473615_3_alg».proof.Proof.LibSegment
import proofs.«401336_j87402584473615_3_alg».proof.Proof.LibSegment1
import proofs.«401336_j87402584473615_3_alg».proof.Proof.LibGraphIdx
import Idealize.ShloMosaic.Lib.StableHlo.Run
import Idealize.ShloMosaic.Lib.StableHlo.Predicate
import Idealize.ShloMosaic.Lib.ValueLayout
import Idealize.ShloMosaic.Lib.ValueIdx
import Idealize.ShloMosaic.Lib.Pipeline.Value

set_option maxRecDepth 16384

noncomputable section

open scoped BigOperators

namespace Cert.KernelIdeal.Val

open Cert.KernelIdeal Cert.KernelIdeal.Gen Cert.Graph
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The host operations between the two calls as functions of arrays -/

/-- A vector of index words wrapped: a negative word has 50000 added. -/
abbrev wrapV (v : IVec S800000 32) : IVec S800000 32 :=
  select (cmpi .slt v (broadcastInDim S800000 ![] bcast_S_S800000 (constantI S_ 32 0#32)))
    (addi v (broadcastInDim S800000 ![] bcast_S_S800000 (constantI S_ 32 50000#32))) v
/-- A vector of index words as a column of start indices. -/
abbrev colV (v : IVec S800000 32) : IVec S800000x1 32 := broadcastInDim S800000x1 ![0] bcast_S800000_S800000x1_0 v
/-- The zero word broadcast over the nodes. -/
abbrev zeroN : FVec Ideal S50000 .f32 := broadcastInDim S50000 ![] bcast_S_S50000 (constant (F := Ideal) S_ .f32 0x00000000#32)
/-- The word of 1 broadcast over the nodes. -/
abbrev oneN : FVec Ideal S50000 .f32 := broadcastInDim S50000 ![] bcast_S_S50000 (constant (F := Ideal) S_ .f32 0x3F800000#32)
/-- The weighted in-degrees: the edge weights scatter-added into zeros at the target words. -/
abbrev degV (cw : IVec S800000 32) (ew : FVec Ideal S800000 .f32) : FVec Ideal S50000 .f32 :=
  Host.scatterAdd scatter_S50000_S800000x1_S800000_n_0_0_1 zeroN (colV cw) ew
/-- The normalisation of a vector of degrees: its inverse square root where positive, zero elsewhere. -/
abbrev dinvV (d : FVec Ideal S50000 .f32) : FVec Ideal S50000 .f32 :=
  select (cmpf .ogt d zeroN) (Host.rsqrt d) zeroN
/-- The normalisation of the edges from one of the nodes. -/
abbrev normV (dv : FVec Ideal S50000 .f32) (rw cw : IVec S800000 32) (ew : FVec Ideal S800000 .f32) : FVec Ideal S800000 .f32 :=
  mulf (mulf (Host.gather gather_S50000_S800000x1_S800000_n_0_n_n_0_1_1 dv (colV (wrapV rw))) ew)
    (Host.gather gather_S50000_S800000x1_S800000_n_0_n_n_0_1_1 dv (colV (wrapV cw)))
/-- A per-edge scalar broadcast over 128 columns. -/
abbrev edgeB (v : FVec Ideal S800000 .f32) : FVec Ideal S800000x128 .f32 :=
  broadcastInDim S800000x128 ![0, 1] bcast_S800000x1_S800000x128_0_1 (broadcastInDim S800000x1 ![0] bcast_S800000_S800000x1_0 v)
/-- Two tables side by side, their rows gathered at the wrapped source words. -/
abbrev gathV (hp xpw : FVec Ideal S50000x128 .f32) (rw : IVec S800000 32) : FVec Ideal S800000x256 .f32 :=
  Host.gather gather_S50000x256_S800000x1_S800000x256_1_0_n_n_0_1_1256
    (concatenate S50000x256 1 [⟨S50000x128, hp⟩, ⟨S50000x128, xpw⟩] concatenates_S50000x128_S50000x128_S50000x256_d1) (colV (wrapV rw))
/-- Each half of the gathered rows scaled by its edge normalisation, the halves side by side again, scatter-added into
    zeros at the target words. -/
abbrev aggV (hp xpw : FVec Ideal S50000x128 .f32) (rw cw : IVec S800000 32) (n39 n55 : FVec Ideal S800000 .f32) : FVec Ideal S50000x256 .f32 :=
  Host.scatterAdd scatter_S50000x256_S800000x1_S800000x256_1_0_0_1
    (broadcastInDim S50000x256 ![] bcast_S_S50000x256 (constant (F := Ideal) S_ .f32 0x00000000#32)) (colV cw)
    (concatenate S800000x256 1
      [⟨S800000x128, mulf (extractStridedSlice S800000x128 ![0, 0] (gathV hp xpw rw) slices_S800000x256_S800000x128_0_0) (edgeB n39)⟩,
       ⟨S800000x128, mulf (extractStridedSlice S800000x128 ![0, 128] (gathV hp xpw rw) slices_S800000x256_S800000x128_0_128) (edgeB n55)⟩]
      concatenates_S800000x128_S800000x128_S800000x256_d1)
/-- The self-loop term: the squared node normalisation broadcast over the columns, times the table. -/
abbrev selfV (dv : FVec Ideal S50000 .f32) (hp : FVec Ideal S50000x128 .f32) : FVec Ideal S50000x128 .f32 :=
  mulf (broadcastInDim S50000x128 ![0, 1] bcast_S50000x1_S50000x128_0_1 (broadcastInDim S50000x1 ![0] bcast_S50000_S50000x1_0 (mulf dv dv))) hp
/-- Row r of the 2 × 800000 edge table as a vector. -/
abbrev edgeRowV (r : Nat) (ei : IVec S2x800000 32) (h : S2x800000.Slices ![r, 0] S1x800000) : IVec S800000 32 :=
  shapeCast S800000 (extractStridedSlice S1x800000 ![r, 0] ei h) shapeCasts_S1x800000_S800000

/-! ## The same read at an index -/

theorem edgeRowV_zero_apply (ei : IVec S2x800000 32) (e : Fin 800000) :
    edgeRowV 0 ei slices_S2x800000_S1x800000_0_0 (ix1 e) = Cert.Graph.row ei e := by
  show _ = ei (ix2 (0 : Fin 2) e)
  exact Cert.GraphIdx.edge_row_apply 0 ei _ _ (0 : Fin 2) rfl e
theorem edgeRowV_one_apply (ei : IVec S2x800000 32) (e : Fin 800000) :
    edgeRowV 1 ei slices_S2x800000_S1x800000_1_0 (ix1 e) = Cert.Graph.col ei e := by
  show _ = ei (ix2 (1 : Fin 2) e)
  exact Cert.GraphIdx.edge_row_apply 1 ei _ _ (1 : Fin 2) rfl e
theorem degV_apply (cw : IVec S800000 32) (ew : FVec Ideal S800000 .f32) (n : Fin 50000) :
    degV cw ew (ix1 n) = ∑ e ∈ Finset.univ.filter (fun e : Fin 800000 => (cw (ix1 e)).toInt = (n.val : ℤ)), ew (ix1 e) := by
  refine (Cert.GraphIdx.scatter_entries_col (φ := .f32) scatter_S50000_S800000x1_S800000_n_0_0_1 rfl rfl rfl rfl
    bcast_S800000_S800000x1_0 zeroN cw ew n).trans ?_
  rw [show zeroN (ix1 n) = Ideal.ofBits .f32 0x00000000#32 from rfl, Cert.GraphIdx.ofBits_zero, zero_add]
theorem dinvV_apply (d : FVec Ideal S50000 .f32) (n : Fin 50000) : dinvV d (ix1 n) = dinvOf (d (ix1 n)) := by
  show Scalar.select (Ideal.cmp .ogt (d (ix1 n)) (Ideal.ofBits .f32 0x00000000#32)) (Ideal.rsqrt (d (ix1 n))) (Ideal.ofBits .f32 0x00000000#32) = _
  rw [Cert.GraphIdx.ofBits_zero]
  unfold dinvOf
  by_cases h : (0 : EReal) < d (ix1 n)
  · rw [if_pos h]
    show Scalar.select (BitVec.ofBool (decide ((0 : EReal) < d (ix1 n)))) _ _ = _
    rw [decide_eq_true h]; exact select_one _ _
  · rw [if_neg h]
    show Scalar.select (BitVec.ofBool (decide ((0 : EReal) < d (ix1 n)))) _ _ = _
    rw [decide_eq_false h]; exact select_zero _ _
theorem addf_oneN_apply (d : FVec Ideal S50000 .f32) (n : Fin 50000) : addf d oneN (ix1 n) = d (ix1 n) + 1 := by
  show d (ix1 n) + Ideal.ofBits .f32 0x3F800000#32 = _
  rw [Cert.GraphIdx.ofBits_one]
theorem normV_apply (dv : FVec Ideal S50000 .f32) (rw cw : IVec S800000 32) (ew : FVec Ideal S800000 .f32) (e : Fin 800000) :
    normV dv rw cw ew (ix1 e) = dv (ix1 (gix (rw (ix1 e)))) * ew (ix1 e) * dv (ix1 (gix (cw (ix1 e)))) := by
  show Host.gather gather_S50000_S800000x1_S800000_n_0_n_n_0_1_1 dv (colV (wrapV rw)) (ix1 e) * ew (ix1 e)
      * Host.gather gather_S50000_S800000x1_S800000_n_0_n_n_0_1_1 dv (colV (wrapV cw)) (ix1 e) = _
  rw [Cert.GraphIdx.gather_entries_wrapped gather_S50000_S800000x1_S800000_n_0_n_n_0_1_1 rfl rfl rfl rfl
      bcast_S_S800000 bcast_S800000_S800000x1_0 dv rw e,
    Cert.GraphIdx.gather_entries_wrapped gather_S50000_S800000x1_S800000_n_0_n_n_0_1_1 rfl rfl rfl rfl
      bcast_S_S800000 bcast_S800000_S800000x1_0 dv cw e]
theorem selfV_apply (dv : FVec Ideal S50000 .f32) (hp : FVec Ideal S50000x128 .f32) (n : Fin 50000) (k : Fin 128) :
    selfV dv hp (ix2 n k) = dv (ix1 n) * dv (ix1 n) * hp (ix2 n k) := by
  show broadcastInDim S50000x128 ![0, 1] bcast_S50000x1_S50000x128_0_1
      (broadcastInDim S50000x1 ![0] bcast_S50000_S50000x1_0 (mulf dv dv)) (ix2 n k) * hp (ix2 n k) = _
  rw [Cert.GraphIdx.norm_bcast_apply bcast_S50000_S50000x1_0 bcast_S50000x1_S50000x128_0_1 (mulf dv dv) n k]
  rfl

end Cert.KernelIdeal.Val

end
-- ==== Proof.KHostIdxAgg.lean ====
import proofs.«401336_j87402584473615_3_alg».proof.Proof.KHostIdx
import proofs.«401336_j87402584473615_3_alg».proof.Proof.LibSegment
import proofs.«401336_j87402584473615_3_alg».proof.Proof.LibSegment1
import proofs.«401336_j87402584473615_3_alg».proof.Proof.LibGraphIdx
import Idealize.ShloMosaic.Lib.StableHlo.Run
import Idealize.ShloMosaic.Lib.StableHlo.Predicate
import Idealize.ShloMosaic.Lib.ValueLayout
import Idealize.ShloMosaic.Lib.ValueIdx
import Idealize.ShloMosaic.Lib.Pipeline.Value

set_option maxRecDepth 16384

noncomputable section

open scoped BigOperators

namespace Cert.KernelIdeal.Val

open Cert.KernelIdeal Cert.KernelIdeal.Gen Cert.Graph
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The fused propagation read at an index -/

theorem aggV_left_apply (hp xpw : FVec Ideal S50000x128 .f32) (rw cw : IVec S800000 32) (n39 n55 : FVec Ideal S800000 .f32)
    (n : Fin 50000) (k : Fin 128) :
    extractStridedSlice S50000x128 ![0, 0] (aggV hp xpw rw cw n39 n55) slices_S50000x256_S50000x128_0_0 (ix2 n k)
      = ∑ e ∈ Finset.univ.filter (fun e : Fin 800000 => (cw (ix1 e)).toInt = (n.val : ℤ)),
          hp (ix2 (gix (rw (ix1 e))) k) * n39 (ix1 e) := by
  -- the cut: column k of the left half is column k of the scattered table
  rw [slice2_axis1_apply 0 _ slices_S50000x256_S50000x128_0_0 n k ⟨k.val, by omega⟩ (Nat.zero_add _).symm]
  -- the scatter into zeros: the sum of the update rows whose target word is n
  unfold aggV colV
  rw [Cert.GraphIdx.scatter_rows_col (φ := .f32) scatter_S50000x256_S800000x1_S800000x256_1_0_0_1 rfl rfl rfl rfl
      bcast_S800000_S800000x1_0 _ cw _ n ⟨k.val, by omega⟩,
    Cert.GraphIdx.const_bcast_apply, Cert.GraphIdx.ofBits_zero, zero_add]
  refine Finset.sum_congr rfl fun e _ => ?_
  -- update row e at a column below 128: the left piece, the gathered row times the edge's normalisation
  rw [Cert.GraphIdx.concat_cols_apply (C := 128) rfl, dif_pos (show k.val < 128 from k.isLt), mulf_apply,
    slice2_axis1_apply 0 _ slices_S800000x256_S800000x128_0_0 e ⟨k.val, k.isLt⟩ ⟨k.val, by omega⟩ (Nat.zero_add _).symm]
  unfold edgeB gathV colV wrapV
  rw [Cert.GraphIdx.norm_bcast_apply,
    Cert.GraphIdx.gather_rows_wrapped gather_S50000x256_S800000x1_S800000x256_1_0_n_n_0_1_1256 rfl rfl rfl rfl rfl
      bcast_S_S800000 bcast_S800000_S800000x1_0 _ rw e ⟨k.val, by omega⟩,
    Cert.GraphIdx.concat_cols_apply (C := 128) rfl, dif_pos (show k.val < 128 from k.isLt)]
theorem aggV_right_apply (hp xpw : FVec Ideal S50000x128 .f32) (rw cw : IVec S800000 32) (n39 n55 : FVec Ideal S800000 .f32)
    (n : Fin 50000) (k : Fin 128) :
    extractStridedSlice S50000x128 ![0, 128] (aggV hp xpw rw cw n39 n55) slices_S50000x256_S50000x128_0_128 (ix2 n k)
      = ∑ e ∈ Finset.univ.filter (fun e : Fin 800000 => (cw (ix1 e)).toInt = (n.val : ℤ)),
          xpw (ix2 (gix (rw (ix1 e))) k) * n55 (ix1 e) := by
  -- the cut: column k of the right half is column 128 + k of the scattered table
  rw [slice2_axis1_apply 128 _ slices_S50000x256_S50000x128_0_128 n k ⟨128 + k.val, by omega⟩ rfl]
  -- the scatter into zeros: the sum of the update rows whose target word is n
  unfold aggV colV
  rw [Cert.GraphIdx.scatter_rows_col (φ := .f32) scatter_S50000x256_S800000x1_S800000x256_1_0_0_1 rfl rfl rfl rfl
      bcast_S800000_S800000x1_0 _ cw _ n ⟨128 + k.val, by omega⟩,
    Cert.GraphIdx.const_bcast_apply, Cert.GraphIdx.ofBits_zero, zero_add]
  refine Finset.sum_congr rfl fun e _ => ?_
  -- update row e at column 128 + k: the right piece at column k, the gathered row times the edge's normalisation
  rw [Cert.GraphIdx.concat_cols_right (C := 128) rfl, mulf_apply,
    slice2_axis1_apply 128 _ slices_S800000x256_S800000x128_0_128 e k ⟨128 + k.val, by omega⟩ rfl]
  unfold edgeB gathV colV wrapV
  rw [Cert.GraphIdx.norm_bcast_apply,
    Cert.GraphIdx.gather_rows_wrapped gather_S50000x256_S800000x1_S800000x256_1_0_n_n_0_1_1256 rfl rfl rfl rfl rfl
      bcast_S_S800000 bcast_S800000_S800000x1_0 _ rw e ⟨128 + k.val, by omega⟩,
    Cert.GraphIdx.concat_cols_right (C := 128) rfl]
end Cert.KernelIdeal.Val

end
-- ==== Proof.LibAfterAppend.lean ====
/-
  A general fact about a straight line of host operations: the buffer contents after two lines run one after the
  other are those after the second line, from what the first line leaves.
-/
import Idealize.ShloMosaic.Lib.StableHlo.Run

namespace Idealize.ShloMosaic.StableHlo

variable {τ : Topo} {sig : RefSig} {Val : EltTy → Type}

/-- The fold of the operations' results over a concatenation is the fold over the second list, started from the fold
    over the first. -/
theorem after_append_lines (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.KHost.lean ====
import proofs.«401336_j87402584473615_3_alg».proof.Proof.KDefs
import proofs.«401336_j87402584473615_3_alg».proof.Proof.KHostIdx
import proofs.«401336_j87402584473615_3_alg».proof.Proof.KHostIdxAgg
import proofs.«401336_j87402584473615_3_alg».proof.Proof.LibAfterAppend
import Idealize.ShloMosaic.Lib.StableHlo.Run
import Idealize.ShloMosaic.Lib.ValueIdx

set_option maxRecDepth 16384

noncomputable section

open scoped BigOperators

namespace Cert.KernelIdeal.Val

open Cert.KernelIdeal Cert.KernelIdeal.Gen Cert.Graph
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-!
# What the second call finds in its input arrays

Between the two calls the host computes, from the 2 × 800000 edge table, the edge weights and the first call's
outputs: the source and target words of the edges; the weighted in-degree of every node (the weights scatter-added at
the target words) and the degree with a unit self-loop (one more); the two normalisations of the nodes (the inverse
square root of the degree where it is positive, zero elsewhere); the two normalisations of the edges (the weight times
the normalisations of the two ends, each end read through its wrapped word); the rows of the first call's second and
third output side by side, gathered at the wrapped source words, each half scaled by its edge normalisation and
scatter-added at the target words; and the squared self-loop normalisation times the second output.

Each array is first written as the composition of the operations over earlier named arrays (an equation of whole
arrays, read off the fold of the operations' results), then read at an index, down to the closed forms: a sum over
the edges into a node, and a product at a node.
-/

namespace KHost

/-! ## Names for the arrays between the two calls -/

/-- The edge table and the edge weights as the first call leaves them. -/
abbrev kEi (c : Dev nD) : IVec S2x800000 32 := W2 m ρ c (Proc.devRef .tc main_arg2)
abbrev kEw (c : Dev nD) : FVec Ideal S800000 .f32 := W2 m ρ c (Proc.devRef .tc main_arg3)
/-- The edge weights and the first call's two tables as the second call finds them. -/
abbrev kEw7 (c : Dev nD) : FVec Ideal S800000 .f32 := V7 m ρ c main_arg3
abbrev kHp7 (c : Dev nD) : FVec Ideal S50000x128 .f32 := V7 m ρ c main_v6_1
abbrev kXpw7 (c : Dev nD) : FVec Ideal S50000x128 .f32 := V7 m ρ c main_v6_2
/-- The source words and the target words of the edges. -/
abbrev kRow (c : Dev nD) : IVec S800000 32 := V7 m ρ c main_v8
abbrev kCol (c : Dev nD) : IVec S800000 32 := V7 m ρ c main_v10
/-- The weighted in-degrees without and with the unit self-loop. -/
abbrev kDeg (c : Dev nD) : FVec Ideal S50000 .f32 := V7 m ρ c main_v13
abbrev kDeg1 (c : Dev nD) : FVec Ideal S50000 .f32 := V7 m ρ c main_v15
/-- The comparison with zero, the inverse square root and the zero of each normalisation. -/
abbrev kPos (c : Dev nD) : IVec S50000 1 := V7 m ρ c main_v17
abbrev kRs (c : Dev nD) : FVec Ideal S50000 .f32 := V7 m ρ c main_v18
abbrev kZ (c : Dev nD) : FVec Ideal S_ .f32 := V7 m ρ c main_cst_2
abbrev kPos1 (c : Dev nD) : IVec S50000 1 := V7 m ρ c main_v21
abbrev kRs1 (c : Dev nD) : FVec Ideal S50000 .f32 := V7 m ρ c main_v22
abbrev kZ1 (c : Dev nD) : FVec Ideal S_ .f32 := V7 m ρ c main_cst_4
/-- The two normalisations of the nodes. -/
abbrev kD19 (c : Dev nD) : FVec Ideal S50000 .f32 := V7 m ρ c main_v19
abbrev kD23 (c : Dev nD) : FVec Ideal S50000 .f32 := V7 m ρ c main_v23
/-- The two normalisations of the edges. -/
abbrev kN39 (c : Dev nD) : FVec Ideal S800000 .f32 := V7 m ρ c main_v39
abbrev kN55 (c : Dev nD) : FVec Ideal S800000 .f32 := V7 m ρ c main_v55
/-- The two propagated tables side by side. -/
abbrev kAgg (c : Dev nD) : FVec Ideal S50000x256 .f32 := V7 m ρ c main_v75
/-- The gathered rows of the two tables side by side, and the scaled halves side by side again. -/
abbrev k63 (c : Dev nD) : FVec Ideal S800000x256 .f32 := V7 m ρ c main_v63
abbrev k72 (c : Dev nD) : FVec Ideal S800000x256 .f32 := V7 m ρ c main_v72

/-! ## The last stretch of operations in two parts

The fold of the results over the first n operations is named as one valuation; an array computed by the later
operations is then an expression over that valuation's buffers alone. -/

/-- A line of operations run in two parts: the first n, then the rest from what they leave. -/
theorem after_take_drop (n : Nat) (l : List (HloOp τ sig (Elt Ideal))) (V : Valuation τ sig (Elt Ideal)) :
    StableHlo.after l V = StableHlo.after (l.drop n) (StableHlo.after (l.take n) V) := by
  rw [← StableHlo.after_append_lines, List.take_append_drop]

/-- The fold of the operations' results read at one buffer, one operation at a time: an operation's result at its own
    buffer is its function's value over its operands' contents, at any other buffer what was there (two buffers
    differ when their references differ). Used where an operand sits inside a piece of a concatenation. -/
macro "results_rw" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

/-! ## The arrays as the operations compose them -/

set_option maxHeartbeats 4000000 in
/-- The source words are row 0 of the edge table. -/
theorem P_row (c : Dev nD) :
    kRow m ρ c = edgeRowV 0 (kEi m ρ c) slices_S2x800000_S1x800000_0_0 := by
  dsimp only [kRow, kEi, V7, W7, W6, W5, W4, W3]
  generalize W2 m ρ c = U
  simp only [hostOps1_4, hostOps1_3, hostOps1_2, hostOps1_1, hostOps1]
  after_results_simp
  rfl

set_option maxHeartbeats 4000000 in
/-- The target words are row 1 of the edge table. -/
theorem P_col (c : Dev nD) :
    kCol m ρ c = edgeRowV 1 (kEi m ρ c) slices_S2x800000_S1x800000_1_0 := by
  dsimp only [kCol, kEi, V7, W7, W6, W5, W4, W3]
  generalize W2 m ρ c = U
  simp only [hostOps1_4, hostOps1_3, hostOps1_2, hostOps1_1, hostOps1]
  after_results_simp
  rfl

set_option maxHeartbeats 4000000 in
/-- No operation between the calls writes the edge weights. -/
theorem P_ew (c : Dev nD) :
    kEw7 m ρ c = kEw m ρ c := by
  dsimp only [kEw7, kEw, V7, W7, W6, W5, W4, W3]
  generalize W2 m ρ c = U
  simp only [hostOps1_4, hostOps1_3, hostOps1_2, hostOps1_1, hostOps1]
  after_results_simp
  try (with_reducible rfl)

set_option maxHeartbeats 4000000 in
/-- No operation between the calls writes the first call's second output. -/
theorem P_hp (c : Dev nD) :
    kHp7 m ρ c = kHp m ρ c := by
  dsimp only [kHp7, kHp, V7, W7, W6, W5, W4, W3]
  generalize W2 m ρ c = U
  simp only [hostOps1_4, hostOps1_3, hostOps1_2, hostOps1_1, hostOps1]
  after_results_simp
  try (with_reducible rfl)

set_option maxHeartbeats 4000000 in
/-- No operation between the calls writes the first call's third output. -/
theorem P_xpw (c : Dev nD) :
    kXpw7 m ρ c = kXpw m ρ c := by
  dsimp only [kXpw7, kXpw, V7, W7, W6, W5, W4, W3]
  generalize W2 m ρ c = U
  simp only [hostOps1_4, hostOps1_3, hostOps1_2, hostOps1_1, hostOps1]
  after_results_simp
  try (with_reducible rfl)

set_option maxHeartbeats 4000000 in
/-- The in-degrees: the weights scatter-added at the target words. -/
theorem P_deg (c : Dev nD) :
    kDeg m ρ c = degV (kCol m ρ c) (kEw m ρ c) := by
  dsimp only [kDeg, kCol, kEw, V7, W7, W6, W5, W4, W3]
  generalize W2 m ρ c = U
  simp only [hostOps1_4, hostOps1_3, hostOps1_2, hostOps1_1, hostOps1]
  after_results_simp
  try (with_reducible rfl)

set_option maxHeartbeats 4000000 in
/-- With the unit self-loop the degree is one more. -/
theorem P_deg1 (c : Dev nD) :
    kDeg1 m ρ c = addf (kDeg m ρ c) oneN := by
  dsimp only [kDeg1, kDeg, V7, W7, W6, W5, W4, W3]
  generalize W2 m ρ c = U
  simp only [hostOps1_4, hostOps1_3, hostOps1_2, hostOps1_1, hostOps1]
  after_results_simp
  try (with_reducible rfl)

set_option maxHeartbeats 4000000 in
/-- Where the degree is positive. -/
theorem P_pos (c : Dev nD) :
    kPos m ρ c = cmpf .ogt (kDeg m ρ c) zeroN := by
  dsimp only [kPos, kDeg, V7, W7, W6, W5, W4, W3]
  generalize W2 m ρ c = U
  simp only [hostOps1_4, hostOps1_3, hostOps1_2, hostOps1_1, hostOps1]
  after_results_simp
  try (with_reducible rfl)

set_option maxHeartbeats 4000000 in
/-- The degree's inverse square root. -/
theorem P_rs (c : Dev nD) :
    kRs m ρ c = Host.rsqrt (kDeg m ρ c) := by
  dsimp only [kRs, kDeg, V7, W7, W6, W5, W4, W3]
  generalize W2 m ρ c = U
  simp only [hostOps1_4, hostOps1_3, hostOps1_2, hostOps1_1, hostOps1]
  after_results_simp
  try (with_reducible rfl)

set_option maxHeartbeats 4000000 in
/-- The zero the normalisation falls back to. -/
theorem P_z (c : Dev nD) :
    kZ m ρ c = constant (F := Ideal) S_ .f32 0x00000000#32 := by
  dsimp only [kZ, V7, W7, W6, W5, W4, W3]
  generalize W2 m ρ c = U
  simp only [hostOps1_4, hostOps1_3, hostOps1_2, hostOps1_1, hostOps1]
  after_results_simp
  try (with_reducible rfl)

set_option maxHeartbeats 4000000 in
/-- Where the degree with self-loop is positive. -/
theorem P_pos1 (c : Dev nD) :
    kPos1 m ρ c = cmpf .ogt (kDeg1 m ρ c) zeroN := by
  dsimp only [kPos1, kDeg1, V7, W7, W6, W5, W4, W3]
  generalize W2 m ρ c = U
  simp only [hostOps1_4, hostOps1_3, hostOps1_2, hostOps1_1, hostOps1]
  after_results_simp
  try (with_reducible rfl)

set_option maxHeartbeats 4000000 in
/-- Its inverse square root. -/
theorem P_rs1 (c : Dev nD) :
    kRs1 m ρ c = Host.rsqrt (kDeg1 m ρ c) := by
  dsimp only [kRs1, kDeg1, V7, W7, W6, W5, W4, W3]
  generalize W2 m ρ c = U
  simp only [hostOps1_4, hostOps1_3, hostOps1_2, hostOps1_1, hostOps1]
  after_results_simp
  try (with_reducible rfl)

set_option maxHeartbeats 4000000 in
/-- The zero the second normalisation falls back to. -/
theorem P_z1 (c : Dev nD) :
    kZ1 m ρ c = constant (F := Ideal) S_ .f32 0x00000000#32 := by
  dsimp only [kZ1, V7, W7, W6, W5, W4, W3]
  generalize W2 m ρ c = U
  simp only [hostOps1_4, hostOps1_3, hostOps1_2, hostOps1_1, hostOps1]
  after_results_simp
  try (with_reducible rfl)

set_option maxHeartbeats 4000000 in
/-- The normalisation without self-loops is the select of the three. -/
theorem P_d19s (c : Dev nD) :
    kD19 m ρ c = select (kPos m ρ c) (kRs m ρ c) (broadcastInDim S50000 ![] bcast_S_S50000 (kZ m ρ c)) := by
  dsimp only [kD19, kPos, kRs, kZ, V7, W7, W6, W5, W4]
  generalize W3 m ρ c = U
  simp only [hostOps1_4, hostOps1_3, hostOps1_2, hostOps1_1]
  after_results_simp
  rfl

set_option maxHeartbeats 4000000 in
/-- The normalisation with self-loops is the select of the three. -/
theorem P_d23s (c : Dev nD) :
    kD23 m ρ c = select (kPos1 m ρ c) (kRs1 m ρ c) (broadcastInDim S50000 ![] bcast_S_S50000 (kZ1 m ρ c)) := by
  dsimp only [kD23, kPos1, kRs1, kZ1, V7, W7, W6]
  generalize W5 m ρ c = U
  simp only [hostOps1_4, hostOps1_3]
  after_results_simp
  rfl

set_option maxHeartbeats 4000000 in
/-- The edges' normalisation with self-loops. -/
theorem P_n39 (c : Dev nD) :
    kN39 m ρ c = normV (kD23 m ρ c) (kRow m ρ c) (kCol m ρ c) (kEw7 m ρ c) := by
  dsimp only [kN39, kD23, kRow, kCol, kEw7, V7, W7]
  generalize W6 m ρ c = U
  simp only [hostOps1_4]
  after_results_simp
  try (with_reducible rfl)

set_option maxHeartbeats 4000000 in
/-- The edges' normalisation without self-loops. -/
theorem P_n55 (c : Dev nD) :
    kN55 m ρ c = normV (kD19 m ρ c) (kRow m ρ c) (kCol m ρ c) (kEw7 m ρ c) := by
  dsimp only [kN55, kD19, kRow, kCol, kEw7, V7, W7]
  rw [after_take_drop 20 hostOps1_4]
  generalize StableHlo.after (List.take 20 hostOps1_4) (W6 m ρ c) = U
  simp only [hostOps1_4, List.drop_succ_cons, List.drop_zero]
  after_results_simp
  try (with_reducible rfl)

set_option maxHeartbeats 4000000 in
/-- The rows of the two tables side by side, gathered at the wrapped source words. -/
theorem P_63 (c : Dev nD) :
    k63 m ρ c = gathV (kHp7 m ρ c) (kXpw7 m ρ c) (kRow m ρ c) := by
  dsimp only [k63, kHp7, kXpw7, kRow, V7, W7]
  rw [after_take_drop 40 hostOps1_4]
  generalize StableHlo.after (List.take 40 hostOps1_4) (W6 m ρ c) = U
  have e_main_v6_1 : StableHlo.after (List.drop 40 hostOps1_4) U (Proc.devRef .tc main_v6_1) = U (Proc.devRef .tc main_v6_1) := by
    simp only [hostOps1_4, List.drop_succ_cons, List.drop_zero]
    after_results_simp
  have e_main_v6_2 : StableHlo.after (List.drop 40 hostOps1_4) U (Proc.devRef .tc main_v6_2) = U (Proc.devRef .tc main_v6_2) := by
    simp only [hostOps1_4, List.drop_succ_cons, List.drop_zero]
    after_results_simp
  rw [e_main_v6_1, e_main_v6_2]
  simp only [hostOps1_4, List.drop_succ_cons, List.drop_zero]
  after_results_simp
  results_rw
  try (with_reducible rfl)

set_option maxHeartbeats 4000000 in
/-- Each half of the gathered rows scaled by its edge normalisation, the halves side by side again. -/
theorem P_72 (c : Dev nD) :
    k72 m ρ c = concatenate S800000x256 1
      [⟨S800000x128, mulf (extractStridedSlice S800000x128 ![0, 0] (k63 m ρ c) slices_S800000x256_S800000x128_0_0) (edgeB (kN39 m ρ c))⟩,
       ⟨S800000x128, mulf (extractStridedSlice S800000x128 ![0, 128] (k63 m ρ c) slices_S800000x256_S800000x128_0_128) (edgeB (kN55 m ρ c))⟩]
      concatenates_S800000x128_S800000x128_S800000x256_d1 := by
  dsimp only [k72, k63, kN39, kN55, V7, W7]
  rw [after_take_drop 50 hostOps1_4]
  generalize StableHlo.after (List.take 50 hostOps1_4) (W6 m ρ c) = U
  have e_main_v63 : StableHlo.after (List.drop 50 hostOps1_4) U (Proc.devRef .tc main_v63) = U (Proc.devRef .tc main_v63) := by
    simp only [hostOps1_4, List.drop_succ_cons, List.drop_zero]
    after_results_simp
  have e_main_v39 : StableHlo.after (List.drop 50 hostOps1_4) U (Proc.devRef .tc main_v39) = U (Proc.devRef .tc main_v39) := by
    simp only [hostOps1_4, List.drop_succ_cons, List.drop_zero]
    after_results_simp
  have e_main_v55 : StableHlo.after (List.drop 50 hostOps1_4) U (Proc.devRef .tc main_v55) = U (Proc.devRef .tc main_v55) := by
    simp only [hostOps1_4, List.drop_succ_cons, List.drop_zero]
    after_results_simp
  rw [e_main_v63, e_main_v39, e_main_v55]
  simp only [hostOps1_4, List.drop_succ_cons, List.drop_zero]
  after_results_simp
  results_rw
  try (with_reducible rfl)

set_option maxHeartbeats 4000000 in
/-- The scaled rows scatter-added into zeros at the target words. -/
theorem P_aggs (c : Dev nD) :
    kAgg m ρ c = Host.scatterAdd scatter_S50000x256_S800000x1_S800000x256_1_0_0_1
      (broadcastInDim S50000x256 ![] bcast_S_S50000x256 (constant (F := Ideal) S_ .f32 0x00000000#32)) (colV (kCol m ρ c)) (k72 m ρ c) := by
  dsimp only [kAgg, kCol, k72, V7, W7]
  rw [after_take_drop 59 hostOps1_4]
  generalize StableHlo.after (List.take 59 hostOps1_4) (W6 m ρ c) = U
  simp only [hostOps1_4, List.drop_succ_cons, List.drop_zero]
  after_results_simp
  try (with_reducible rfl)

/-- The two propagated tables side by side, from the named arrays. -/
theorem P_agg (c : Dev nD) :
    kAgg m ρ c = aggV (kHp7 m ρ c) (kXpw7 m ρ c) (kRow m ρ c) (kCol m ρ c) (kN39 m ρ c) (kN55 m ρ c) := by
  rw [P_aggs, P_72, P_63]

set_option maxHeartbeats 4000000 in
/-- The first propagated table: columns 0 … 127. -/
theorem P_76 (c : Dev nD) :
    kSgp m ρ c = extractStridedSlice S50000x128 ![0, 0] (kAgg m ρ c) slices_S50000x256_S50000x128_0_0 := by
  dsimp only [kSgp, kAgg, V7, W7]
  rw [after_take_drop 63 hostOps1_4]
  generalize StableHlo.after (List.take 63 hostOps1_4) (W6 m ρ c) = U
  simp only [hostOps1_4, List.drop_succ_cons, List.drop_zero]
  after_results_simp
  try (with_reducible rfl)

set_option maxHeartbeats 4000000 in
/-- The second propagated table: columns 128 … 255. -/
theorem P_77 (c : Dev nD) :
    kArmap m ρ c = extractStridedSlice S50000x128 ![0, 128] (kAgg m ρ c) slices_S50000x256_S50000x128_0_128 := by
  dsimp only [kArmap, kAgg, V7, W7]
  rw [after_take_drop 63 hostOps1_4]
  generalize StableHlo.after (List.take 63 hostOps1_4) (W6 m ρ c) = U
  simp only [hostOps1_4, List.drop_succ_cons, List.drop_zero]
  after_results_simp
  try (with_reducible rfl)

set_option maxHeartbeats 4000000 in
/-- The self-loop term. -/
theorem P_81 (c : Dev nD) :
    kSl m ρ c = selfV (kD23 m ρ c) (kHp7 m ρ c) := by
  dsimp only [kSl, kD23, kHp7, V7, W7]
  rw [after_take_drop 63 hostOps1_4]
  generalize StableHlo.after (List.take 63 hostOps1_4) (W6 m ρ c) = U
  simp only [hostOps1_4, List.drop_succ_cons, List.drop_zero]
  after_results_simp
  try (with_reducible rfl)

/-! ## The launch arrays are as launched when the first call ends -/

/-- The edge table: no array of the first call, and no operation before it writes it. -/
theorem kEi_eq (c : Dev nD) : kEi m ρ c = aEi m c := by
  show W2 m ρ c (Proc.devRef .tc main_arg2) = _
  rw [W2_of_ne m ρ c main_arg2 (by decide)]
  show StableHlo.after hostOps0 (W0 m ρ c) (Proc.devRef .tc main_arg2) = _
  simp only [hostOps0]
  after_results_simp
  try rfl

/-- The edge weights likewise. -/
theorem kEw_eq (c : Dev nD) : kEw m ρ c = aEw m c := by
  show W2 m ρ c (Proc.devRef .tc main_arg3) = _
  rw [W2_of_ne m ρ c main_arg3 (by decide)]
  show StableHlo.after hostOps0 (W0 m ρ c) (Proc.devRef .tc main_arg3) = _
  simp only [hostOps0]
  after_results_simp
  try rfl

/-! ## The arrays read at an index -/

/-- The source word of edge e. -/
theorem row_at (c : Dev nD) (e : Fin 800000) : kRow m ρ c (ix1 e) = row (aEi m c) e := by
  rw [P_row, kEi_eq, edgeRowV_zero_apply]

/-- The target word of edge e. -/
theorem col_at (c : Dev nD) (e : Fin 800000) : kCol m ρ c (ix1 e) = col (aEi m c) e := by
  rw [P_col, kEi_eq, edgeRowV_one_apply]

/-- The weighted in-degree of node n: the weights of the edges into n. -/
theorem deg_at (c : Dev nD) (n : Fin 50000) : kDeg m ρ c (ix1 n) = degP (aEi m c) (aEw m c) n := by
  rw [P_deg, degV_apply, kEw_eq]
  unfold degP into
  exact Finset.sum_congr (Finset.filter_congr fun e _ => by rw [col_at]) (fun e _ => rfl)

/-- The normalisation of node n without self-loops. -/
theorem d19_at (c : Dev nD) (n : Fin 50000) : kD19 m ρ c (ix1 n) = dinvP (aEi m c) (aEw m c) n := by
  rw [P_d19s, P_pos, P_rs, P_z]
  show dinvV (kDeg m ρ c) (ix1 n) = _
  rw [dinvV_apply, deg_at]
  rfl

/-- The normalisation of node n with the unit self-loop. -/
theorem d23_at (c : Dev nD) (n : Fin 50000) : kD23 m ρ c (ix1 n) = dinvL (aEi m c) (aEw m c) n := by
  rw [P_d23s, P_pos1, P_rs1, P_z1, P_deg1]
  show dinvV (addf (kDeg m ρ c) oneN) (ix1 n) = _
  rw [dinvV_apply, addf_oneN_apply, deg_at]
  rfl

/-- The normalisation of edge e with self-loops: the product of its weight and its two ends' normalisations. -/
theorem n39_at (c : Dev nD) (e : Fin 800000) :
    kN39 m ρ c (ix1 e) = normWith (aEi m c) (aEw m c) (dinvL (aEi m c) (aEw m c)) e := by
  rw [P_n39, normV_apply, P_ew, kEw_eq, row_at, col_at, d23_at, d23_at]
  rfl

/-- The normalisation of edge e without self-loops. -/
theorem n55_at (c : Dev nD) (e : Fin 800000) :
    kN55 m ρ c (ix1 e) = normWith (aEi m c) (aEw m c) (dinvP (aEi m c) (aEw m c)) e := by
  rw [P_n55, normV_apply, P_ew, kEw_eq, row_at, col_at, d19_at, d19_at]
  rfl

end KHost

open KHost

/-! ## What the second call finds -/

/-- The first propagated table: at node n, over the edges into n, the source's row of the first call's second
    output times the edge's normalisation with self-loops. -/
theorem V7_v76 (c : Dev nD) (n : Fin 50000) (k : Fin 128) :
    kSgp m ρ c (ix2 n k)
      = ∑ e ∈ into (aEi m c) n, kHp m ρ c (ix2 (gix (row (aEi m c) e)) k) * normWith (aEi m c) (aEw m c) (dinvL (aEi m c) (aEw m c)) e := by
  rw [P_76, P_agg, aggV_left_apply, P_hp]
  unfold into
  exact Finset.sum_congr (Finset.filter_congr fun e _ => by rw [col_at]) (fun e _ => by rw [row_at, n39_at])

/-- The second propagated table: the same over the first call's third output and the normalisation without
    self-loops. -/
theorem V7_v77 (c : Dev nD) (n : Fin 50000) (k : Fin 128) :
    kArmap m ρ c (ix2 n k)
      = ∑ e ∈ into (aEi m c) n, kXpw m ρ c (ix2 (gix (row (aEi m c) e)) k) * normWith (aEi m c) (aEw m c) (dinvP (aEi m c) (aEw m c)) e := by
  rw [P_77, P_agg, aggV_right_apply, P_xpw]
  unfold into
  exact Finset.sum_congr (Finset.filter_congr fun e _ => by rw [col_at]) (fun e _ => by rw [row_at, n55_at])

/-- The self-loop term: the squared normalisation of the node times its row. -/
theorem V7_v81 (c : Dev nD) (n : Fin 50000) (k : Fin 128) :
    kSl m ρ c (ix2 n k)
      = dinvL (aEi m c) (aEw m c) n * dinvL (aEi m c) (aEw m c) n * kHp m ρ c (ix2 n k) := by
  rw [P_81, selfV_apply, d23_at, P_hp]

end Cert.KernelIdeal.Val

end
-- ==== Proof.KHostKeep.lean ====
import proofs.«401336_j87402584473615_3_alg».proof.Proof.KDefs
import Idealize.ShloMosaic.Lib.ValueIdx
import Idealize.ShloMosaic.Lib.ValueLayout
import Idealize.ShloMosaic.Lib.StableHlo.Run

set_option maxRecDepth 16384

noncomputable section

open scoped BigOperators

/-!
# The arrays the second call finds that the host operations between the calls pass on unchanged

No host operation between the two calls writes the first call's result xp, the two weight matrices Wsg and Wroot,
or the two bias rows; the bias rows are the launch bias vectors reshaped to 1 × 128 before the first call.
-/

namespace Cert.KernelIdeal.Val

open Cert.KernelIdeal Cert.KernelIdeal.Gen Cert.Graph
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

namespace Keep

/-- No host operation between the two calls writes main_v6_0. -/
theorem W7_main_v6_0 (c : Dev nD) : W7 m ρ c (Proc.devRef .tc main_v6_0) = W2 m ρ c (Proc.devRef .tc main_v6_0) :=
  calc W7 m ρ c (Proc.devRef .tc main_v6_0)
    _ = W6 m ρ c (Proc.devRef .tc main_v6_0) := StableHlo.after_of_forall_not_mem (b := Proc.devRef .tc main_v6_0) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6_0) := StableHlo.after_of_forall_not_mem (b := Proc.devRef .tc main_v6_0) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v6_0) := StableHlo.after_of_forall_not_mem (b := Proc.devRef .tc main_v6_0) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6_0) := StableHlo.after_of_forall_not_mem (b := Proc.devRef .tc main_v6_0) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v6_0) := StableHlo.after_of_forall_not_mem (b := Proc.devRef .tc main_v6_0) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No host operation between the two calls writes main_arg8. -/
theorem W7_main_arg8 (c : Dev nD) : W7 m ρ c (Proc.devRef .tc main_arg8) = W2 m ρ c (Proc.devRef .tc main_arg8) :=
  calc W7 m ρ c (Proc.devRef .tc main_arg8)
    _ = W6 m ρ c (Proc.devRef .tc main_arg8) := StableHlo.after_of_forall_not_mem (b := Proc.devRef .tc main_arg8) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := StableHlo.after_of_forall_not_mem (b := Proc.devRef .tc main_arg8) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := StableHlo.after_of_forall_not_mem (b := Proc.devRef .tc main_arg8) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := StableHlo.after_of_forall_not_mem (b := Proc.devRef .tc main_arg8) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No host operation between the two calls writes main_arg11. -/
theorem W7_main_arg11 (c : Dev nD) : W7 m ρ c (Proc.devRef .tc main_arg11) = W2 m ρ c (Proc.devRef .tc main_arg11) :=
  calc W7 m ρ c (Proc.devRef .tc main_arg11)
    _ = W6 m ρ c (Proc.devRef .tc main_arg11) := StableHlo.after_of_forall_not_mem (b := Proc.devRef .tc main_arg11) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := StableHlo.after_of_forall_not_mem (b := Proc.devRef .tc main_arg11) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg11) := StableHlo.after_of_forall_not_mem (b := Proc.devRef .tc main_arg11) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := StableHlo.after_of_forall_not_mem (b := Proc.devRef .tc main_arg11) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg11) := StableHlo.after_of_forall_not_mem (b := Proc.devRef .tc main_arg11) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No host operation between the two calls writes main_v2. -/
theorem W7_main_v2 (c : Dev nD) : W7 m ρ c (Proc.devRef .tc main_v2) = W2 m ρ c (Proc.devRef .tc main_v2) :=
  calc W7 m ρ c (Proc.devRef .tc main_v2)
    _ = W6 m ρ c (Proc.devRef .tc main_v2) := StableHlo.after_of_forall_not_mem (b := Proc.devRef .tc main_v2) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v2) := StableHlo.after_of_forall_not_mem (b := Proc.devRef .tc main_v2) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v2) := StableHlo.after_of_forall_not_mem (b := Proc.devRef .tc main_v2) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v2) := StableHlo.after_of_forall_not_mem (b := Proc.devRef .tc main_v2) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v2) := StableHlo.after_of_forall_not_mem (b := Proc.devRef .tc main_v2) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No host operation between the two calls writes main_v3. -/
theorem W7_main_v3 (c : Dev nD) : W7 m ρ c (Proc.devRef .tc main_v3) = W2 m ρ c (Proc.devRef .tc main_v3) :=
  calc W7 m ρ c (Proc.devRef .tc main_v3)
    _ = W6 m ρ c (Proc.devRef .tc main_v3) := StableHlo.after_of_forall_not_mem (b := Proc.devRef .tc main_v3) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := StableHlo.after_of_forall_not_mem (b := Proc.devRef .tc main_v3) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3) := StableHlo.after_of_forall_not_mem (b := Proc.devRef .tc main_v3) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := StableHlo.after_of_forall_not_mem (b := Proc.devRef .tc main_v3) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nor is main_arg8 an array of the first call: it is as the first call found it. -/
theorem W7_W1_main_arg8 (c : Dev nD) : W7 m ρ c (Proc.devRef .tc main_arg8) = W1 m ρ c (Proc.devRef .tc main_arg8) :=
  (W7_main_arg8 m ρ c).trans (W2_of_ne m ρ c main_arg8 (by decide))

/-- Nor is main_arg11 an array of the first call: it is as the first call found it. -/
theorem W7_W1_main_arg11 (c : Dev nD) : W7 m ρ c (Proc.devRef .tc main_arg11) = W1 m ρ c (Proc.devRef .tc main_arg11) :=
  (W7_main_arg11 m ρ c).trans (W2_of_ne m ρ c main_arg11 (by decide))

/-- Nor is main_v2 an array of the first call: it is as the first call found it. -/
theorem W7_W1_main_v2 (c : Dev nD) : W7 m ρ c (Proc.devRef .tc main_v2) = W1 m ρ c (Proc.devRef .tc main_v2) :=
  (W7_main_v2 m ρ c).trans (W2_of_ne m ρ c main_v2 (by decide))

/-- Nor is main_v3 an array of the first call: it is as the first call found it. -/
theorem W7_W1_main_v3 (c : Dev nD) : W7 m ρ c (Proc.devRef .tc main_v3) = W1 m ρ c (Proc.devRef .tc main_v3) :=
  (W7_main_v3 m ρ c).trans (W2_of_ne m ρ c main_v3 (by decide))

/-- No host operation before the first call writes a weight matrix. -/
theorem W1_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg11 (c : Dev nD) : W1 m ρ c (Proc.devRef .tc main_arg11) = m ((c : Thread nD τ).loc main_arg11) :=
  (StableHlo.after_of_forall_not_mem (b := Proc.devRef .tc main_arg11) _ _ (List.forall_iff_forall_mem.mp (by
          simp only [hostOps0, hostOps1, hostOps1_1, hostOps1_2, hostOps1_3, hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- The host reshapes the two bias vectors to 1 × 128 rows before the first call. -/
theorem W1_main_v2 (c : Dev nD) : (W1 m ρ c (Proc.devRef .tc main_v2) : S1x128.Idx → EReal) = shapeCast S1x128 (aBsg m c) shapeCasts_S128_S1x128 := by
  dsimp only [W1, hostOps0]; after_results; rfl
theorem W1_main_v3 (c : Dev nD) : (W1 m ρ c (Proc.devRef .tc main_v3) : S1x128.Idx → EReal) = shapeCast S1x128 (aBarma m c) shapeCasts_S128_S1x128 := by
  dsimp only [W1, hostOps0]; after_results; rfl

end Keep

theorem V7_v6_0 (c : Dev nD) : kXp7 m ρ c = kXp m ρ c := Keep.W7_main_v6_0 m ρ c
theorem V7_arg8 (c : Dev nD) : kWsg7 m ρ c = aWsg m c := (Keep.W7_W1_main_arg8 m ρ c).trans (Keep.W1_main_arg8 m ρ c)
theorem V7_arg11 (c : Dev nD) : kWroot7 m ρ c = aWroot m c := (Keep.W7_W1_main_arg11 m ρ c).trans (Keep.W1_main_arg11 m ρ c)
theorem V7_v2 (c : Dev nD) (k : Fin 128) : kBsg7 m ρ c (ix2 (0 : Fin 1) k) = aBsg m c (ix1 k) := by
  have h : kBsg7 m ρ c = shapeCast S1x128 (aBsg m c) shapeCasts_S128_S1x128 := (Keep.W7_W1_main_v2 m ρ c).trans (Keep.W1_main_v2 m ρ c)
  rw [h]
  exact shapeCast_a_1a_apply (a := 128) _ _ (0 : Fin 1) k
theorem V7_v3 (c : Dev nD) (k : Fin 128) : kBarma7 m ρ c (ix2 (0 : Fin 1) k) = aBarma m c (ix1 k) := by
  have h : kBarma7 m ρ c = shapeCast S1x128 (aBarma m c) shapeCasts_S128_S1x128 := (Keep.W7_W1_main_v3 m ρ c).trans (Keep.W1_main_v3 m ρ c)
  rw [h]
  exact shapeCast_a_1a_apply (a := 128) _ _ (0 : Fin 1) k

end Cert.KernelIdeal.Val

end
-- ==== Proof.KReg1.lean ====
import proofs.«401336_j87402584473615_3_alg».proof.Proof.KDefs
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import Idealize.ShloMosaic.Lib.IdealHost

set_option maxRecDepth 16384

noncomputable section

/-!
# The second call's output array, entry by entry, as a function of the arrays it finds

Row n, column j of the result is the exponential linear unit of: in columns 0 … 127 the leaky rectifier of
(sgp + sl)·Wsg + bsg; in columns 128 … 255 the leaky rectifier of the rectifier of armap + xp·Wroot + barma. The
call handles the 50000 rows in ten blocks of 5000; each block's result is the same function of the rows it reads,
and the ten blocks cover the array.
-/

open scoped BigOperators

namespace Cert.KernelIdeal.Val

open Cert.KernelIdeal Cert.KernelIdeal.Gen Cert.Graph
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

namespace Reg1

abbrev DD := dot_S5000x128_S128x128_S5000x128_1_0_0_1_n_n

theorem dd_lhs_0 (j : S5000x128.Idx) (k : DD.contr.Idx) : (DD.lhsIdx j k (0 : Fin 2)).val = (j 0).val := by
  unfold DotDims.lhsIdx
  rw [dif_neg (show ¬(0 : Fin S5000x128.rank) ∈ DD.lhsBatch by decide), dif_pos (show (0 : Fin S5000x128.rank) ∈ DD.lhsNonContracting by decide)]
  rfl

theorem dd_lhs_1 (j : S5000x128.Idx) (k : DD.contr.Idx) : (DD.lhsIdx j k (1 : Fin 2)).val = (k ⟨0, by decide⟩).val :=
  DD.lhsIdx_val_of_single (cl := (1 : Fin 2)) rfl j k

theorem dd_rhs_0 (j : S5000x128.Idx) (k : DD.contr.Idx) : (DD.rhsIdx j k (0 : Fin 2)).val = (k ⟨0, by decide⟩).val :=
  DD.rhsIdx_val_of_single (cr := (0 : Fin 2)) rfl j k

theorem dd_rhs_1 (j : S5000x128.Idx) (k : DD.contr.Idx) : (DD.rhsIdx j k (1 : Fin 2)).val = (j 1).val := by
  unfold DotDims.rhsIdx
  rw [dif_neg (show ¬(1 : Fin S128x128.rank) ∈ DD.rhsBatch by decide), dif_pos (show (1 : Fin S128x128.rank) ∈ DD.rhsNonContracting by decide)]
  rfl

/-- The block product into a zero accumulator, entry by entry: row p of the left factor against column q of the right. -/
theorem mm_apply (x : FVec Ideal S5000x128 .f32) (w : FVec Ideal S128x128 .f32) (p : Fin 5000) (q : Fin 128) :
    matmul DD none x w (constant S5000x128 .f32 0x00000000#32) (ix2 p q) = ∑ l : Fin 128, x (ix2 p l) * w (ix2 l q) := by
  simp only [matmul]
  rw [Ideal.matmul_constant_zero_apply]
  rw [← Equiv.sum_comp (contrEquiv1 DD 128 rfl rfl).symm]
  refine Finset.sum_congr rfl fun l _ => ?_
  have hk := contrEquiv1_symm_val DD 128 rfl rfl l
  congr 2
  · funext a; apply Fin.ext
    match a with
    | ⟨0, _⟩ => exact dd_lhs_0 _ _
    | ⟨1, _⟩ => exact (dd_lhs_1 _ _).trans hk
  · funext a; apply Fin.ext
    match a with
    | ⟨0, _⟩ => exact (dd_rhs_0 _ _).trans hk
    | ⟨1, _⟩ => exact dd_rhs_1 _ _

/-- The printed leaky rectifier (a comparison against zero choosing between z and slope · z) is `leaky`. -/
theorem sel_leaky0 (z : EReal) :
    Scalar.select (Ideal.cmp .oge z 0) z (Ideal.ofBits .f32 0x3C23D70A#32 * z) = leaky z := by
  unfold leaky
  by_cases h : (0 : EReal) ≤ z
  · rw [if_pos h]
    show Scalar.select (BitVec.ofBool (decide ((0 : EReal) ≤ z))) _ _ = _
    rw [decide_eq_true h]; exact select_one _ _
  · rw [if_neg h]
    show Scalar.select (BitVec.ofBool (decide ((0 : EReal) ≤ z))) _ _ = _
    rw [decide_eq_false h]; exact select_zero _ _

theorem sel_leaky (z : EReal) :
    Scalar.select (Ideal.cmp .oge z (Ideal.ofBits .f32 0x00000000#32)) z (Ideal.ofBits .f32 0x3C23D70A#32 * z) = leaky z := by
  rw [Ideal.ofBits_zero_f32]; exact sel_leaky0 z

/-- The printed exponential linear unit: where z ≤ 0 the minimum of z and 0 is z. -/
theorem sel_elu (z : EReal) :
    Scalar.select (Ideal.cmp .ogt z (Ideal.ofBits .f32 0x00000000#32)) z
      (Ideal.exp (min z (Ideal.ofBits .f32 0x00000000#32)) - Ideal.ofBits .f32 0x3F800000#32) = elu z := by
  rw [Ideal.ofBits_zero_f32, Ideal.ofBits_one_f32]
  unfold elu
  by_cases h : (0 : EReal) < z
  · rw [if_pos h]
    show Scalar.select (BitVec.ofBool (decide ((0 : EReal) < z))) _ _ = _
    rw [decide_eq_true h]; exact select_one _ _
  · rw [if_neg h]
    show Scalar.select (BitVec.ofBool (decide ((0 : EReal) < z))) _ _ = _
    rw [decide_eq_false h, min_eq_left (not_lt.mp h)]; exact select_zero _ _

/-- The first branch at row p, column q, over tables of R rows: the two summands added, times the weight matrix, plus
    the bias row, under the leaky rectifier. -/
def br1 {R : ℕ} (v0 v2 : (⟨2, ![R, 128]⟩ : Shape).Idx → EReal) (v5 : (⟨2, ![128, 128]⟩ : Shape).Idx → EReal)
    (v7 : (⟨2, ![1, 128]⟩ : Shape).Idx → EReal) (p : Fin R) (q : Fin 128) : EReal :=
  leaky ((∑ l : Fin 128, (v0 (ix2 p l) + v2 (ix2 p l)) * v5 (ix2 l q)) + v7 (ix2 (0 : Fin 1) q))

/-- The second branch at row p, column q, over tables of R rows: the propagated part plus the root product plus the
    bias row, under the rectifier and the leaky rectifier. -/
def br2 {R : ℕ} (v16 v18 : (⟨2, ![R, 128]⟩ : Shape).Idx → EReal) (v20 : (⟨2, ![128, 128]⟩ : Shape).Idx → EReal)
    (v23 : (⟨2, ![1, 128]⟩ : Shape).Idx → EReal) (p : Fin R) (q : Fin 128) : EReal :=
  leaky (max (v16 (ix2 p q) + (∑ l : Fin 128, v18 (ix2 p l) * v20 (ix2 l q)) + v23 (ix2 (0 : Fin 1) q)) 0)

/-- The result at row p, column j: the first branch in columns 0 … 127, the second in columns 128 … 255, under the
    exponential linear unit. -/
def outAt {R : ℕ} (x0 x1 x2 x3 : (⟨2, ![R, 128]⟩ : Shape).Idx → EReal) (x4 : (⟨2, ![128, 128]⟩ : Shape).Idx → EReal)
    (x5 : (⟨2, ![1, 128]⟩ : Shape).Idx → EReal) (x6 : (⟨2, ![128, 128]⟩ : Shape).Idx → EReal)
    (x7 : (⟨2, ![1, 128]⟩ : Shape).Idx → EReal) (p : Fin R) (j : Fin 256) : EReal :=
  elu (if hj : j.val < 128 then br1 x0 x1 x4 x5 p ⟨j.val, hj⟩ else br2 x2 x3 x6 x7 p ⟨j.val - 128, by omega⟩)

/-- The concatenated block in its first 128 columns is the first branch. -/
theorem pay2_left (v0 v2 : Vec Ideal S5000x128 .f32) (v5 : Vec Ideal S128x128 .f32) (v7 : Vec Ideal S1x128 .f32)
    (v16 v18 : Vec Ideal S5000x128 .f32) (v20 : Vec Ideal S128x128 .f32) (v23 : Vec Ideal S1x128 .f32)
    (p : Fin 5000) (j : Fin 256) (hj : j.val < 128) :
    k1_pay2 v0 v2 v5 v7 v16 v18 v20 v23 (ix2 p j) = br1 (R := 5000) v0 v2 v5 v7 p ⟨j.val, hj⟩ := by
  unfold k1_pay2
  refine (concatenate_pair_apply_left (t := S5000x256) (s₁ := S5000x128) (s₂ := S5000x128) (1 : Fin 2) _ _ _ (ix2 p j) rfl (ix2 p (⟨j.val, hj⟩ : Fin 128)) (fun b => ?_)).trans ?_
  · match b with
    | ⟨0, _⟩ => rfl
    | ⟨1, _⟩ => rfl
  simp only [select_apply, cmpf_apply, mulf_apply, addf_apply, broadcast_apply, shapeCast_self, Ideal.cmpf_def]
  rw [mm_apply, broadcastTo_1b_ab_apply]
  simp only [addf_apply]
  exact sel_leaky _

/-- The concatenated block in its last 128 columns is the second branch. -/
theorem pay2_right (v0 v2 : Vec Ideal S5000x128 .f32) (v5 : Vec Ideal S128x128 .f32) (v7 : Vec Ideal S1x128 .f32)
    (v16 v18 : Vec Ideal S5000x128 .f32) (v20 : Vec Ideal S128x128 .f32) (v23 : Vec Ideal S1x128 .f32)
    (p : Fin 5000) (j : Fin 256) (hj : ¬ j.val < 128) :
    k1_pay2 v0 v2 v5 v7 v16 v18 v20 v23 (ix2 p j) = br2 (R := 5000) v16 v18 v20 v23 p ⟨j.val - 128, by omega⟩ := by
  unfold k1_pay2
  refine (concatenate_pair_apply_right (t := S5000x256) (s₁ := S5000x128) (s₂ := S5000x128) (1 : Fin 2) _ _ _ (ix2 p j) rfl rfl
    (ix2 p (⟨j.val - 128, by omega⟩ : Fin 128)) (fun b => ?_) ?_).trans ?_
  · match b with
    | ⟨0, _⟩ => exact fun _ => rfl
    | ⟨1, _⟩ => exact fun h => absurd rfl h
  · show (j.val - 128) + 128 = j.val
    omega
  simp only [select_apply, cmpf_apply, mulf_apply, addf_apply, maximumf_apply, broadcast_apply, shapeCast_self, Ideal.cmpf_def]
  rw [mm_apply, broadcastTo_1b_ab_apply]
  rw [show (Scalar.ofBits (F := Ideal) .f32 0x00000000#32 : EReal) = 0 from Ideal.ofBits_zero_f32]
  exact sel_leaky0 _

/-- The stored block, entry by entry. -/
theorem pay_apply (v0 v2 : Vec Ideal S5000x128 .f32) (v5 : Vec Ideal S128x128 .f32) (v7 : Vec Ideal S1x128 .f32)
    (v16 v18 : Vec Ideal S5000x128 .f32) (v20 : Vec Ideal S128x128 .f32) (v23 : Vec Ideal S1x128 .f32)
    (p : Fin 5000) (j : Fin 256) :
    k1_pay1 (k1_pay2 v0 v2 v5 v7 v16 v18 v20 v23) (Scalar.ofBits .f32 0x00000000#32) (ix2 p j)
      = outAt (R := 5000) v0 v2 v16 v18 v5 v7 v20 v23 p j := by
  unfold k1_pay1
  simp only [select_apply, cmpf_apply, subf_apply, minimumf_apply, broadcast_apply, Ideal.cmpf_def]
  refine (sel_elu _).trans ?_
  unfold outAt
  congr 1
  by_cases hj : j.val < 128
  · rw [dif_pos hj]; exact pay2_left v0 v2 v5 v7 v16 v18 v20 v23 p j hj
  · rw [dif_neg hj]; exact pay2_right v0 v2 v5 v7 v16 v18 v20 v23 p j hj

section Region

-- the TensorCore's buffer contents when the second call is entered: a parameter
variable (V : (c : Dev nD) → (b : Ref sig .tc) → Buf (Elt Ideal) ((c : Thread nD τ).loc b))

theorem hz : (![0, 0] : Fin 2 → Nat) = fun _ => 0 := funext fun a => by fin_cases a <;> rfl

/-- The whole result array as a function of the arrays the call finds, entry by entry. -/
def G1 (c : Dev nD) : S50000x256.Idx → EReal := fun i =>
  outAt (R := 50000) (V c main_v76 : S50000x128.Idx → EReal) (V c main_v81 : S50000x128.Idx → EReal)
    (V c main_v77 : S50000x128.Idx → EReal) (V c main_v6_0 : S50000x128.Idx → EReal)
    (V c main_arg8 : S128x128.Idx → EReal) (V c main_v2 : S1x128.Idx → EReal)
    (V c main_arg11 : S128x128.Idx → EReal) (V c main_v3 : S1x128.Idx → EReal) (i 0) (i 1)

/-- The block index maps over the grid: a row window (and the output) at point t is row block t; a weight or bias
    window is its whole array at every point. -/
theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_8.index t (0 : Fin 2) = t.val ∧ win1_8.index t (1 : Fin 2) = 0) :=
  (by decide +kernel : ∀ t : Fin grid1.N, _)

theorem idx_whole : ∀ t : Fin cfg1.N,
    (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

theorem t_lt (t : Fin cfg1.N) : t.val < 10 := lt_of_lt_of_eq t.isLt N_1

/-- Row p of a row window's block at point t is row 5000 t + p of its array. -/
theorem iblk_row0 (c : Dev nD) (t : Fin cfg1.N) (p : Fin 5000) (l : Fin 128) (r : Fin 50000) (hr : r.val = 5000 * t.val + p.val) :
    (iblk1 V c 0 t : Vec Ideal S5000x128 .f32) (ix2 p l) = (V c main_v76 : S50000x128.Idx → EReal) (ix2 r l) := by
  obtain ⟨e0, e1⟩ := (idx_rows t).1
  unfold iblk1
  rw [View.read_apply]
  show V c main_v76 _ = V c main_v76 _
  congr 1
  funext a; apply Fin.ext
  match a with
  | ⟨0, _⟩ => show win1_0.index t (0 : Fin 2) * 5000 + 1 * p.val = r.val; rw [e0, hr]; omega
  | ⟨1, _⟩ => show win1_0.index t (1 : Fin 2) * 128 + 1 * l.val = l.val; rw [e1]; omega

theorem iblk_row1 (c : Dev nD) (t : Fin cfg1.N) (p : Fin 5000) (l : Fin 128) (r : Fin 50000) (hr : r.val = 5000 * t.val + p.val) :
    (iblk1 V c 1 t : Vec Ideal S5000x128 .f32) (ix2 p l) = (V c main_v81 : S50000x128.Idx → EReal) (ix2 r l) := by
  obtain ⟨e0, e1⟩ := (idx_rows t).2.1
  unfold iblk1
  rw [View.read_apply]
  show V c main_v81 _ = V c main_v81 _
  congr 1
  funext a; apply Fin.ext
  match a with
  | ⟨0, _⟩ => show win1_1.index t (0 : Fin 2) * 5000 + 1 * p.val = r.val; rw [e0, hr]; omega
  | ⟨1, _⟩ => show win1_1.index t (1 : Fin 2) * 128 + 1 * l.val = l.val; rw [e1]; omega

theorem iblk_row2 (c : Dev nD) (t : Fin cfg1.N) (p : Fin 5000) (l : Fin 128) (r : Fin 50000) (hr : r.val = 5000 * t.val + p.val) :
    (iblk1 V c 2 t : Vec Ideal S5000x128 .f32) (ix2 p l) = (V c main_v77 : S50000x128.Idx → EReal) (ix2 r l) := by
  obtain ⟨e0, e1⟩ := (idx_rows t).2.2.1
  unfold iblk1
  rw [View.read_apply]
  show V c main_v77 _ = V c main_v77 _
  congr 1
  funext a; apply Fin.ext
  match a with
  | ⟨0, _⟩ => show win1_2.index t (0 : Fin 2) * 5000 + 1 * p.val = r.val; rw [e0, hr]; omega
  | ⟨1, _⟩ => show win1_2.index t (1 : Fin 2) * 128 + 1 * l.val = l.val; rw [e1]; omega

theorem iblk_row3 (c : Dev nD) (t : Fin cfg1.N) (p : Fin 5000) (l : Fin 128) (r : Fin 50000) (hr : r.val = 5000 * t.val + p.val) :
    (iblk1 V c 3 t : Vec Ideal S5000x128 .f32) (ix2 p l) = (V c main_v6_0 : S50000x128.Idx → EReal) (ix2 r l) := by
  obtain ⟨e0, e1⟩ := (idx_rows t).2.2.2.1
  unfold iblk1
  rw [View.read_apply]
  show V c main_v6_0 _ = V c main_v6_0 _
  congr 1
  funext a; apply Fin.ext
  match a with
  | ⟨0, _⟩ => show win1_3.index t (0 : Fin 2) * 5000 + 1 * p.val = r.val; rw [e0, hr]; omega
  | ⟨1, _⟩ => show win1_3.index t (1 : Fin 2) * 128 + 1 * l.val = l.val; rw [e1]; omega

/-- A weight or bias window's block at any point is its whole array. -/
theorem iblk_whole4 (c : Dev nD) (t : Fin cfg1.N) (i : S128x128.Idx) :
    (iblk1 V c 4 t : Vec Ideal S128x128 .f32) i = (V c main_arg8 : S128x128.Idx → EReal) i := by
  obtain ⟨e0, e1⟩ := (idx_whole t).1
  unfold iblk1
  rw [View.read_apply]
  show V c main_arg8 _ = V c main_arg8 _
  congr 1
  funext a; apply Fin.ext
  match a with
  | ⟨0, _⟩ => show win1_4.index t (0 : Fin 2) * 128 + 1 * (i 0).val = (i 0).val; rw [e0]; omega
  | ⟨1, _⟩ => show win1_4.index t (1 : Fin 2) * 128 + 1 * (i 1).val = (i 1).val; rw [e1]; omega

theorem iblk_whole5 (c : Dev nD) (t : Fin cfg1.N) (i : S1x128.Idx) :
    (iblk1 V c 5 t : Vec Ideal S1x128 .f32) i = (V c main_v2 : S1x128.Idx → EReal) i := by
  obtain ⟨e0, e1⟩ := (idx_whole t).2.1
  unfold iblk1
  rw [View.read_apply]
  show V c main_v2 _ = V c main_v2 _
  congr 1
  funext a; apply Fin.ext
  match a with
  | ⟨0, _⟩ => show win1_5.index t (0 : Fin 2) * 1 + 1 * (i 0).val = (i 0).val; rw [e0]; omega
  | ⟨1, _⟩ => show win1_5.index t (1 : Fin 2) * 128 + 1 * (i 1).val = (i 1).val; rw [e1]; omega

theorem iblk_whole6 (c : Dev nD) (t : Fin cfg1.N) (i : S128x128.Idx) :
    (iblk1 V c 6 t : Vec Ideal S128x128 .f32) i = (V c main_arg11 : S128x128.Idx → EReal) i := by
  obtain ⟨e0, e1⟩ := (idx_whole t).2.2.1
  unfold iblk1
  rw [View.read_apply]
  show V c main_arg11 _ = V c main_arg11 _
  congr 1
  funext a; apply Fin.ext
  match a with
  | ⟨0, _⟩ => show win1_6.index t (0 : Fin 2) * 128 + 1 * (i 0).val = (i 0).val; rw [e0]; omega
  | ⟨1, _⟩ => show win1_6.index t (1 : Fin 2) * 128 + 1 * (i 1).val = (i 1).val; rw [e1]; omega

theorem iblk_whole7 (c : Dev nD) (t : Fin cfg1.N) (i : S1x128.Idx) :
    (iblk1 V c 7 t : Vec Ideal S1x128 .f32) i = (V c main_v3 : S1x128.Idx → EReal) i := by
  obtain ⟨e0, e1⟩ := (idx_whole t).2.2.2
  unfold iblk1
  rw [View.read_apply]
  show V c main_v3 _ = V c main_v3 _
  congr 1
  funext a; apply Fin.ext
  match a with
  | ⟨0, _⟩ => show win1_7.index t (0 : Fin 2) * 1 + 1 * (i 0).val = (i 0).val; rw [e0]; omega
  | ⟨1, _⟩ => show win1_7.index t (1 : Fin 2) * 128 + 1 * (i 1).val = (i 1).val; rw [e1]; omega

/-- The body's result at row p of point t's block is the whole-array function at row 5000 t + p. -/
theorem blk_val (c : Dev nD) (t : Fin cfg1.N) (p : Fin 5000) (j : Fin 256) (r : Fin 50000) (hr : r.val = 5000 * t.val + p.val) :
    outAt (R := 5000) (iblk1 V c 0 t) (iblk1 V c 1 t) (iblk1 V c 2 t) (iblk1 V c 3 t) (iblk1 V c 4 t) (iblk1 V c 5 t) (iblk1 V c 6 t) (iblk1 V c 7 t) p j
      = G1 V c (ix2 r j) := by
  show _ = outAt (R := 50000) _ _ _ _ _ _ _ _ r j
  unfold outAt br1 br2
  simp only [iblk_row0 V c t p _ r hr, iblk_row1 V c t p _ r hr, iblk_row2 V c t p _ r hr, iblk_row3 V c t p _ r hr,
    iblk_whole4 V c t, iblk_whole5 V c t, iblk_whole6 V c t, iblk_whole7 V c t]

/-- What point t writes back is block t of the whole-array function. -/
theorem flushed_eq (c : Dev nD) (t : Fin cfg1.N) :
    (dat1 V c).flushed 8 t = ((cfg1.win 8).blk t).view.read (Elt Ideal) (G1 V c) := by
  show (cfg1.win 8).cut (grid1.coords t) ((dat1 V c).after 8 t) = _
  rw [after1_8]
  unfold out1_8
  rw [View.canon_unit_zero hz]
  simp only [View.ld_unit_zero (S := S5000x128) hz, View.ld_unit_zero (S := S128x128) hz, View.ld_unit_zero (S := S1x128) hz]
  funext y
  have hy : y = ix2 (y 0) (y 1) := eq_ix2 y
  have ht := t_lt t
  have hp : (y 0).val < 5000 := (y 0).isLt
  obtain ⟨e0, e1⟩ := (idx_rows t).2.2.2.2
  rw [View.read_apply, hy]
  refine (pay_apply _ _ _ _ _ _ _ _ (y 0) (y 1)).trans ?_
  refine (blk_val V c t (y 0) (y 1) ⟨5000 * t.val + (y 0).val, by omega⟩ rfl).trans ?_
  congr 1
  funext a; apply Fin.ext
  match a with
  | ⟨0, _⟩ => show 5000 * t.val + (y 0).val = win1_8.index t (0 : Fin 2) * 5000 + 1 * (y 0).val; rw [e0]; omega
  | ⟨1, _⟩ => show (y 1).val = win1_8.index t (1 : Fin 2) * 256 + 1 * (y 1).val; rw [e1]; omega

/-- An index of the array is in point t's block iff each coordinate is in the block's range on its axis. -/
theorem mem_blk (t : Fin cfg1.N) (i : S50000x256.Idx) :
    i ∈ ((cfg1.win 8).blk t).view.set ↔ ∀ a : Fin 2, win1_8.index t a * S5000x256.size a ≤ (i a).val ∧ (i a).val < win1_8.index t a * S5000x256.size a + S5000x256.size a := by
  show i ∈ ((View.whole main_v82).slice (win1_8.rect t)).set ↔ _
  rw [View.set_slice_whole, Rect.mem_set_unit]
  exact Iff.rfl

/-- The result array after the call: the ten row blocks cover it (row r lies in block r / 5000). -/
theorem final8 (c : Dev nD) : (dat1 V c).arrAt 8 cfg1.N = G1 V c :=
  (dat1 V c).arrAt_eq_of_cover 8 (G1 V c) (fun t _ => flushed_eq V c t) fun i => by
    have h0 : (i 0).val < 50000 := (i 0).isLt
    have h1 : (i 1).val < 256 := (i 1).isLt
    refine ⟨⟨(i 0).val / 5000, by rw [show cfg1.N = 10 from N_1]; omega⟩, flush1_8 _, ?_⟩
    rw [mem_blk]
    obtain ⟨e0, e1⟩ := (idx_rows ⟨(i 0).val / 5000, by rw [show cfg1.N = 10 from N_1]; omega⟩).2.2.2.2
    intro a
    match a with
    | ⟨0, _⟩ => show win1_8.index _ (0 : Fin 2) * 5000 ≤ (i 0).val ∧ (i 0).val < win1_8.index _ (0 : Fin 2) * 5000 + 5000; rw [e0]; show (i 0).val / 5000 * 5000 ≤ _ ∧ _ < (i 0).val / 5000 * 5000 + 5000; omega
    | ⟨1, _⟩ => show win1_8.index _ (1 : Fin 2) * 256 ≤ (i 1).val ∧ (i 1).val < win1_8.index _ (1 : Fin 2) * 256 + 256; rw [e1]; omega

end Region

end Reg1

theorem W8_out (c : Dev nD) (n : Fin 50000) (j : Fin 256) :
    kOut m ρ c (ix2 n j)
      = elu (if hj : j.val < 128 then
          leaky ((∑ l : Fin 128, (kSgp m ρ c (ix2 n l) + kSl m ρ c (ix2 n l))
                    * kWsg7 m ρ c (ix2 l ⟨j.val, hj⟩))
                  + kBsg7 m ρ c (ix2 (0 : Fin 1) ⟨j.val, hj⟩))
        else
          leaky (max (kArmap m ρ c (ix2 n ⟨j.val - 128, by omega⟩)
                  + (∑ l : Fin 128, kXp7 m ρ c (ix2 n l) * kWroot7 m ρ c (ix2 l ⟨j.val - 128, by omega⟩))
                  + kBarma7 m ρ c (ix2 (0 : Fin 1) ⟨j.val - 128, by omega⟩)) 0)) := by
  have h : kOut m ρ c = Reg1.G1 (V7 m ρ) c := (W8_arr m ρ c 8).trans (Reg1.final8 (V7 m ρ) c)
  rw [h]
  rfl

end Cert.KernelIdeal.Val

end
-- ==== Proof.GraphLaws.lean ====
import proofs.«401336_j87402584473615_3_alg».proof.Proof.Spec
import Mathlib.Data.EReal.Basic
import Mathlib.Algebra.BigOperators.Ring.Finset
import Mathlib.Algebra.BigOperators.Group.Finset.Basic

/-!
# One law of real algebra on the extended reals

Multiplication of extended reals does not distribute over addition in general (a sum may be the
undefined form ∞ - ∞). On entries that are real numbers it does, because the real numbers embed
in the extended reals by a map that keeps sums and products. This gives associativity of the
product of a feature row with two matrices, the bias row carried along.
-/

noncomputable section

open scoped BigOperators

namespace Cert.Graph

open Idealize.ShloMosaic Idealize.ShloMosaic.ValueIdx

/-- The embedding of the reals in the extended reals keeps finite sums. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array whose entries are all real numbers is the embedding of an array of reals. -/
theorem exists_real_fun {ι : Type*} (A : ι → EReal) (hA : ∀ i, ∃ r : ℝ, A i = (r : EReal)) :
    ∃ f : ι → ℝ, A = fun i => (f i : EReal) := by
  choose f hf using hA
  exact ⟨f, funext hf⟩

/-- A feature row through two matrices in a row is the row through their product, when everything is a real number. -/
theorem lin_mm_assoc (X : SND.Idx → EReal) (Wx Wi : SDD.Idx → EReal) (bx : SD.Idx → EReal)
    (hX : ∀ i, ∃ r : ℝ, X i = (r : EReal)) (hWx : ∀ i, ∃ r : ℝ, Wx i = (r : EReal))
    (hWi : ∀ i, ∃ r : ℝ, Wi i = (r : EReal)) (hbx : ∀ i, ∃ r : ℝ, bx i = (r : EReal))
    (n : Fin 50000) (k : Fin 128) :
    (∑ j : Fin 128, X (ix2 n j) * (∑ l : Fin 128, Wx (ix2 j l) * Wi (ix2 l k)))
        + ∑ l : Fin 128, bx (ix1 l) * Wi (ix2 l k)
      = mm (lin X Wx bx) Wi n k := by
  obtain ⟨x, rfl⟩ := exists_real_fun X hX
  obtain ⟨wx, rfl⟩ := exists_real_fun Wx hWx
  obtain ⟨wi, rfl⟩ := exists_real_fun Wi hWi
  obtain ⟨b, rfl⟩ := exists_real_fun bx hbx
  simp only [mm, lin]
  -- both sides are the embedding of a real number
  simp only [← EReal.coe_mul, ← coe_sum_real, ← EReal.coe_add]
  rw [EReal.coe_eq_coe_iff]
  -- in the reals: distribute, exchange the two sums, and reassociate
  simp only [add_mul, Finset.sum_add_distrib, Finset.mul_sum, Finset.sum_mul]
  rw [Finset.sum_comm]
  simp only [mul_assoc]

end Cert.Graph

end
-- ==== Proof.KValue.lean ====
import proofs.«401336_j87402584473615_3_alg».proof.Proof.KReg0
import proofs.«401336_j87402584473615_3_alg».proof.Proof.KHost
import proofs.«401336_j87402584473615_3_alg».proof.Proof.KHostKeep
import proofs.«401336_j87402584473615_3_alg».proof.Proof.KReg1
import proofs.«401336_j87402584473615_3_alg».proof.Proof.GraphLaws

/-!
# The idealized kernel program's result as the specification's function of its inputs

The first call leaves the three linear layers x Wx + bx, h Wh + bh and x (Wx Wi) + bx Wi. Between the calls the host
propagates the last two along the normalised edges (one gather, one scatter-add for both) and forms the self-loop term
dinvL² · hp. The second call adds the self-loop term to the first propagation, applies the branches' linear maps and
activations, and joins them. Over the reals x (Wx Wi) + bx Wi is (x Wx + bx) Wi, which is where the precondition is
used; everything else is the commutative-monoid structure of the extended reals.
-/

set_option maxRecDepth 16384

noncomputable section

open scoped BigOperators

namespace Cert.KernelIdeal.Val

open Cert.KernelIdeal Cert.KernelIdeal.Gen Cert.Graph
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The result array of the idealized kernel program is the specification's function of the launch arrays, when the
    arrays of the precomposed layer hold real numbers: the first call's outputs are the three linear layers (the third
    through the product matrix, which is the two layers in a row over the reals), the arrays the second call finds are the
    two propagations and the self-loop term, and the second call applies the branches' linear maps and activations. -/
theorem kernel_out (c : Dev nD)
    (hX : ∀ i, ∃ r : ℝ, aX m c i = (r : EReal)) (hWx : ∀ i, ∃ r : ℝ, aWx m c i = (r : EReal))
    (hWi : ∀ i, ∃ r : ℝ, aWi m c i = (r : EReal)) (hbx : ∀ i, ∃ r : ℝ, aBx m c i = (r : EReal))
    (n : Fin 50000) (j : Fin 256) :
    kOut m ρ c (ix2 n j)
      = out (aH m c) (aX m c) (aEi m c) (aEw m c) (aWh m c) (aBh m c) (aWx m c) (aBx m c) (aWsg m c) (aBsg m c)
          (aWi m c) (aWroot m c) (aBarma m c) n j := by
  refine (W8_out m ρ c n j).trans ?_
  unfold out
  refine congrArg elu ?_
  by_cases hj : j.val < 128
  · rw [dif_pos hj, dif_pos hj]
    unfold o1
    refine congrArg leaky ?_
    rw [V7_v2]
    refine congrArg (· + aBsg m c (ix1 ⟨j.val, hj⟩)) ?_
    unfold mm
    refine Finset.sum_congr rfl fun l _ => ?_
    rw [V7_v76, V7_v81, V7_arg8]
    refine congrArg (· * aWsg m c (ix2 l ⟨j.val, hj⟩)) ?_
    unfold sg agg
    refine congrArg₂ (· + ·) ?_ ?_
    · refine Finset.sum_congr rfl fun e _ => ?_
      rw [W2_hp, mul_comm]
    · rw [W2_hp]
  · rw [dif_neg hj, dif_neg hj]
    unfold o2 o2With
    refine congrArg leaky ?_
    refine congrArg (max · 0) ?_
    rw [V7_v3, V7_v77, V7_v6_0, V7_arg11]
    refine congrArg (· + aBarma m c (ix1 ⟨j.val - 128, by omega⟩)) ?_
    refine congrArg₂ (· + ·) ?_ ?_
    · unfold agg
      refine Finset.sum_congr rfl fun e _ => ?_
      rw [W2_xpw, lin_mm_assoc _ _ _ _ hX hWx hWi hbx, mul_comm]
    · unfold mm
      refine Finset.sum_congr rfl fun l _ => ?_
      rw [W2_xp]

end Cert.KernelIdeal.Val

end
-- ==== Proof.KFinite.lean ====
import proofs.«401336_j87402584473615_3_alg».proof.Defs
import proofs.«401336_j87402584473615_3_alg».proof.Proof.Gen.Pre_finite_inputs
import proofs.«401336_j87402584473615_3_alg».proof.Proof.Gen.KernelIdeal
import Idealize.ShloMosaic.Lib.ReduceAll
import Idealize.ShloMosaic.Lib.ValueIdx
import Mathlib.Data.EReal.Basic

/-!
# From "every float input is finite" to "every entry is a real number"

The precondition is a conjunction, one conjunct for each float argument array: every entry x of the array has
|x| < +∞, the bound being the float whose bits are those of +∞. On the extended reals |x| is max x (-x); it is below
+∞ exactly when x is neither +∞ nor -∞, that is, when x is a real number.
-/

noncomputable section

namespace Cert.KernelIdeal.Val

open Cert.KernelIdeal Idealize.ShloMosaic Idealize.SL.Sem

/-- The shape of a single number has one index. -/
instance subsingleton_scalar_idx : Subsingleton (⟨0, ![]⟩ : Shape).Idx := ⟨fun a b => funext fun d => d.elim0⟩

/-- The float whose bits are 0x7F800000 is +∞. -/
theorem ofBits_inf : Ideal.ofBits .f32 0x7F800000#32 = (⊤ : EReal) := by
  simp [Ideal.ofBits, Ideal.ieee]

/-- An ordered "less than" that came out 1 is the order's "less than". -/
theorem lt_of_cmp_olt (a b : EReal) (h : Ideal.cmp .olt a b = 1#1) : a < b := by
  by_contra hn
  simp [Ideal.cmp, hn] at h

/-- An extended real whose absolute value is below +∞ is a real number. -/
theorem real_of_abs_lt_top (x : EReal) (h : max x (-x) < ⊤) : ∃ r : ℝ, x = (r : EReal) := by
  have h1 : x ≠ ⊤ := fun e => by subst e; simp at h
  have h2 : x ≠ ⊥ := fun e => by subst e; simp at h
  exact ⟨x.toReal, (EReal.coe_toReal h1 h2).symm⟩

/-- One conjunct of the precondition, for an array of any shape: if "all entries have |x| < +∞" came out 1, every entry
    is a real number. -/
theorem real_of_all_finite {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ValueIdx.ix0 = 1#1) (i : s.Idx) :
    ∃ r : ℝ, x i = (r : EReal) := by
  have h := Host.reduce_andi_all _ _ hr hu ValueIdx.ix0 e i
  have h' : Ideal.cmp .olt (max (x i) (-(x i))) (Ideal.ofBits .f32 0x7F800000#32) = 1#1 := h
  rw [ofBits_inf] at h'
  exact real_of_abs_lt_top (x i) (lt_of_cmp_olt _ _ h')

/-- Under the precondition, the four float argument arrays the algebra needs hold real numbers only. -/
theorem real_of_pre (m : (ℓ : Loc nD τ sig) → Buf (Elt Ideal) ℓ) (hpre : Cert.Pre_KernelIdeal m) (c : Dev nD) :
    (∀ i, ∃ r : ℝ, (m ((c.tc : Thread nD τ).loc main_arg1) : S50000x128.Idx → EReal) i = (r : EReal))
    ∧ (∀ i, ∃ r : ℝ, (m ((c.tc : Thread nD τ).loc main_arg6) : S128x128.Idx → EReal) i = (r : EReal))
    ∧ (∀ i, ∃ r : ℝ, (m ((c.tc : Thread nD τ).loc main_arg7) : S128.Idx → EReal) i = (r : EReal))
    ∧ (∀ i, ∃ r : ℝ, (m ((c.tc : Thread nD τ).loc main_arg10) : S128x128.Idx → EReal) i = (r : EReal)) := by
  have h0 := congrFun (hpre c) ValueIdx.ix0
  dsimp only [Cert.Pre_finite_inputs.fn, Cert.Pre_finite_inputs.fn_part1, Cert.Pre_finite_inputs.fn_part2,
    Cert.Pre_finite_inputs.fn_part3] at h0
  simp only [Idealize.ShloMosaic.andi, IntOp.andi_eq_one] at h0
  obtain ⟨⟨⟨⟨⟨⟨⟨⟨⟨⟨⟨-, h1⟩, -⟩, -⟩, -⟩, h6⟩, h7⟩, -⟩, -⟩, h10⟩, -⟩, -⟩ := h0
  exact ⟨real_of_all_finite _ _ _ _ h1, real_of_all_finite _ _ _ _ h6, real_of_all_finite _ _ _ _ h7,
    real_of_all_finite _ _ _ _ h10⟩

end Cert.KernelIdeal.Val

end
-- ==== Proof.RefOps.lean ====
import proofs.«401336_j87402584473615_3_alg».proof.Proof.Gen.ReferenceIdeal
import Idealize.ShloMosaic.Lib.StableHlo.Run
import Idealize.ShloMosaic.Lib.Pipeline.Regions

set_option maxRecDepth 4096

noncomputable section

namespace Cert.ReferenceIdeal.Ops

open Cert.ReferenceIdeal Cert.ReferenceIdeal.Gen Idealize.ShloMosaic Idealize.ShloMosaic.TcCoe Idealize.SL.Sem

variable {F : FTy → Type} [FloatOps F]

/-- 27 operations of main_part0, in order. -/
abbrev it0 : List (HloOp τ sig (Elt F)) :=
  [ StableHlo.binary main_arg1 main_arg6 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)),
    StableHlo.binary main_arg0 main_arg4 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S50000x128 ![0, 1] bcast_S1x128_S50000x128_0_1 : (⟨S1x128, .f32⟩ : BufTy).Contents (Elt F) → (⟨S50000x128, .f32⟩ : BufTy).Contents (Elt F)),
    StableHlo.binary main_v4 main_v6 main_v7 (addf : (⟨S50000x128, .f32⟩ : BufTy).Contents (Elt F) → (⟨S50000x128, .f32⟩ : BufTy).Contents (Elt F) → (⟨S50000x128, .f32⟩ : BufTy).Contents (Elt F)),
    StableHlo.unary main_arg2 main_v8 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v8 main_v9 rfl shapeCasts_S1x800000_S800000,
    StableHlo.unary main_arg2 main_v10 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v10 main_v11 rfl shapeCasts_S1x800000_S800000,
    StableHlo.nullary main_v12 (iotaInDim S50000 32 0),
    StableHlo.binary main_v9 main_v12 main_v13 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v11 main_v12 main_v14 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v15 (broadcastInDim S50000 ![] bcast_S_S50000 : (⟨S_, .f32⟩ : BufTy).Contents (Elt F) → (⟨S50000, .f32⟩ : BufTy).Contents (Elt F)),
    StableHlo.binary main_arg3 main_v15 main_v16 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_0 (constant S_ .f32 0x00000000#32),
    StableHlo.unary main_cst_0 main_v17 (broadcastInDim S50000 ![] bcast_S_S50000 : (⟨S_, .f32⟩ : BufTy).Contents (Elt F) → (⟨S50000, .f32⟩ : BufTy).Contents (Elt F)),
    StableHlo.unary main_v14 main_v18 (broadcastInDim S850000x1 ![0] bcast_S850000_S850000x1_0 : (⟨S850000, .i32⟩ : BufTy).Contents (Elt F) → (⟨S850000x1, .i32⟩ : BufTy).Contents (Elt F)),
    StableHlo.ternary main_v17 main_v18 main_v16 main_v19 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v20 (broadcastInDim S50000 ![] bcast_S_S50000 : (⟨S_, .f32⟩ : BufTy).Contents (Elt F) → (⟨S50000, .f32⟩ : BufTy).Contents (Elt F)),
    StableHlo.binary main_v19 main_v20 main_v21 (cmpf .ogt : (⟨S50000, .f32⟩ : BufTy).Contents (Elt F) → (⟨S50000, .f32⟩ : BufTy).Contents (Elt F) → (⟨S50000, .i1⟩ : BufTy).Contents (Elt F)),
    StableHlo.unary main_v19 main_v22 (Host.rsqrt : (⟨S50000, .f32⟩ : BufTy).Contents (Elt F) → (⟨S50000, .f32⟩ : BufTy).Contents (Elt F)),
    StableHlo.nullary main_cst_2 (constant S_ .f32 0x00000000#32) ]
theorem it0_sub : (it0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub ..⟩

/-- 3 operations of fn_where over main_call0, in order. -/
abbrev it1 : List (HloOp τ sig (Elt F)) :=
  [ StableHlo.TRef.unary ((.of main_cst_2) : StableHlo.TRef sig ⟨S_, .f32⟩) main_call0.v0 id,
    StableHlo.TRef.unary main_call0.v0 main_call0.v1 (broadcastInDim S50000 ![] bcast_S_S50000),
    StableHlo.TRef.ternary ((.of main_v21) : StableHlo.TRef sig ⟨S50000, .i1⟩) ((.of main_v22) : StableHlo.TRef sig ⟨S50000, .f32⟩) main_call0.v1 main_call0.v2 select ]
theorem it1_sub : (it1 : List (HloOp τ sig (Elt F))).Forall fun op => op.bufs ⊆ StableHlo.tcRefs τ sig :=
  ⟨StableHlo.unary_bufs_sub .., StableHlo.unary_bufs_sub .., StableHlo.ternary_bufs_sub ..⟩

/-- 32 operations of main_part0, in order. -/
abbrev it2 : List (HloOp τ sig (Elt F)) :=
  [ StableHlo.nullary main_c (constantI S_ 32 0#32),
    StableHlo.unary main_c main_v24 (broadcastInDim S850000 ![] bcast_S_S850000 : (⟨S_, .i32⟩ : BufTy).Contents (Elt F) → (⟨S850000, .i32⟩ : BufTy).Contents (Elt F)),
    StableHlo.binary main_v13 main_v24 main_v25 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v26 (broadcastInDim S850000 ![] bcast_S_S850000 : (⟨S_, .i32⟩ : BufTy).Contents (Elt F) → (⟨S850000, .i32⟩ : BufTy).Contents (Elt F)),
    StableHlo.binary main_v13 main_v26 main_v27 (addi : (⟨S850000, .i32⟩ : BufTy).Contents (Elt F) → (⟨S850000, .i32⟩ : BufTy).Contents (Elt F) → (⟨S850000, .i32⟩ : BufTy).Contents (Elt F)),
    StableHlo.ternary main_v25 main_v27 main_v13 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v28 main_v29 (broadcastInDim S850000x1 ![0] bcast_S850000_S850000x1_0 : (⟨S850000, .i32⟩ : BufTy).Contents (Elt F) → (⟨S850000x1, .i32⟩ : BufTy).Contents (Elt F)),
    StableHlo.binary main_v23 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v30 main_v16 main_v31 (mulf : (⟨S850000, .f32⟩ : BufTy).Contents (Elt F) → (⟨S850000, .f32⟩ : BufTy).Contents (Elt F) → (⟨S850000, .f32⟩ : BufTy).Contents (Elt F)),
    StableHlo.nullary main_c_4 (constantI S_ 32 0#32),
    StableHlo.unary main_c_4 main_v32 (broadcastInDim S850000 ![] bcast_S_S850000 : (⟨S_, .i32⟩ : BufTy).Contents (Elt F) → (⟨S850000, .i32⟩ : BufTy).Contents (Elt F)),
    StableHlo.binary main_v14 main_v32 main_v33 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v34 (broadcastInDim S850000 ![] bcast_S_S850000 : (⟨S_, .i32⟩ : BufTy).Contents (Elt F) → (⟨S850000, .i32⟩ : BufTy).Contents (Elt F)),
    StableHlo.binary main_v14 main_v34 main_v35 (addi : (⟨S850000, .i32⟩ : BufTy).Contents (Elt F) → (⟨S850000, .i32⟩ : BufTy).Contents (Elt F) → (⟨S850000, .i32⟩ : BufTy).Contents (Elt F)),
    StableHlo.ternary main_v33 main_v35 main_v14 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v36 main_v37 (broadcastInDim S850000x1 ![0] bcast_S850000_S850000x1_0 : (⟨S850000, .i32⟩ : BufTy).Contents (Elt F) → (⟨S850000x1, .i32⟩ : BufTy).Contents (Elt F)),
    StableHlo.binary main_v23 main_v37 main_v38 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v31 main_v38 main_v39 (mulf : (⟨S850000, .f32⟩ : BufTy).Contents (Elt F) → (⟨S850000, .f32⟩ : BufTy).Contents (Elt F) → (⟨S850000, .f32⟩ : BufTy).Contents (Elt F)),
    StableHlo.unary main_v39 main_v40 (broadcastInDim S850000x1 ![0] bcast_S850000_S850000x1_0 : (⟨S850000, .f32⟩ : BufTy).Contents (Elt F) → (⟨S850000x1, .f32⟩ : BufTy).Contents (Elt F)),
    StableHlo.nullary main_c_6 (constantI S_ 32 0#32),
    StableHlo.unary main_c_6 main_v41 (broadcastInDim S850000 ![] bcast_S_S850000 : (⟨S_, .i32⟩ : BufTy).Contents (Elt F) → (⟨S850000, .i32⟩ : BufTy).Contents (Elt F)),
    StableHlo.binary main_v13 main_v41 main_v42 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v43 (broadcastInDim S850000 ![] bcast_S_S850000 : (⟨S_, .i32⟩ : BufTy).Contents (Elt F) → (⟨S850000, .i32⟩ : BufTy).Contents (Elt F)),
    StableHlo.binary main_v13 main_v43 main_v44 (addi : (⟨S850000, .i32⟩ : BufTy).Contents (Elt F) → (⟨S850000, .i32⟩ : BufTy).Contents (Elt F) → (⟨S850000, .i32⟩ : BufTy).Contents (Elt F)),
    StableHlo.ternary main_v42 main_v44 main_v13 main_v45 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v45 main_v46 (broadcastInDim S850000x1 ![0] bcast_S850000_S850000x1_0 : (⟨S850000, .i32⟩ : BufTy).Contents (Elt F) → (⟨S850000x1, .i32⟩ : BufTy).Contents (Elt F)),
    StableHlo.binary main_v7 main_v46 main_v47 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v40 main_v48 (broadcastInDim S850000x128 ![0, 1] bcast_S850000x1_S850000x128_0_1 : (⟨S850000x1, .f32⟩ : BufTy).Contents (Elt F) → (⟨S850000x128, .f32⟩ : BufTy).Contents (Elt F)),
    StableHlo.binary main_v48 main_v47 main_v49 (mulf : (⟨S850000x128, .f32⟩ : BufTy).Contents (Elt F) → (⟨S850000x128, .f32⟩ : BufTy).Contents (Elt F) → (⟨S850000x128, .f32⟩ : BufTy).Contents (Elt F)) ]
theorem it2_sub : (it2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub ..⟩

/-- 9 operations of main_part1, in order. -/
abbrev it3 : List (HloOp τ sig (Elt F)) :=
  [ StableHlo.nullary main_cst_8 (constant S_ .f32 0x00000000#32),
    StableHlo.unary main_cst_8 main_v50 (broadcastInDim S50000x128 ![] bcast_S_S50000x128 : (⟨S_, .f32⟩ : BufTy).Contents (Elt F) → (⟨S50000x128, .f32⟩ : BufTy).Contents (Elt F)),
    StableHlo.unary main_v14 main_v51 (broadcastInDim S850000x1 ![0] bcast_S850000_S850000x1_0 : (⟨S850000, .i32⟩ : BufTy).Contents (Elt F) → (⟨S850000x1, .i32⟩ : BufTy).Contents (Elt F)),
    StableHlo.ternary main_v50 main_v51 main_v49 main_v52 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.binary main_v52 main_arg8 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v55 main_v56 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3C23D70A#32) ]
theorem it3_sub : (it3 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.nullary_bufs_sub ..⟩

/-- 6 operations of fn_leaky_relu over main_call1, in order. -/
abbrev it4 : List (HloOp τ sig (Elt F)) :=
  [ StableHlo.TRef.nullary main_call1.cst (constant S_ .f32 0x00000000#32),
    StableHlo.TRef.unary main_call1.cst main_call1.v0 (broadcastInDim S50000x128 ![] bcast_S_S50000x128),
    StableHlo.TRef.binary ((.of main_v56) : StableHlo.TRef sig ⟨S50000x128, .f32⟩) main_call1.v0 main_call1.v1 (cmpf .oge),
    StableHlo.TRef.unary ((.of main_cst_9) : StableHlo.TRef sig ⟨S_, .f32⟩) main_call1.v2 id,
    StableHlo.TRef.unary main_call1.v2 main_call1.v3 (broadcastInDim S50000x128 ![] bcast_S_S50000x128),
    StableHlo.TRef.binary main_call1.v3 ((.of main_v56) : StableHlo.TRef sig ⟨S50000x128, .f32⟩) main_call1.v4 mulf ]
theorem it4_sub : (it4 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub ..⟩

/-- 1 operation of fn_where_0 over main_call1.call0, in order. -/
abbrev it5 : List (HloOp τ sig (Elt F)) :=
  [ StableHlo.TRef.ternary (main_call1.v1 : StableHlo.TRef sig ⟨S50000x128, .i1⟩) (((.of main_v56) : StableHlo.TRef sig ⟨S50000x128, .f32⟩) : StableHlo.TRef sig ⟨S50000x128, .f32⟩) (main_call1.v4 : StableHlo.TRef sig ⟨S50000x128, .f32⟩) main_call1.call0.v0 select ]
theorem it5_sub : (it5 : List (HloOp τ sig (Elt F))).Forall fun op => op.bufs ⊆ StableHlo.tcRefs τ sig :=
  StableHlo.ternary_bufs_sub ..

/-- 13 operations of main_part1, in order. -/
abbrev it6 : List (HloOp τ sig (Elt F)) :=
  [ StableHlo.unary main_arg2 main_v58 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v58 main_v59 rfl shapeCasts_S1x800000_S800000,
    StableHlo.unary main_arg2 main_v60 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v60 main_v61 rfl shapeCasts_S1x800000_S800000,
    StableHlo.nullary main_cst_10 (constant S_ .f32 0x00000000#32),
    StableHlo.unary main_cst_10 main_v62 (broadcastInDim S50000 ![] bcast_S_S50000 : (⟨S_, .f32⟩ : BufTy).Contents (Elt F) → (⟨S50000, .f32⟩ : BufTy).Contents (Elt F)),
    StableHlo.unary main_v61 main_v63 (broadcastInDim S800000x1 ![0] bcast_S800000_S800000x1_0 : (⟨S800000, .i32⟩ : BufTy).Contents (Elt F) → (⟨S800000x1, .i32⟩ : BufTy).Contents (Elt F)),
    StableHlo.ternary main_v62 main_v63 main_arg3 main_v64 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_11 (constant S_ .f32 0x00000000#32),
    StableHlo.unary main_cst_11 main_v65 (broadcastInDim S50000 ![] bcast_S_S50000 : (⟨S_, .f32⟩ : BufTy).Contents (Elt F) → (⟨S50000, .f32⟩ : BufTy).Contents (Elt F)),
    StableHlo.binary main_v64 main_v65 main_v66 (cmpf .ogt : (⟨S50000, .f32⟩ : BufTy).Contents (Elt F) → (⟨S50000, .f32⟩ : BufTy).Contents (Elt F) → (⟨S50000, .i1⟩ : BufTy).Contents (Elt F)),
    StableHlo.unary main_v64 main_v67 (Host.rsqrt : (⟨S50000, .f32⟩ : BufTy).Contents (Elt F) → (⟨S50000, .f32⟩ : BufTy).Contents (Elt F)),
    StableHlo.nullary main_cst_12 (constant S_ .f32 0x00000000#32) ]
theorem it6_sub : (it6 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub ..⟩

/-- 3 operations of fn_where over main_call2, in order. -/
abbrev it7 : List (HloOp τ sig (Elt F)) :=
  [ StableHlo.TRef.unary ((.of main_cst_12) : StableHlo.TRef sig ⟨S_, .f32⟩) main_call2.v0 id,
    StableHlo.TRef.unary main_call2.v0 main_call2.v1 (broadcastInDim S50000 ![] bcast_S_S50000),
    StableHlo.TRef.ternary ((.of main_v66) : StableHlo.TRef sig ⟨S50000, .i1⟩) ((.of main_v67) : StableHlo.TRef sig ⟨S50000, .f32⟩) main_call2.v1 main_call2.v2 select ]
theorem it7_sub : (it7 : List (HloOp τ sig (Elt F))).Forall fun op => op.bufs ⊆ StableHlo.tcRefs τ sig :=
  ⟨StableHlo.unary_bufs_sub .., StableHlo.unary_bufs_sub .., StableHlo.ternary_bufs_sub ..⟩

/-- 36 operations of main_part1, in order. -/
abbrev it8 : List (HloOp τ sig (Elt F)) :=
  [ StableHlo.nullary main_c_13 (constantI S_ 32 0#32),
    StableHlo.unary main_c_13 main_v69 (broadcastInDim S800000 ![] bcast_S_S800000 : (⟨S_, .i32⟩ : BufTy).Contents (Elt F) → (⟨S800000, .i32⟩ : BufTy).Contents (Elt F)),
    StableHlo.binary main_v59 main_v69 main_v70 (cmpi .slt : (⟨S800000, .i32⟩ : BufTy).Contents (Elt F) → (⟨S800000, .i32⟩ : BufTy).Contents (Elt F) → (⟨S800000, .i1⟩ : BufTy).Contents (Elt F)),
    StableHlo.nullary main_c_14 (constantI S_ 32 50000#32),
    StableHlo.unary main_c_14 main_v71 (broadcastInDim S800000 ![] bcast_S_S800000 : (⟨S_, .i32⟩ : BufTy).Contents (Elt F) → (⟨S800000, .i32⟩ : BufTy).Contents (Elt F)),
    StableHlo.binary main_v59 main_v71 main_v72 (addi : (⟨S800000, .i32⟩ : BufTy).Contents (Elt F) → (⟨S800000, .i32⟩ : BufTy).Contents (Elt F) → (⟨S800000, .i32⟩ : BufTy).Contents (Elt F)),
    StableHlo.ternary main_v70 main_v72 main_v59 main_v73 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v73 main_v74 (broadcastInDim S800000x1 ![0] bcast_S800000_S800000x1_0 : (⟨S800000, .i32⟩ : BufTy).Contents (Elt F) → (⟨S800000x1, .i32⟩ : BufTy).Contents (Elt F)),
    StableHlo.binary main_v68 main_v74 main_v75 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v75 main_arg3 main_v76 (mulf : (⟨S800000, .f32⟩ : BufTy).Contents (Elt F) → (⟨S800000, .f32⟩ : BufTy).Contents (Elt F) → (⟨S800000, .f32⟩ : BufTy).Contents (Elt F)),
    StableHlo.nullary main_c_15 (constantI S_ 32 0#32),
    StableHlo.unary main_c_15 main_v77 (broadcastInDim S800000 ![] bcast_S_S800000 : (⟨S_, .i32⟩ : BufTy).Contents (Elt F) → (⟨S800000, .i32⟩ : BufTy).Contents (Elt F)),
    StableHlo.binary main_v61 main_v77 main_v78 (cmpi .slt : (⟨S800000, .i32⟩ : BufTy).Contents (Elt F) → (⟨S800000, .i32⟩ : BufTy).Contents (Elt F) → (⟨S800000, .i1⟩ : BufTy).Contents (Elt F)),
    StableHlo.nullary main_c_16 (constantI S_ 32 50000#32),
    StableHlo.unary main_c_16 main_v79 (broadcastInDim S800000 ![] bcast_S_S800000 : (⟨S_, .i32⟩ : BufTy).Contents (Elt F) → (⟨S800000, .i32⟩ : BufTy).Contents (Elt F)),
    StableHlo.binary main_v61 main_v79 main_v80 (addi : (⟨S800000, .i32⟩ : BufTy).Contents (Elt F) → (⟨S800000, .i32⟩ : BufTy).Contents (Elt F) → (⟨S800000, .i32⟩ : BufTy).Contents (Elt F)),
    StableHlo.ternary main_v78 main_v80 main_v61 main_v81 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v81 main_v82 (broadcastInDim S800000x1 ![0] bcast_S800000_S800000x1_0 : (⟨S800000, .i32⟩ : BufTy).Contents (Elt F) → (⟨S800000x1, .i32⟩ : BufTy).Contents (Elt F)),
    StableHlo.binary main_v68 main_v82 main_v83 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v76 main_v83 main_v84 (mulf : (⟨S800000, .f32⟩ : BufTy).Contents (Elt F) → (⟨S800000, .f32⟩ : BufTy).Contents (Elt F) → (⟨S800000, .f32⟩ : BufTy).Contents (Elt F)),
    StableHlo.binary main_v3 main_arg10 main_v85 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v84 main_v86 (broadcastInDim S800000x1 ![0] bcast_S800000_S800000x1_0 : (⟨S800000, .f32⟩ : BufTy).Contents (Elt F) → (⟨S800000x1, .f32⟩ : BufTy).Contents (Elt F)),
    StableHlo.nullary main_c_17 (constantI S_ 32 0#32),
    StableHlo.unary main_c_17 main_v87 (broadcastInDim S800000 ![] bcast_S_S800000 : (⟨S_, .i32⟩ : BufTy).Contents (Elt F) → (⟨S800000, .i32⟩ : BufTy).Contents (Elt F)),
    StableHlo.binary main_v59 main_v87 main_v88 (cmpi .slt : (⟨S800000, .i32⟩ : BufTy).Contents (Elt F) → (⟨S800000, .i32⟩ : BufTy).Contents (Elt F) → (⟨S800000, .i1⟩ : BufTy).Contents (Elt F)),
    StableHlo.nullary main_c_18 (constantI S_ 32 50000#32),
    StableHlo.unary main_c_18 main_v89 (broadcastInDim S800000 ![] bcast_S_S800000 : (⟨S_, .i32⟩ : BufTy).Contents (Elt F) → (⟨S800000, .i32⟩ : BufTy).Contents (Elt F)),
    StableHlo.binary main_v59 main_v89 main_v90 (addi : (⟨S800000, .i32⟩ : BufTy).Contents (Elt F) → (⟨S800000, .i32⟩ : BufTy).Contents (Elt F) → (⟨S800000, .i32⟩ : BufTy).Contents (Elt F)),
    StableHlo.ternary main_v88 main_v90 main_v59 main_v91 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v91 main_v92 (broadcastInDim S800000x1 ![0] bcast_S800000_S800000x1_0 : (⟨S800000, .i32⟩ : BufTy).Contents (Elt F) → (⟨S800000x1, .i32⟩ : BufTy).Contents (Elt F)),
    StableHlo.binary main_v85 main_v92 main_v93 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v86 main_v94 (broadcastInDim S800000x128 ![0, 1] bcast_S800000x1_S800000x128_0_1 : (⟨S800000x1, .f32⟩ : BufTy).Contents (Elt F) → (⟨S800000x128, .f32⟩ : BufTy).Contents (Elt F)),
    StableHlo.binary main_v94 main_v93 main_v95 (mulf : (⟨S800000x128, .f32⟩ : BufTy).Contents (Elt F) → (⟨S800000x128, .f32⟩ : BufTy).Contents (Elt F) → (⟨S800000x128, .f32⟩ : BufTy).Contents (Elt F)),
    StableHlo.nullary main_cst_19 (constant S_ .f32 0x00000000#32),
    StableHlo.unary main_cst_19 main_v96 (broadcastInDim S50000x128 ![] bcast_S_S50000x128 : (⟨S_, .f32⟩ : BufTy).Contents (Elt F) → (⟨S50000x128, .f32⟩ : BufTy).Contents (Elt F)),
    StableHlo.unary main_v61 main_v97 (broadcastInDim S800000x1 ![0] bcast_S800000_S800000x1_0 : (⟨S800000, .i32⟩ : BufTy).Contents (Elt F) → (⟨S800000x1, .i32⟩ : BufTy).Contents (Elt F)) ]
theorem it8_sub : (it8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub ..⟩

/-- 6 operations of main_part2, in order. -/
abbrev it9 : List (HloOp τ sig (Elt F)) :=
  [ StableHlo.ternary main_v96 main_v97 main_v95 main_v98 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v3 main_arg11 main_v99 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v98 main_v99 main_v100 (addf : (⟨S50000x128, .f32⟩ : BufTy).Contents (Elt F) → (⟨S50000x128, .f32⟩ : BufTy).Contents (Elt F) → (⟨S50000x128, .f32⟩ : BufTy).Contents (Elt F)),
    StableHlo.unary main_arg12 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (addf : (⟨S50000x128, .f32⟩ : BufTy).Contents (Elt F) → (⟨S50000x128, .f32⟩ : BufTy).Contents (Elt F) → (⟨S50000x128, .f32⟩ : BufTy).Contents (Elt F)) ]
theorem it9_sub : (it9 : List (HloOp τ sig (Elt F))).Forall fun op => op.bufs ⊆ StableHlo.tcRefs τ sig :=
  ⟨StableHlo.ternary_bufs_sub .., StableHlo.binary_bufs_sub .., StableHlo.binary_bufs_sub .., StableHlo.unary_bufs_sub .., StableHlo.unary_bufs_sub .., StableHlo.binary_bufs_sub ..⟩

/-- 3 operations of fn_relu over main_call3, in order. -/
abbrev it10 : List (HloOp τ sig (Elt F)) :=
  [ StableHlo.TRef.nullary main_call3.cst (constant S_ .f32 0x00000000#32),
    StableHlo.TRef.unary main_call3.cst main_call3.v0 (broadcastInDim S50000x128 ![] bcast_S_S50000x128),
    StableHlo.TRef.binary ((.of main_v103) : StableHlo.TRef sig ⟨S50000x128, .f32⟩) main_call3.v0 main_call3.v1 maximumf ]
theorem it10_sub : (it10 : List (HloOp τ sig (Elt F))).Forall fun op => op.bufs ⊆ StableHlo.tcRefs τ sig :=
  ⟨StableHlo.nullary_bufs_sub .., StableHlo.unary_bufs_sub .., StableHlo.binary_bufs_sub ..⟩

/-- 1 operation of main_part2, in order. -/
abbrev it11 : List (HloOp τ sig (Elt F)) :=
  [ StableHlo.nullary main_cst_20 (constant S_ .f32 0x3C23D70A#32) ]
theorem it11_sub : (it11 : List (HloOp τ sig (Elt F))).Forall fun op => op.bufs ⊆ StableHlo.tcRefs τ sig :=
  StableHlo.nullary_bufs_sub ..

/-- 6 operations of fn_leaky_relu over main_call4, in order. -/
abbrev it12 : List (HloOp τ sig (Elt F)) :=
  [ StableHlo.TRef.nullary main_call4.cst (constant S_ .f32 0x00000000#32),
    StableHlo.TRef.unary main_call4.cst main_call4.v0 (broadcastInDim S50000x128 ![] bcast_S_S50000x128),
    StableHlo.TRef.binary ((.of main_v104) : StableHlo.TRef sig ⟨S50000x128, .f32⟩) main_call4.v0 main_call4.v1 (cmpf .oge),
    StableHlo.TRef.unary ((.of main_cst_20) : StableHlo.TRef sig ⟨S_, .f32⟩) main_call4.v2 id,
    StableHlo.TRef.unary main_call4.v2 main_call4.v3 (broadcastInDim S50000x128 ![] bcast_S_S50000x128),
    StableHlo.TRef.binary main_call4.v3 ((.of main_v104) : StableHlo.TRef sig ⟨S50000x128, .f32⟩) main_call4.v4 mulf ]
theorem it12_sub : (it12 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub ..⟩

/-- 1 operation of fn_where_0 over main_call4.call0, in order. -/
abbrev it13 : List (HloOp τ sig (Elt F)) :=
  [ StableHlo.TRef.ternary (main_call4.v1 : StableHlo.TRef sig ⟨S50000x128, .i1⟩) (((.of main_v104) : StableHlo.TRef sig ⟨S50000x128, .f32⟩) : StableHlo.TRef sig ⟨S50000x128, .f32⟩) (main_call4.v4 : StableHlo.TRef sig ⟨S50000x128, .f32⟩) main_call4.call0.v0 select ]
theorem it13_sub : (it13 : List (HloOp τ sig (Elt F))).Forall fun op => op.bufs ⊆ StableHlo.tcRefs τ sig :=
  StableHlo.ternary_bufs_sub ..

/-- 1 operation of main_part2, in order. -/
abbrev it14 : List (HloOp τ sig (Elt F)) :=
  [ StableHlo.binary main_v57 main_v105 main_v106 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)) ]
theorem it14_sub : (it14 : List (HloOp τ sig (Elt F))).Forall fun op => op.bufs ⊆ StableHlo.tcRefs τ sig :=
  StableHlo.binary_bufs_sub ..

/-- 7 operations of fn_elu over main_call5, in order. -/
abbrev it15 : List (HloOp τ sig (Elt F)) :=
  [ StableHlo.TRef.nullary main_call5.cst (constant S_ .f32 0x00000000#32),
    StableHlo.TRef.unary main_call5.cst main_call5.v0 (broadcastInDim S50000x256 ![] bcast_S_S50000x256),
    StableHlo.TRef.binary ((.of main_v106) : StableHlo.TRef sig ⟨S50000x256, .f32⟩) main_call5.v0 main_call5.v1 (cmpf .ogt),
    StableHlo.TRef.nullary main_call5.cst_0 (constant S_ .f32 0x00000000#32),
    StableHlo.TRef.unary main_call5.cst_0 main_call5.v2 (broadcastInDim S50000x256 ![] bcast_S_S50000x256),
    StableHlo.TRef.binary ((.of main_v106) : StableHlo.TRef sig ⟨S50000x256, .f32⟩) main_call5.v2 main_call5.v3 (cmpf .ogt),
    StableHlo.TRef.nullary main_call5.cst_1 (constant S_ .f32 0x00000000#32) ]
theorem it15_sub : (it15 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩

/-- 3 operations of fn_where_1 over main_call5.call0, in order. -/
abbrev it16 : List (HloOp τ sig (Elt F)) :=
  [ StableHlo.TRef.unary (main_call5.cst_1 : StableHlo.TRef sig ⟨S_, .f32⟩) main_call5.call0.v0 id,
    StableHlo.TRef.unary main_call5.call0.v0 main_call5.call0.v1 (broadcastInDim S50000x256 ![] bcast_S_S50000x256),
    StableHlo.TRef.ternary (main_call5.v3 : StableHlo.TRef sig ⟨S50000x256, .i1⟩) main_call5.call0.v1 (((.of main_v106) : StableHlo.TRef sig ⟨S50000x256, .f32⟩) : StableHlo.TRef sig ⟨S50000x256, .f32⟩) main_call5.call0.v2 select ]
theorem it16_sub : (it16 : List (HloOp τ sig (Elt F))).Forall fun op => op.bufs ⊆ StableHlo.tcRefs τ sig :=
  ⟨StableHlo.unary_bufs_sub .., StableHlo.unary_bufs_sub .., StableHlo.ternary_bufs_sub ..⟩

/-- 4 operations of fn_elu over main_call5, in order. -/
abbrev it17 : List (HloOp τ sig (Elt F)) :=
  [ StableHlo.TRef.unary main_call5.call0.v2 main_call5.v5 Host.expm1,
    StableHlo.TRef.nullary main_call5.cst_2 (constant S_ .f32 0x3F800000#32),
    StableHlo.TRef.unary main_call5.cst_2 main_call5.v6 (broadcastInDim S50000x256 ![] bcast_S_S50000x256),
    StableHlo.TRef.binary main_call5.v6 main_call5.v5 main_call5.v7 mulf ]
theorem it17_sub : (it17 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩

/-- 1 operation of fn_where_2 over main_call5.call1, in order. -/
abbrev it18 : List (HloOp τ sig (Elt F)) :=
  [ StableHlo.TRef.ternary (main_call5.v1 : StableHlo.TRef sig ⟨S50000x256, .i1⟩) (((.of main_v106) : StableHlo.TRef sig ⟨S50000x256, .f32⟩) : StableHlo.TRef sig ⟨S50000x256, .f32⟩) (main_call5.v7 : StableHlo.TRef sig ⟨S50000x256, .f32⟩) main_call5.call1.v0 select ]
theorem it18_sub : (it18 : List (HloOp τ sig (Elt F))).Forall fun op => op.bufs ⊆ StableHlo.tcRefs τ sig :=
  StableHlo.ternary_bufs_sub ..

theorem main_part0_chain (c : Dev nD) : main_part0 (F := F) c = (Pipeline.chainK
  [ StableHlo.seq it0,
    StableHlo.seq it1 ]
  (StableHlo.seq it2) : Prog (TpuEff nD τ sig (Elt F) (Pipeline.Sig Λ₀ (Fin 0) fun p => (pcfgs (F := F) p).Adm) .tc) PUnit) := by
  chain_rfl

theorem main_part1_chain (c : Dev nD) : main_part1 (F := F) c = (Pipeline.chainK
  [ StableHlo.seq it3,
    StableHlo.seq it4,
    StableHlo.seq it5,
    StableHlo.seq it6,
    StableHlo.seq it7 ]
  (StableHlo.seq it8) : Prog (TpuEff nD τ sig (Elt F) (Pipeline.Sig Λ₀ (Fin 0) fun p => (pcfgs (F := F) p).Adm) .tc) PUnit) := by
  chain_rfl

theorem main_part2_chain (c : Dev nD) : main_part2 (F := F) c = (Pipeline.chain
  [ StableHlo.seq it9,
    StableHlo.seq it10,
    StableHlo.seq it11,
    StableHlo.seq it12,
    StableHlo.seq it13,
    StableHlo.seq it14,
    StableHlo.seq it15,
    StableHlo.seq it16,
    StableHlo.seq it17,
    StableHlo.seq it18 ] : Prog (TpuEff nD τ sig (Elt F) (Pipeline.Sig Λ₀ (Fin 0) fun p => (pcfgs (F := F) p).Adm) .tc) PUnit) := by
  chain_rfl

/-- Every item, in order. -/
abbrev items : List (List (HloOp τ sig (Elt F))) :=
  [ it0, it1, it2, it3, it4, it5, it6, it7, it8, it9, it10, it11, it12, it13, it14, it15, it16, it17, it18 ]

end Cert.ReferenceIdeal.Ops

end
-- ==== Proof.RefRun.lean ====
import proofs.«401336_j87402584473615_3_alg».proof.Proof.RefOps
import proofs.«401336_j87402584473615_3_alg».proof.Proof.LibAfterAppend

/-!
# The reference program as one straight line of host operations, and its run

The reference's @main is three windows of statements, some of them calls of module-local functions. Each straight run
of one function's own statements is a list of operations; @main is the chain of those lists' programs, hence the
program of their concatenation, and every weakly fair execution of it ends with each buffer at the fold of the
operations' results over the launch contents.
-/

set_option maxRecDepth 4096

noncomputable section

namespace Cert.ReferenceIdeal.Val

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- The programs of some lists of operations run one after the other are the program of the lists' concatenation. -/
theorem chain_seq {Λ : Labels} {nD : Nat} {τ : Topo} {sig : RefSig} {Val : EltTy → Type}
    (ls : List (List (HloOp τ sig Val))) :
    Pipeline.chain (ls.map fun l => (seq l : Prog (TpuEff nD τ sig Val Λ .tc) PUnit)) = seq ls.flatten := by
  induction ls with
  | nil => rfl
  | cons l ls ih =>
    rw [List.map_cons, Pipeline.chain_cons, ih, List.flatten_cons, seq_append]

/-- All of @main's operations, in order. -/
abbrev ops : List (HloOp τ sig (Elt F)) := (items : List (List (HloOp τ sig (Elt F)))).flatten

/-- @main is the straight line of its operations: its three windows are chains of their items (the kernel's check),
    the chains join, and a chain of straight lines is the straight line of the concatenation. -/
theorem main_eq (c : Dev nD) : main (F := F) c = seq ops := by
  show (main_part0 (F := F) c >>= fun _ => (main_part1 (F := F) c >>= fun _ => main_part2 (F := F) c)) = _
  rewrite [main_part2_chain, main_part1_chain, Pipeline.chainK_bind_chain, main_part0_chain, Pipeline.chainK_bind_chain]
  exact chain_seq items

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  refine List.forall_iff_forall_mem.mpr fun op h => ?_
  obtain ⟨l, hl, hop⟩ := List.mem_flatten.mp h
  have key : ∀ l ∈ (items : List (List (HloOp τ sig (Elt F)))), l.Forall fun op => op.bufs ⊆ tcRefs τ sig := by
    intro l hl
    simp only [items, List.mem_cons, List.not_mem_nil, or_false] at hl
    rcases hl with rfl | rfl | rfl | rfl | rfl | rfl | rfl | rfl | rfl | rfl | rfl | rfl | rfl | rfl | rfl | rfl | rfl | rfl | rfl
    · exact it0_sub
    · exact it1_sub
    · exact it2_sub
    · exact it3_sub
    · exact it4_sub
    · exact it5_sub
    · exact it6_sub
    · exact it7_sub
    · exact it8_sub
    · exact it9_sub
    · exact it10_sub
    · exact it11_sub
    · exact it12_sub
    · exact it13_sub
    · exact it14_sub
    · exact it15_sub
    · exact it16_sub
    · exact it17_sub
    · exact it18_sub
  exact (List.forall_iff_forall_mem.mp (key l hl)) op hop

/-- At the compiled mesh, for any float values, from any memory with zero counters: every weakly fair execution of
    @main terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Val

end
-- ==== Proof.RefDefs.lean ====
import proofs.«401336_j87402584473615_3_alg».proof.Proof.RefRun
import proofs.«401336_j87402584473615_3_alg».proof.Proof.Spec

/-!
# The reference's operations in three stretches, and names for the arrays read between them

The first stretch ends with the first branch's result, the second with the second branch's, the third joins the two and
applies the exponential linear unit.
-/

set_option maxRecDepth 4096

noncomputable section

namespace Cert.ReferenceIdeal.Val

open Cert.ReferenceIdeal Cert.ReferenceIdeal.Gen Cert.ReferenceIdeal.Ops Cert.Graph
open Idealize.ShloMosaic Idealize.ShloMosaic.TcCoe Idealize.SL.Sem Idealize.ShloMosaic.StableHlo Idealize.ShloMosaic.ValueIdx

/-- The operations up to the first branch's result, those up to the second branch's, and the rest. -/
abbrev cA : List (HloOp τ sig (Elt Ideal)) := List.flatten [it0, it1, it2, it3, it4, it5]
abbrev cB : List (HloOp τ sig (Elt Ideal)) := List.flatten [it6, it7, it8, it9, it10, it11, it12, it13]
abbrev cC : List (HloOp τ sig (Elt Ideal)) := List.flatten [it14, it15, it16, it17, it18]

theorem ops_eq : (ops : List (HloOp τ sig (Elt Ideal))) = cA ++ (cB ++ cC) := by
  simp only [ops, items, cA, cB, cC, List.flatten_cons, List.flatten_nil, List.append_nil, List.append_assoc]

/-- The contents after all the operations are those after the third stretch, from the second's, from the first's. -/
theorem after_ops (V : Valuation τ sig (Elt Ideal)) : after ops V = after cC (after cB (after cA V)) := by
  rw [ops_eq, after_append_lines, after_append_lines]

variable (V : Valuation τ sig (Elt Ideal))

/-- The argument arrays of a valuation as plain functions. -/
abbrev vH : SND.Idx → EReal := V (main_arg0 : DevRef τ sig)
abbrev vX : SND.Idx → EReal := V (main_arg1 : DevRef τ sig)
abbrev vEi : S2E.Idx → BitVec 32 := V (main_arg2 : DevRef τ sig)
abbrev vEw : SE.Idx → EReal := V (main_arg3 : DevRef τ sig)
abbrev vWh : SDD.Idx → EReal := V (main_arg4 : DevRef τ sig)
abbrev vBh : SD.Idx → EReal := V (main_arg5 : DevRef τ sig)
abbrev vWx : SDD.Idx → EReal := V (main_arg6 : DevRef τ sig)
abbrev vBx : SD.Idx → EReal := V (main_arg7 : DevRef τ sig)
abbrev vWsg : SDD.Idx → EReal := V (main_arg8 : DevRef τ sig)
abbrev vBsg : SD.Idx → EReal := V (main_arg9 : DevRef τ sig)
abbrev vWi : SDD.Idx → EReal := V (main_arg10 : DevRef τ sig)
abbrev vWroot : SDD.Idx → EReal := V (main_arg11 : DevRef τ sig)
abbrev vBarma : SD.Idx → EReal := V (main_arg12 : DevRef τ sig)
/-- The arrays x Wx + bx and the two branches' results of a valuation, and the final result, as plain functions. -/
abbrev vXp : SND.Idx → EReal := V (main_v3 : DevRef τ sig)
abbrev vO1 : SND.Idx → EReal := V (main_v57 : DevRef τ sig)
abbrev vO2 : SND.Idx → EReal := V (main_v105 : DevRef τ sig)
abbrev vOut : SN2D.Idx → EReal := V (main_v107 : DevRef τ sig)

end Cert.ReferenceIdeal.Val

end
-- ==== Proof.RefSg.lean ====
import proofs.«401336_j87402584473615_3_alg».proof.Proof.RefDefs
import proofs.«401336_j87402584473615_3_alg».proof.Proof.LibAfterAppend
import proofs.«401336_j87402584473615_3_alg».proof.Proof.LibSegment
import proofs.«401336_j87402584473615_3_alg».proof.Proof.LibSegment1
import proofs.«401336_j87402584473615_3_alg».proof.Proof.LibGraphIdx
import Idealize.ShloMosaic.Lib.ValueLayout
import Idealize.ShloMosaic.Lib.StableHlo.Predicate
import Idealize.ShloMosaic.PureOps.Ideal.Laws
import Idealize.ShloMosaic.Lib.IdealHost
import Idealize.ShloMosaic.Lib.Pipeline.Value
import Mathlib.Algebra.BigOperators.Fin

set_option maxRecDepth 16384

noncomputable section

open scoped BigOperators

namespace Cert.ReferenceIdeal.Val

open Cert.ReferenceIdeal Cert.ReferenceIdeal.Gen Cert.ReferenceIdeal.Ops Cert.Graph
open Idealize.ShloMosaic Idealize.ShloMosaic.TcCoe Idealize.SL.Sem Idealize.ShloMosaic.StableHlo Idealize.ShloMosaic.ValueIdx

variable (V : Valuation τ sig (Elt Ideal))

/-!
# The reference's first stretch read at an index

The first stretch computes x Wx + bx and hp = h Wh + bh, appends one unit self-loop per node to the 800000 edges,
sums the weights at their targets (the degree with self-loops), normalises it, normalises every edge and loop by the
product of its weight and its two ends' normalisations, gathers hp's rows at the sources, scales them, sums them at the
targets, applies a linear map and a leaky rectifier. Read at an index each array is the specification's closed form:
a sum over the 850000 entries splits into the edges and the loops, the loop of node j lands on node n exactly when
j = n, and a gather through the word of a node's number reads that node's row.
-/

/-! ## The arrays of the first stretch, named -/

/-- A linear layer on feature rows, as the host computes it: the product with the weight matrix plus the bias row
    laid along every row. -/
def aLin (X : SND.Idx → EReal) (W : SDD.Idx → EReal) (b : SD.Idx → EReal) : SND.Idx → EReal :=
  addf (F := Ideal) (φ := .f32) (Host.dotGeneral (F := Ideal) (φ₁ := .f32) (φ₂ := .f32) dot_S50000x128_S128x128_S50000x128_1_0_0_1_n_n none X W)
    (broadcastInDim S50000x128 ![0, 1] bcast_S1x128_S50000x128_0_1 (broadcastInDim S1x128 ![1] bcast_S128_S1x128_1 b))

/-- Row r of the edge words as a vector of 800000 words. -/
def aEnd (r : Nat) (hs : S2x800000.Slices ![r, 0] S1x800000) (ei : S2E.Idx → BitVec 32) : S800000.Idx → BitVec 32 :=
  shapeCast S800000 (extractStridedSlice S1x800000 ![r, 0] ei hs) shapeCasts_S1x800000_S800000

/-- A vector of 800000 entries followed by one of 50000. -/
def aCat {α : Type} (a : S800000.Idx → α) (b : S50000.Idx → α) : S850000.Idx → α :=
  concatenate S850000 0 [⟨S800000, a⟩, ⟨S50000, b⟩] concatenates_S800000_S50000_S850000_d0

/-- The source and target words of the 800000 edges followed by one self-loop per node. -/
def aRowL (ei : S2E.Idx → BitVec 32) : S850000.Idx → BitVec 32 :=
  aCat (aEnd 0 slices_S2x800000_S1x800000_0_0 ei) (iotaInDim S50000 32 0)
def aColL (ei : S2E.Idx → BitVec 32) : S850000.Idx → BitVec 32 :=
  aCat (aEnd 1 slices_S2x800000_S1x800000_1_0 ei) (iotaInDim S50000 32 0)
/-- The edge weights followed by a unit weight per self-loop. -/
def aEwL (ew : SE.Idx → EReal) : S850000.Idx → EReal :=
  aCat ew (broadcastInDim S50000 ![] bcast_S_S50000 (constant (F := Ideal) S_ .f32 0x3F800000#32))

/-- The zero vector of 50000 entries and the zero table. -/
def aZ1 : S50000.Idx → EReal := broadcastInDim S50000 ![] bcast_S_S50000 (constant (F := Ideal) S_ .f32 0x00000000#32)
def aZ2 : S50000x128.Idx → EReal := broadcastInDim S50000x128 ![] bcast_S_S50000x128 (constant (F := Ideal) S_ .f32 0x00000000#32)

/-- A vector of 850000 words as a column of start indices. -/
def aColumn (x : S850000.Idx → BitVec 32) : S850000x1.Idx → BitVec 32 :=
  broadcastInDim S850000x1 ![0] bcast_S850000_S850000x1_0 x

/-- The degrees with self-loops: the weights scattered into zeros at the target words. -/
def aDeg (ei : S2E.Idx → BitVec 32) (ew : SE.Idx → EReal) : S50000.Idx → EReal :=
  Host.scatterAdd (F := Ideal) (φ := .f32) scatter_S50000_S850000x1_S850000_n_0_0_1 aZ1 (aColumn (aColL ei)) (aEwL ew)

/-- The normalisations of the degrees with self-loops. -/
def aDinv (ei : S2E.Idx → BitVec 32) (ew : SE.Idx → EReal) : S50000.Idx → EReal :=
  select (cmpf (F := Ideal) (φ := .f32) .ogt (aDeg ei ew) aZ1) (Host.rsqrt (F := Ideal) (φ := .f32) (aDeg ei ew))
    (broadcastInDim S50000 ![] bcast_S_S50000 (id (constant (F := Ideal) S_ .f32 0x00000000#32)))

/-- Index words wrapped as a gather wraps them. -/
def aWrap (x : S850000.Idx → BitVec 32) : S850000.Idx → BitVec 32 :=
  select (cmpi .slt x (broadcastInDim S850000 ![] bcast_S_S850000 (constantI S_ 32 0#32)))
    (addi x (broadcastInDim S850000 ![] bcast_S_S850000 (constantI S_ 32 50000#32))) x

/-- The normalisation of every edge and loop. -/
def aNorm (ei : S2E.Idx → BitVec 32) (ew : SE.Idx → EReal) : S850000.Idx → EReal :=
  mulf (F := Ideal) (φ := .f32)
    (mulf (F := Ideal) (φ := .f32)
      (Host.gather gather_S50000_S850000x1_S850000_n_0_n_n_0_1_1 (aDinv ei ew) (aColumn (aWrap (aRowL ei)))) (aEwL ew))
    (Host.gather gather_S50000_S850000x1_S850000_n_0_n_n_0_1_1 (aDinv ei ew) (aColumn (aWrap (aColL ei))))

/-- The message of every edge and loop: its normalisation times the feature row of its source. -/
def aMsg (ei : S2E.Idx → BitVec 32) (ew : SE.Idx → EReal) (hp : SND.Idx → EReal) : S850000x128.Idx → EReal :=
  mulf (F := Ideal) (φ := .f32)
    (broadcastInDim S850000x128 ![0, 1] bcast_S850000x1_S850000x128_0_1
      (broadcastInDim S850000x1 ![0] bcast_S850000_S850000x1_0 (aNorm ei ew)))
    (Host.gather gather_S50000x128_S850000x1_S850000x128_1_0_n_n_0_1_1128 hp (aColumn (aWrap (aRowL ei))))

/-- The messages summed at their targets. -/
def aSg (ei : S2E.Idx → BitVec 32) (ew : SE.Idx → EReal) (hp : SND.Idx → EReal) : S50000x128.Idx → EReal :=
  Host.scatterAdd (F := Ideal) (φ := .f32) scatter_S50000x128_S850000x1_S850000x128_1_0_0_1 aZ2 (aColumn (aColL ei)) (aMsg ei ew hp)

/-- The leaky rectifier on a table, as the host computes it. -/
def aLeaky (z : S50000x128.Idx → EReal) : S50000x128.Idx → EReal :=
  select (cmpf (F := Ideal) (φ := .f32) .oge z aZ2) z
    (mulf (F := Ideal) (φ := .f32)
      (broadcastInDim S50000x128 ![] bcast_S_S50000x128 (id (constant (F := Ideal) S_ .f32 0x3C23D70A#32))) z)

/-- The first branch's result. -/
def aO1 : S50000x128.Idx → EReal :=
  aLeaky (aLin (aSg (vEi V) (vEw V) (aLin (vH V) (vWh V) (vBh V))) (vWsg V) (vBsg V))

/-! ## The first stretch part by part, each from any contents -/

section Parts

variable (W : Valuation τ sig (Elt Ideal))

/-- The first stretch is its six parts run in order. -/
theorem cA_parts :
    after cA W = after it5 (after it4 (after it3 (after it2 (after it1 (after it0 W))))) := by
  have e : (cA : List (HloOp τ sig (Elt Ideal))) = it0 ++ (it1 ++ (it2 ++ (it3 ++ (it4 ++ it5)))) := by
    simp only [cA, List.flatten_cons, List.flatten_nil, List.append_nil]
  rw [e, after_append_lines, after_append_lines, after_append_lines, after_append_lines, after_append_lines]

/-! ### The preprocessors -/

theorem it0_v3 : (after it0 W (main_v3 : DevRef τ sig) : S50000x128.Idx → EReal) = aLin (vX W) (vWx W) (vBx W) := by
  simp only [it0]; after_results_simp; rfl
theorem it0_v7 : (after it0 W (main_v7 : DevRef τ sig) : S50000x128.Idx → EReal) = aLin (vH W) (vWh W) (vBh W) := by
  simp only [it0]; after_results_simp; rfl
theorem it0_v13 : (after it0 W (main_v13 : DevRef τ sig) : S850000.Idx → BitVec 32) = aRowL (vEi W) := by
  simp only [it0]; after_results_simp; rfl
theorem it0_v14 : (after it0 W (main_v14 : DevRef τ sig) : S850000.Idx → BitVec 32) = aColL (vEi W) := by
  simp only [it0]; after_results_simp; rfl
theorem it0_v16 : (after it0 W (main_v16 : DevRef τ sig) : S850000.Idx → EReal) = aEwL (vEw W) := by
  simp only [it0]; after_results_simp; rfl
theorem it0_v21 : (after it0 W (main_v21 : DevRef τ sig) : S50000.Idx → BitVec 1)
    = cmpf (F := Ideal) (φ := .f32) .ogt (aDeg (vEi W) (vEw W)) aZ1 := by
  simp only [it0]; after_results_simp; rfl
theorem it0_v22 : (after it0 W (main_v22 : DevRef τ sig) : S50000.Idx → EReal)
    = Host.rsqrt (F := Ideal) (φ := .f32) (aDeg (vEi W) (vEw W)) := by
  simp only [it0]; after_results_simp; rfl
theorem it0_cst2 : (after it0 W (main_cst_2 : DevRef τ sig) : S_.Idx → EReal)
    = constant (F := Ideal) S_ .f32 0x00000000#32 := by
  simp only [it0]; after_results_simp
theorem it0_arg8 : after it0 W (main_arg8 : DevRef τ sig) = W (main_arg8 : DevRef τ sig) := by
  simp only [it0]; after_results_simp
theorem it0_arg9 : after it0 W (main_arg9 : DevRef τ sig) = W (main_arg9 : DevRef τ sig) := by
  simp only [it0]; after_results_simp

/-! ### The normalisation's select -/

theorem it1_v23 : (after it1 W (main_v23 : DevRef τ sig) : S50000.Idx → EReal)
    = select (W (main_v21 : DevRef τ sig)) (W (main_v22 : DevRef τ sig))
        (broadcastInDim S50000 ![] bcast_S_S50000 (id (W (main_cst_2 : DevRef τ sig)))) := by
  simp only [it1]; after_results_simp
  simp only [TRef.ofBuf, TRef.toBuf, cast_cast, cast_eq]
theorem it1_v7 : after it1 W (main_v7 : DevRef τ sig) = W (main_v7 : DevRef τ sig) := by
  simp only [it1]; after_results_simp
theorem it1_v13 : after it1 W (main_v13 : DevRef τ sig) = W (main_v13 : DevRef τ sig) := by
  simp only [it1]; after_results_simp
theorem it1_v14 : after it1 W (main_v14 : DevRef τ sig) = W (main_v14 : DevRef τ sig) := by
  simp only [it1]; after_results_simp
theorem it1_v16 : after it1 W (main_v16 : DevRef τ sig) = W (main_v16 : DevRef τ sig) := by
  simp only [it1]; after_results_simp
theorem it1_arg8 : after it1 W (main_arg8 : DevRef τ sig) = W (main_arg8 : DevRef τ sig) := by
  simp only [it1]; after_results_simp
theorem it1_arg9 : after it1 W (main_arg9 : DevRef τ sig) = W (main_arg9 : DevRef τ sig) := by
  simp only [it1]; after_results_simp

/-! ### The messages -/

/-- The messages from the arrays the part starts at. -/
def aMsgW (dinv : S50000.Idx → EReal) (rowL colL : S850000.Idx → BitVec 32) (ewL : S850000.Idx → EReal)
    (hp : S50000x128.Idx → EReal) : S850000x128.Idx → EReal :=
  mulf (F := Ideal) (φ := .f32)
    (broadcastInDim S850000x128 ![0, 1] bcast_S850000x1_S850000x128_0_1
      (broadcastInDim S850000x1 ![0] bcast_S850000_S850000x1_0
        (mulf (F := Ideal) (φ := .f32)
          (mulf (F := Ideal) (φ := .f32)
            (Host.gather gather_S50000_S850000x1_S850000_n_0_n_n_0_1_1 dinv (aColumn (aWrap rowL))) ewL)
          (Host.gather gather_S50000_S850000x1_S850000_n_0_n_n_0_1_1 dinv (aColumn (aWrap colL))))))
    (Host.gather gather_S50000x128_S850000x1_S850000x128_1_0_n_n_0_1_1128 hp (aColumn (aWrap rowL)))

theorem it2_v49 : (after it2 W (main_v49 : DevRef τ sig) : S850000x128.Idx → EReal)
    = aMsgW (W (main_v23 : DevRef τ sig)) (W (main_v13 : DevRef τ sig)) (W (main_v14 : DevRef τ sig))
        (W (main_v16 : DevRef τ sig)) (W (main_v7 : DevRef τ sig)) := by
  simp only [it2]; after_results_simp; rfl
theorem it2_v14 : after it2 W (main_v14 : DevRef τ sig) = W (main_v14 : DevRef τ sig) := by
  simp only [it2]; after_results_simp
theorem it2_arg8 : after it2 W (main_arg8 : DevRef τ sig) = W (main_arg8 : DevRef τ sig) := by
  simp only [it2]; after_results_simp
theorem it2_arg9 : after it2 W (main_arg9 : DevRef τ sig) = W (main_arg9 : DevRef τ sig) := by
  simp only [it2]; after_results_simp

/-! ### The sum at the targets and the linear map -/

theorem it3_v56 : (after it3 W (main_v56 : DevRef τ sig) : S50000x128.Idx → EReal)
    = aLin (Host.scatterAdd (F := Ideal) (φ := .f32) scatter_S50000x128_S850000x1_S850000x128_1_0_0_1 aZ2
        (aColumn (W (main_v14 : DevRef τ sig))) (W (main_v49 : DevRef τ sig)))
        (W (main_arg8 : DevRef τ sig)) (W (main_arg9 : DevRef τ sig)) := by
  simp only [it3]; after_results_simp; rfl
theorem it3_cst9 : (after it3 W (main_cst_9 : DevRef τ sig) : S_.Idx → EReal)
    = constant (F := Ideal) S_ .f32 0x3C23D70A#32 := by
  simp only [it3]; after_results_simp

/-! ### The leaky rectifier -/

theorem it4_v1 : (after it4 W (main_call1_v1 : DevRef τ sig) : S50000x128.Idx → BitVec 1)
    = cmpf (F := Ideal) (φ := .f32) .oge (W (main_v56 : DevRef τ sig)) aZ2 := by
  simp only [it4]; after_results_simp
  simp only [TRef.ofBuf, TRef.toBuf, cast_cast, cast_eq]
  rfl
theorem it4_v4 : (after it4 W (main_call1_v4 : DevRef τ sig) : S50000x128.Idx → EReal)
    = mulf (F := Ideal) (φ := .f32)
        (broadcastInDim S50000x128 ![] bcast_S_S50000x128 (id (W (main_cst_9 : DevRef τ sig))))
        (W (main_v56 : DevRef τ sig)) := by
  simp only [it4]; after_results_simp
  simp only [TRef.ofBuf, TRef.toBuf, cast_cast, cast_eq]
theorem it4_v56 : after it4 W (main_v56 : DevRef τ sig) = W (main_v56 : DevRef τ sig) := by
  simp only [it4]; after_results_simp
theorem it5_v57 : (after it5 W (main_v57 : DevRef τ sig) : S50000x128.Idx → EReal)
    = select (W (main_call1_v1 : DevRef τ sig)) (W (main_v56 : DevRef τ sig)) (W (main_call1_v4 : DevRef τ sig)) := by
  simp only [it5]; after_results_simp
  simp only [TRef.ofBuf, TRef.toBuf, cast_cast, cast_eq]

end Parts

/-! ## Reads at an index: the linear layer -/

/-- The product's left operand index at result (n, k) and contraction position j is (n, j). -/
private theorem dot_lhs (n : Fin 50000) (k j : Fin 128) :
    dot_S50000x128_S128x128_S50000x128_1_0_0_1_n_n.lhsIdx (ix2 n k)
      ((contrEquiv1 dot_S50000x128_S128x128_S50000x128_1_0_0_1_n_n 128 rfl rfl).symm j) = ix2 n j := by
  funext a
  match a with
  | ⟨0, _⟩ => exact Fin.ext rfl
  | ⟨1, _⟩ => exact Fin.ext rfl

/-- Its right operand index there is (j, k). -/
private theorem dot_rhs (n : Fin 50000) (k j : Fin 128) :
    dot_S50000x128_S128x128_S50000x128_1_0_0_1_n_n.rhsIdx (ix2 n k)
      ((contrEquiv1 dot_S50000x128_S128x128_S50000x128_1_0_0_1_n_n 128 rfl rfl).symm j) = ix2 j k := by
  funext a
  match a with
  | ⟨0, _⟩ => exact Fin.ext rfl
  | ⟨1, _⟩ => exact Fin.ext rfl

/-- The host's linear layer at (n, k) is the specification's. -/
theorem aLin_apply (X : SND.Idx → EReal) (W : SDD.Idx → EReal) (b : SD.Idx → EReal) (n : Fin 50000) (k : Fin 128) :
    aLin X W b (ix2 n k) = lin X W b n k := by
  unfold aLin lin
  rw [addf_apply]
  congr 1
  · simp only [Host.dotGeneral]
    rw [Ideal.dotGeneral_apply,
      ← Equiv.sum_comp (contrEquiv1 dot_S50000x128_S128x128_S50000x128_1_0_0_1_n_n 128 rfl rfl).symm]
    refine Finset.sum_congr rfl fun j _ => ?_
    rw [dot_lhs, dot_rhs]
  · rw [← Cert.GraphIdx.ij_eq_ix2, StableHlo.Predicate.bcast_cols, Cert.GraphIdx.ofFin_eq_ix1]

/-! ## Reads at an index: the edges followed by the self-loops -/

/-- Edge e and the self-loop of node n among the 850000 entries. -/
def eI (e : Fin 800000) : Fin 850000 := ⟨e.val, by omega⟩
def lI (n : Fin 50000) : Fin 850000 := ⟨800000 + n.val, by omega⟩

/-- A sum over the 850000 entries is the sum over the edges plus the sum over the loops. -/
theorem sum_entries {M : Type} [AddCommMonoid M] (g : Fin 850000 → M) :
    ∑ j, g j = ∑ e : Fin 800000, g (eI e) + ∑ n : Fin 50000, g (lI n) := by
  have h := Fin.sum_univ_add (a := 800000) (b := 50000) (fun i : Fin (800000 + 50000) => g (Fin.cast (by norm_num) i))
  exact h

/-- Row r of the edge words, as a vector, at e. -/
theorem aEnd_apply (r : Nat) (hr : r < 2) (hs : S2x800000.Slices ![r, 0] S1x800000) (ei : S2E.Idx → BitVec 32)
    (e : Fin 800000) : aEnd r hs ei (ix1 e) = ei (ix2 (⟨r, hr⟩ : Fin 2) e) := by
  unfold aEnd
  rw [shapeCast_1a_a_apply]
  exact slice2_axis0_apply r ei hs (0 : Fin 1) e ⟨r, hr⟩ rfl

/-- The joined vector at an edge is the first vector there … -/
theorem aCat_edge {α : Type} (a : S800000.Idx → α) (b : S50000.Idx → α) (e : Fin 800000) :
    aCat a b (ix1 (eI e)) = a (ix1 e) :=
  concatenate_pair_apply_left (t := S850000) (s₁ := S800000) (s₂ := S50000) 0 a b
    concatenates_S800000_S50000_S850000_d0 (ix1 (eI e)) rfl (ix1 e)
    (fun b => by match b with | ⟨0, _⟩ => rfl)

/-- … and at a loop the second vector at the loop's node. -/
theorem aCat_loop {α : Type} (a : S800000.Idx → α) (b : S50000.Idx → α) (n : Fin 50000) :
    aCat a b (ix1 (lI n)) = b (ix1 n) :=
  concatenate_pair_apply_right (t := S850000) (s₁ := S800000) (s₂ := S50000) 0 a b
    concatenates_S800000_S50000_S850000_d0 (ix1 (lI n)) rfl rfl (ix1 n)
    (fun b hb => absurd (Subsingleton.elim _ _) hb)
    (by show n.val + 800000 = 800000 + n.val; omega)

theorem aRowL_edge (ei : S2E.Idx → BitVec 32) (e : Fin 800000) : aRowL ei (ix1 (eI e)) = row ei e := by
  unfold aRowL; rw [aCat_edge, aEnd_apply 0 (by omega)]; rfl
theorem aRowL_loop (ei : S2E.Idx → BitVec 32) (n : Fin 50000) : aRowL ei (ix1 (lI n)) = BitVec.ofNat 32 n.val := by
  unfold aRowL; rw [aCat_loop]; rfl
theorem aColL_edge (ei : S2E.Idx → BitVec 32) (e : Fin 800000) : aColL ei (ix1 (eI e)) = col ei e := by
  unfold aColL; rw [aCat_edge, aEnd_apply 1 (by omega)]; rfl
theorem aColL_loop (ei : S2E.Idx → BitVec 32) (n : Fin 50000) : aColL ei (ix1 (lI n)) = BitVec.ofNat 32 n.val := by
  unfold aColL; rw [aCat_loop]; rfl
theorem aEwL_edge (ew : SE.Idx → EReal) (e : Fin 800000) : aEwL ew (ix1 (eI e)) = ew (ix1 e) := by
  unfold aEwL; rw [aCat_edge]
theorem aEwL_loop (ew : SE.Idx → EReal) (n : Fin 50000) : aEwL ew (ix1 (lI n)) = 1 := by
  unfold aEwL; rw [aCat_loop]
  show Ideal.ofBits .f32 0x3F800000#32 = 1
  exact Ideal.ofBits_one_f32

/-- The word of a node's number, read signed, is that number … -/
theorem toInt_node (j : Fin 50000) : (BitVec.ofNat 32 j.val).toInt = (j.val : ℤ) :=
  StableHlo.Predicate.toInt_ofNat_small j.val (by have := j.isLt; omega)

/-- … so it names node n exactly when the numbers agree … -/
theorem toInt_node_iff (j n : Fin 50000) : (BitVec.ofNat 32 j.val).toInt = (n.val : ℤ) ↔ j = n := by
  rw [toInt_node]
  constructor
  · intro h; exact Fin.ext (by exact_mod_cast h)
  · rintro rfl; rfl

/-- … and a gather reads through it the row of that number. -/
theorem gix_node (n : Fin 50000) : gix (BitVec.ofNat 32 n.val) = n := by
  have hn := n.isLt
  have hslt : (BitVec.ofNat 32 n.val).slt 0#32 = false := by
    rw [BitVec.slt, toInt_node]
    simp
  apply Fin.ext
  show min (wrapW (BitVec.ofNat 32 n.val)).toInt.toNat (50000 - 1) = n.val
  rw [wrapW, hslt]
  simp only [Bool.false_eq_true, if_false]
  rw [toInt_node]
  simp only [Int.toNat_natCast]
  omega

/-! ## Reads at an index: degrees, normalisations, messages, their sums -/

theorem aZ1_apply (n : Fin 50000) : aZ1 (ix1 n) = 0 := by
  show Ideal.ofBits .f32 0x00000000#32 = 0
  exact Ideal.ofBits_zero_f32
theorem aZ2_apply (i : S50000x128.Idx) : aZ2 i = 0 := by
  show Ideal.ofBits .f32 0x00000000#32 = 0
  exact Ideal.ofBits_zero_f32

/-- The degree with self-loops of node n: the edges into n give the weighted in-degree, the loops give the one of n's own
    loop. -/
theorem aDeg_apply (ei : S2E.Idx → BitVec 32) (ew : SE.Idx → EReal) (n : Fin 50000) :
    aDeg ei ew (ix1 n) = degP ei ew n + 1 := by
  unfold aDeg aColumn
  rw [Cert.GraphIdx.scatter_entries_col _ rfl rfl rfl rfl, aZ1_apply, zero_add, Finset.sum_filter, sum_entries]
  simp only [aColL_edge, aColL_loop, aEwL_edge, aEwL_loop, toInt_node_iff]
  rw [← Finset.sum_filter, Finset.sum_ite_eq' Finset.univ n (fun _ => (1 : EReal)), if_pos (Finset.mem_univ n)]
  rfl

/-- The comparison "above" on extended reals, decided. -/
theorem cmp_ogt_of_lt {x y : EReal} (h : y < x) : Ideal.cmp .ogt x y = 1#1 := by
  unfold Ideal.cmp; simp [h]
theorem cmp_ogt_of_not_lt {x y : EReal} (h : ¬ y < x) : Ideal.cmp .ogt x y = 0#1 := by
  unfold Ideal.cmp; simp [h]
/-- The comparison "at least" on extended reals, decided. -/
theorem cmp_oge_of_le {x y : EReal} (h : y ≤ x) : Ideal.cmp .oge x y = 1#1 := by
  unfold Ideal.cmp; simp [h]
theorem cmp_oge_of_not_le {x y : EReal} (h : ¬ y ≤ x) : Ideal.cmp .oge x y = 0#1 := by
  unfold Ideal.cmp; simp [h]

/-- The host's inverse square root at an index. -/
theorem hostRsqrt_apply {s : Shape} (x : FVec Ideal s .f32) (i : s.Idx) :
    Host.rsqrt (F := Ideal) x i = Ideal.rsqrt (x i) := rfl

/-- The normalisation of node n's degree with self-loops. -/
theorem aDinv_apply (ei : S2E.Idx → BitVec 32) (ew : SE.Idx → EReal) (n : Fin 50000) :
    aDinv ei ew (ix1 n) = dinvL ei ew n := by
  have hz : (broadcastInDim S50000 ![] bcast_S_S50000 (id (constant (F := Ideal) S_ .f32 0x00000000#32)) :
      S50000.Idx → EReal) (ix1 n) = 0 := aZ1_apply n
  unfold aDinv dinvL dinvOf
  rw [select_apply, cmpf_apply, Ideal.cmpf_def, aZ1_apply, hostRsqrt_apply, aDeg_apply, hz]
  by_cases h : (0 : EReal) < degP ei ew n + 1
  · rw [if_pos h, cmp_ogt_of_lt h, select_one]
  · rw [if_neg h, cmp_ogt_of_not_lt h, select_zero]

/-- The normalisation of edge e … -/
theorem aNorm_edge (ei : S2E.Idx → BitVec 32) (ew : SE.Idx → EReal) (e : Fin 800000) :
    aNorm ei ew (ix1 (eI e)) = normWith ei ew (dinvL ei ew) e := by
  unfold aNorm aColumn aWrap normWith
  rw [mulf_apply, mulf_apply, Cert.GraphIdx.gather_entries_wrapped _ rfl rfl rfl rfl,
    Cert.GraphIdx.gather_entries_wrapped _ rfl rfl rfl rfl, aRowL_edge, aColL_edge, aEwL_edge, aDinv_apply, aDinv_apply]

/-- … and of the loop at node n. -/
theorem aNorm_loop (ei : S2E.Idx → BitVec 32) (ew : SE.Idx → EReal) (n : Fin 50000) :
    aNorm ei ew (ix1 (lI n)) = dinvL ei ew n * 1 * dinvL ei ew n := by
  unfold aNorm aColumn aWrap
  rw [mulf_apply, mulf_apply, Cert.GraphIdx.gather_entries_wrapped _ rfl rfl rfl rfl,
    Cert.GraphIdx.gather_entries_wrapped _ rfl rfl rfl rfl, aRowL_loop, aColL_loop, aEwL_loop, gix_node, aDinv_apply]

/-- The message of edge e in column k … -/
theorem aMsg_edge (ei : S2E.Idx → BitVec 32) (ew : SE.Idx → EReal) (hp : SND.Idx → EReal) (e : Fin 800000) (k : Fin 128) :
    aMsg ei ew hp (ix2 (eI e) k) = normWith ei ew (dinvL ei ew) e * hp (ix2 (gix (row ei e)) k) := by
  unfold aMsg aColumn aWrap
  rw [mulf_apply, ← Cert.GraphIdx.ij_eq_ix2, StableHlo.Predicate.bcast_rows, Cert.GraphIdx.ij_eq_ix2,
    Cert.GraphIdx.ofFin_eq_ix1, Cert.GraphIdx.gather_rows_wrapped _ rfl rfl rfl rfl rfl, aNorm_edge, aRowL_edge]

/-- … and of the loop at node n. -/
theorem aMsg_loop (ei : S2E.Idx → BitVec 32) (ew : SE.Idx → EReal) (hp : SND.Idx → EReal) (n : Fin 50000) (k : Fin 128) :
    aMsg ei ew hp (ix2 (lI n) k) = dinvL ei ew n * 1 * dinvL ei ew n * hp (ix2 n k) := by
  unfold aMsg aColumn aWrap
  rw [mulf_apply, ← Cert.GraphIdx.ij_eq_ix2, StableHlo.Predicate.bcast_rows, Cert.GraphIdx.ij_eq_ix2,
    Cert.GraphIdx.ofFin_eq_ix1, Cert.GraphIdx.gather_rows_wrapped _ rfl rfl rfl rfl rfl, aNorm_loop, aRowL_loop, gix_node]

/-- The messages summed at node n, column k: the edges into n, and n's own loop. -/
theorem aSg_apply (ei : S2E.Idx → BitVec 32) (ew : SE.Idx → EReal) (hp : SND.Idx → EReal) (n : Fin 50000) (k : Fin 128) :
    aSg ei ew hp (ix2 n k)
      = (∑ e ∈ into ei n, normWith ei ew (dinvL ei ew) e * hp (ix2 (gix (row ei e)) k))
        + dinvL ei ew n * dinvL ei ew n * hp (ix2 n k) := by
  unfold aSg aColumn
  rw [Cert.GraphIdx.scatter_rows_col _ rfl rfl rfl rfl, aZ2_apply, zero_add, Finset.sum_filter, sum_entries]
  simp only [aColL_edge, aColL_loop, aMsg_edge, aMsg_loop, toInt_node_iff]
  rw [← Finset.sum_filter,
    Finset.sum_ite_eq' Finset.univ n (fun j => dinvL ei ew j * 1 * dinvL ei ew j * hp (ix2 j k)),
    if_pos (Finset.mem_univ n), mul_one]
  rfl

/-- The host's leaky rectifier at an index is the specification's. -/
theorem aLeaky_apply (z : S50000x128.Idx → EReal) (i : S50000x128.Idx) : aLeaky z i = leaky (z i) := by
  have hs : (broadcastInDim S50000x128 ![] bcast_S_S50000x128 (id (constant (F := Ideal) S_ .f32 0x3C23D70A#32)) :
      S50000x128.Idx → EReal) i = slope := rfl
  unfold aLeaky leaky
  rw [select_apply, cmpf_apply, Ideal.cmpf_def, aZ2_apply, mulf_apply, hs]
  by_cases h : (0 : EReal) ≤ z i
  · rw [if_pos h, cmp_oge_of_le h, select_one]
  · rw [if_neg h, cmp_oge_of_not_le h, select_zero]

/-- The first branch at (n, k). -/
theorem aO1_apply (n : Fin 50000) (k : Fin 128) :
    aO1 V (ix2 n k) = o1 (vH V) (vEi V) (vEw V) (vWh V) (vBh V) (vWsg V) (vBsg V) n k := by
  have hs : ∀ j : Fin 128, aSg (vEi V) (vEw V) (aLin (vH V) (vWh V) (vBh V)) (ix2 n j)
      = sg (vH V) (vEi V) (vEw V) (vWh V) (vBh V) n j := by
    intro j
    rw [aSg_apply]
    unfold sg agg
    simp only [aLin_apply]
  unfold aO1 o1
  rw [aLeaky_apply, aLin_apply]
  unfold lin mm
  simp only [hs]

/-! ## The first stretch's results -/

/-- The first branch's result array after the first stretch. -/
theorem cA_v57 : (after cA V (main_v57 : DevRef τ sig) : S50000x128.Idx → EReal) = aO1 V := by
  rw [cA_parts, it5_v57, it4_v1, it4_v4, it4_v56, it3_v56, it3_cst9, it2_v49, it2_v14, it2_arg8, it2_arg9,
    it1_v23, it1_v7, it1_v13, it1_v14, it1_v16, it1_arg8, it1_arg9,
    it0_v21, it0_v22, it0_cst2, it0_v7, it0_v13, it0_v14, it0_v16, it0_arg8, it0_arg9]
  rfl

/-- The array x Wx + bx after the first stretch: only the first part writes it. -/
theorem cA_v3 : (after cA V (main_v3 : DevRef τ sig) : S50000x128.Idx → EReal) = aLin (vX V) (vWx V) (vBx V) := by
  simp only [cA, it0, it1, it2, it3, it4, it5, List.flatten_cons, List.flatten_nil, List.append_nil, List.cons_append,
    List.nil_append]
  after_results_simp
  rfl

theorem cA_o1 (n : Fin 50000) (k : Fin 128) :
    vO1 (after cA V) (ix2 n k) = o1 (vH V) (vEi V) (vEw V) (vWh V) (vBh V) (vWsg V) (vBsg V) n k := by
  show (after cA V (main_v57 : DevRef τ sig) : S50000x128.Idx → EReal) (ix2 n k) = _
  rw [cA_v57, aO1_apply]

theorem cA_xp (n : Fin 50000) (k : Fin 128) :
    vXp (after cA V) (ix2 n k) = lin (vX V) (vWx V) (vBx V) n k := by
  show (after cA V (main_v3 : DevRef τ sig) : S50000x128.Idx → EReal) (ix2 n k) = _
  rw [cA_v3, aLin_apply]

end Cert.ReferenceIdeal.Val

end
-- ==== Proof.RefArma.lean ====
import proofs.«401336_j87402584473615_3_alg».proof.Proof.RefDefs
import proofs.«401336_j87402584473615_3_alg».proof.Proof.LibGraphIdx
import Idealize.ShloMosaic.PureOps.Ideal.Laws

/-!
# The reference's second stretch read at an index

The second stretch computes the second branch from the array x Wx + bx: the weighted in-degrees of the nodes without
self-loops, their normalisations, the normalised edges, the product of the array with the first matrix propagated
along the normalised edges, the product with the second matrix and the bias added, a rectifier and a leaky rectifier.
-/

set_option maxRecDepth 16384

noncomputable section

open scoped BigOperators

namespace Cert.ReferenceIdeal.Val

open Cert.ReferenceIdeal Cert.ReferenceIdeal.Gen Cert.ReferenceIdeal.Ops Cert.Graph
open Idealize.ShloMosaic Idealize.ShloMosaic.TcCoe Idealize.SL.Sem Idealize.ShloMosaic.StableHlo Idealize.ShloMosaic.ValueIdx

variable (V : Valuation τ sig (Elt Ideal))

/-! ## The arrays of the second branch, as functions of the arrays they are computed from -/

/-- Row 0 and row 1 of the 2 × 800000 index table, each as a vector of words: the edges' source and target words. -/
def rowArr (ei : IVec S2x800000 32) : IVec S800000 32 :=
  shapeCast S800000 (extractStridedSlice S1x800000 ![0, 0] ei slices_S2x800000_S1x800000_0_0) shapeCasts_S1x800000_S800000
def colArr (ei : IVec S2x800000 32) : IVec S800000 32 :=
  shapeCast S800000 (extractStridedSlice S1x800000 ![1, 0] ei slices_S2x800000_S1x800000_1_0) shapeCasts_S1x800000_S800000

/-- A vector of index words wrapped for a gather: a negative word has 50000 added. -/
def wrapArr (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- The weighted in-degrees: the edge weights added up at their target words. -/
def degArr (ei : IVec S2x800000 32) (ew : FVec Ideal S800000 .f32) : FVec Ideal S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 (colArr ei)) ew

/-- The degrees' normalisations: the inverse square root where the degree is positive, zero elsewhere. -/
def dinvArr (ei : IVec S2x800000 32) (ew : FVec Ideal S800000 .f32) : FVec Ideal S50000 .f32 :=
  select (cmpf .ogt (degArr ei ew) (broadcastInDim S50000 ![] bcast_S_S50000 (constant S_ .f32 0x00000000#32)))
    (Host.rsqrt (degArr ei ew))
    (broadcastInDim S50000 ![] bcast_S_S50000 (id (constant S_ .f32 0x00000000#32)))

/-- The edges' normalisations: the weight times the normalisations of the two ends, each read through its wrapped word. -/
def normArr (ei : IVec S2x800000 32) (ew : FVec Ideal S800000 .f32) : FVec Ideal S800000 .f32 :=
  mulf
    (mulf
      (Host.gather gather_S50000_S800000x1_S800000_n_0_n_n_0_1_1 (dinvArr ei ew)
        (broadcastInDim S800000x1 ![0] bcast_S800000_S800000x1_0 (wrapArr (rowArr ei))))
      ew)
    (Host.gather gather_S50000_S800000x1_S800000_n_0_n_n_0_1_1 (dinvArr ei ew)
      (broadcastInDim S800000x1 ![0] bcast_S800000_S800000x1_0 (wrapArr (colArr ei))))

/-- A feature table times a 128 × 128 matrix. -/
def mmArr (x : FVec Ideal S50000x128 .f32) (W : FVec Ideal S128x128 .f32) : FVec Ideal S50000x128 .f32 :=
  Host.dotGeneral dot_S50000x128_S128x128_S50000x128_1_0_0_1_n_n none x W

/-- The edges' messages: the edge's normalisation times the feature row of its source. -/
def msgArr (ei : IVec S2x800000 32) (ew : FVec Ideal S800000 .f32) (F : FVec Ideal S50000x128 .f32) : FVec Ideal S800000x128 .f32 :=
  mulf
    (broadcastInDim S800000x128 ![0, 1] bcast_S800000x1_S800000x128_0_1
      (broadcastInDim S800000x1 ![0] bcast_S800000_S800000x1_0 (normArr ei ew)))
    (Host.gather gather_S50000x128_S800000x1_S800000x128_1_0_n_n_0_1_1128 F
      (broadcastInDim S800000x1 ![0] bcast_S800000_S800000x1_0 (wrapArr (rowArr ei))))

/-- The messages added up at their edges' target words. -/
def aggArr (ei : IVec S2x800000 32) (ew : FVec Ideal S800000 .f32) (F : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (colArr ei)) (msgArr ei ew F)

/-- The second branch before its rectifiers: the propagated part, the root part and the bias. -/
def preArr (ei : IVec S2x800000 32) (ew : FVec Ideal S800000 .f32) (xp : FVec Ideal S50000x128 .f32)
    (Wi Wroot : FVec Ideal S128x128 .f32) (b : FVec Ideal S128 .f32) : FVec Ideal S50000x128 .f32 :=
  addf (addf (aggArr ei ew (mmArr xp Wi)) (mmArr xp Wroot))
    (broadcastInDim S50000x128 ![0, 1] bcast_S1x128_S50000x128_0_1 (broadcastInDim S1x128 ![1] bcast_S128_S1x128_1 b))

/-- The rectifier of it. -/
def reluArr (ei : IVec S2x800000 32) (ew : FVec Ideal S800000 .f32) (xp : FVec Ideal S50000x128 .f32)
    (Wi Wroot : FVec Ideal S128x128 .f32) (b : FVec Ideal S128 .f32) : FVec Ideal S50000x128 .f32 :=
  maximumf (preArr ei ew xp Wi Wroot b) (broadcastInDim S50000x128 ![] bcast_S_S50000x128 (constant S_ .f32 0x00000000#32))

/-- The leaky rectifier of that: the second branch's result. -/
def outArr (ei : IVec S2x800000 32) (ew : FVec Ideal S800000 .f32) (xp : FVec Ideal S50000x128 .f32)
    (Wi Wroot : FVec Ideal S128x128 .f32) (b : FVec Ideal S128 .f32) : FVec Ideal S50000x128 .f32 :=
  select
    (cmpf .oge (reluArr ei ew xp Wi Wroot b) (broadcastInDim S50000x128 ![] bcast_S_S50000x128 (constant S_ .f32 0x00000000#32)))
    (reluArr ei ew xp Wi Wroot b)
    (mulf (broadcastInDim S50000x128 ![] bcast_S_S50000x128 (id (constant S_ .f32 0x3C23D70A#32))) (reluArr ei ew xp Wi Wroot b))

/-! ## The operations of the calls in the stretch, over their buffers

The calls' operations are stated over typed references; at the literal buffers of this program each is the plain
operation on those buffers. -/

theorem it7_eq : (it7 : List (HloOp τ sig (Elt Ideal))) =
    [ StableHlo.unary main_cst_12 main_call2_v0 (id : (⟨S_, .f32⟩ : BufTy).Contents (Elt Ideal) → (⟨S_, .f32⟩ : BufTy).Contents (Elt Ideal)),
      StableHlo.unary main_call2_v0 main_call2_v1 (broadcastInDim S50000 ![] bcast_S_S50000 : (⟨S_, .f32⟩ : BufTy).Contents (Elt Ideal) → (⟨S50000, .f32⟩ : BufTy).Contents (Elt Ideal)),
      StableHlo.ternary main_v66 main_v67 main_call2_v1 main_v68 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ] := rfl

theorem it10_eq : (it10 : List (HloOp τ sig (Elt Ideal))) =
    [ StableHlo.nullary main_call3_cst (constant (F := Ideal) S_ .f32 0x00000000#32),
      StableHlo.unary main_call3_cst main_call3_v0 (broadcastInDim S50000x128 ![] bcast_S_S50000x128 : (⟨S_, .f32⟩ : BufTy).Contents (Elt Ideal) → (⟨S50000x128, .f32⟩ : BufTy).Contents (Elt Ideal)),
      StableHlo.binary main_v103 main_call3_v0 main_v104 (maximumf (F := Ideal) (s := S50000x128) (φ := .f32)) ] := rfl

theorem it12_eq : (it12 : List (HloOp τ sig (Elt Ideal))) =
    [ StableHlo.nullary main_call4_cst (constant (F := Ideal) S_ .f32 0x00000000#32),
      StableHlo.unary main_call4_cst main_call4_v0 (broadcastInDim S50000x128 ![] bcast_S_S50000x128 : (⟨S_, .f32⟩ : BufTy).Contents (Elt Ideal) → (⟨S50000x128, .f32⟩ : BufTy).Contents (Elt Ideal)),
      StableHlo.binary main_v104 main_call4_v0 main_call4_v1 (cmpf (F := Ideal) (s := S50000x128) (φ := .f32) .oge),
      StableHlo.unary main_cst_20 main_call4_v2 (id : (⟨S_, .f32⟩ : BufTy).Contents (Elt Ideal) → (⟨S_, .f32⟩ : BufTy).Contents (Elt Ideal)),
      StableHlo.unary main_call4_v2 main_call4_v3 (broadcastInDim S50000x128 ![] bcast_S_S50000x128 : (⟨S_, .f32⟩ : BufTy).Contents (Elt Ideal) → (⟨S50000x128, .f32⟩ : BufTy).Contents (Elt Ideal)),
      StableHlo.binary main_call4_v3 main_v104 main_call4_v4 (mulf (F := Ideal) (s := S50000x128) (φ := .f32)) ] := rfl

theorem it13_eq : (it13 : List (HloOp τ sig (Elt Ideal))) =
    [ StableHlo.ternary main_call4_v1 main_v104 main_call4_v4 main_v105 (select : (⟨S50000x128, .i1⟩ : BufTy).Contents (Elt Ideal) → (⟨S50000x128, .f32⟩ : BufTy).Contents (Elt Ideal) → (⟨S50000x128, .f32⟩ : BufTy).Contents (Elt Ideal) → (⟨S50000x128, .f32⟩ : BufTy).Contents (Elt Ideal)) ] := rfl

/-! ## The second branch's result buffer holds that array -/

set_option maxHeartbeats 1000000 in
/-- After the second stretch the buffer of the second branch's result holds the array above, computed from the index
    table, the edge weights, the array x Wx + bx the stretch starts with, the two matrices and the bias. -/
theorem cB_v105 :
    (after cB V (main_v105 : DevRef τ sig) : S50000x128.Idx → EReal)
      = outArr (vEi V) (vEw V) (vXp V) (vWi V) (vWroot V) (vBarma V) := by
  simp only [cB, it6, it7_eq, it8, it9, it10_eq, it11, it12_eq, it13_eq, List.flatten_cons, List.flatten_nil,
    List.append_nil, List.cons_append, List.nil_append]
  after_results_simp
  generalize hag : Host.scatterAdd (F := Ideal) (φ := .f32) scatter_S50000x128_S800000x1_S800000x128_1_0_0_1 _ _ _ = ag
  have e : ag = aggArr (vEi V) (vEw V) (mmArr (vXp V) (vWi V)) := by
    rw [← hag]
    rfl
  rw [e]
  rfl

/-! ## The arrays read at an index -/

/-- The source word and the target word of edge e. -/
theorem rowArr_apply (ei : IVec S2x800000 32) (e : Fin 800000) : rowArr ei (ix1 e) = row ei e :=
  Cert.GraphIdx.edge_row_apply 0 ei slices_S2x800000_S1x800000_0_0 shapeCasts_S1x800000_S800000 (0 : Fin 2) rfl e
theorem colArr_apply (ei : IVec S2x800000 32) (e : Fin 800000) : colArr ei (ix1 e) = col ei e :=
  Cert.GraphIdx.edge_row_apply 1 ei slices_S2x800000_S1x800000_1_0 shapeCasts_S1x800000_S800000 (1 : Fin 2) rfl e

/-- The weighted in-degree of node n: the zero it starts from plus the weights of the edges whose target word is n. -/
theorem degArr_apply (ei : IVec S2x800000 32) (ew : FVec Ideal S800000 .f32) (n : Fin 50000) :
    degArr ei ew (ix1 n) = degP ei ew n := by
  unfold degArr
  rw [Cert.GraphIdx.scatter_entries_col scatter_S50000_S800000x1_S800000_n_0_0_1 rfl rfl rfl rfl bcast_S800000_S800000x1_0,
    Cert.GraphIdx.const_bcast_apply, Cert.GraphIdx.ofBits_zero, zero_add]
  unfold degP into
  simp only [colArr_apply]

/-- A select on "d is positive" between r and zero, on extended reals. -/
theorem select_pos (d r : EReal) :
    Scalar.select (FloatOps.cmpf (F := Ideal) (φ := .f32) .ogt d (0 : EReal)) r (0 : EReal) = if 0 < d then r else 0 := by
  unfold Scalar.select
  rw [Ideal.cmpf_def]
  unfold Ideal.cmp
  by_cases h : (0 : EReal) < d <;> simp [h]

/-- A select on "z is not negative" between z and s z, on extended reals. -/
theorem select_nonneg (z s : EReal) :
    Scalar.select (FloatOps.cmpf (F := Ideal) (φ := .f32) .oge z (0 : EReal)) z (s * z) = if 0 ≤ z then z else s * z := by
  unfold Scalar.select
  rw [Ideal.cmpf_def]
  unfold Ideal.cmp
  by_cases h : (0 : EReal) ≤ z <;> simp [h]

/-- The host's inverse square root of an array, at an entry, is the inverse square root of the entry. -/
theorem rsqrt_apply {s : Shape} (x : FVec Ideal s .f32) (i : s.Idx) : Host.rsqrt x i = Ideal.rsqrt (x i) := rfl

/-- The zero constant, converted and broadcast, reads 0 everywhere. -/
theorem bcast_id_zero {s : Shape} (h : S_.BroadcastsInDim s ![]) (j : s.Idx) :
    broadcastInDim s ![] h (id (constant (F := Ideal) S_ .f32 0x00000000#32)) j = (0 : EReal) :=
  Cert.GraphIdx.ofBits_zero

/-- The normalisation of node n. -/
theorem dinvArr_apply (ei : IVec S2x800000 32) (ew : FVec Ideal S800000 .f32) (n : Fin 50000) :
    dinvArr ei ew (ix1 n) = dinvP ei ew n := by
  unfold dinvArr
  rw [select_apply, cmpf_apply, Cert.GraphIdx.const_bcast_apply, Cert.GraphIdx.ofBits_zero, bcast_id_zero, rsqrt_apply,
    degArr_apply, select_pos]
  unfold dinvP dinvOf
  by_cases h : (0 : EReal) < degP ei ew n <;> simp only [h, if_true, if_false]

/-- An entry gather through the wrapped column of a vector of words reads row gix of the word. -/
theorem gatherEntries_apply (x : FVec Ideal S50000 .f32) (v : IVec S800000 32) (e : Fin 800000) :
    Host.gather gather_S50000_S800000x1_S800000_n_0_n_n_0_1_1 x
        (broadcastInDim S800000x1 ![0] bcast_S800000_S800000x1_0 (wrapArr v)) (ix1 e)
      = x (ix1 (gix (v (ix1 e)))) :=
  Cert.GraphIdx.gather_entries_wrapped gather_S50000_S800000x1_S800000_n_0_n_n_0_1_1 rfl rfl rfl rfl
    bcast_S_S800000 bcast_S800000_S800000x1_0 x v e

/-- A row gather through the wrapped column of a vector of words reads row gix of the word. -/
theorem gatherRows_apply (x : FVec Ideal S50000x128 .f32) (v : IVec S800000 32) (e : Fin 800000) (k : Fin 128) :
    Host.gather gather_S50000x128_S800000x1_S800000x128_1_0_n_n_0_1_1128 x
        (broadcastInDim S800000x1 ![0] bcast_S800000_S800000x1_0 (wrapArr v)) (ix2 e k)
      = x (ix2 (gix (v (ix1 e))) k) :=
  Cert.GraphIdx.gather_rows_wrapped gather_S50000x128_S800000x1_S800000x128_1_0_n_n_0_1_1128 rfl rfl rfl rfl rfl
    bcast_S_S800000 bcast_S800000_S800000x1_0 x v e k

/-- The normalisation of edge e. -/
theorem normArr_apply (ei : IVec S2x800000 32) (ew : FVec Ideal S800000 .f32) (e : Fin 800000) :
    normArr ei ew (ix1 e) = normWith ei ew (dinvP ei ew) e := by
  unfold normArr
  rw [mulf_apply, mulf_apply, gatherEntries_apply, gatherEntries_apply, rowArr_apply, colArr_apply, dinvArr_apply,
    dinvArr_apply]
  rfl

/-! ### The product with a 128 × 128 matrix

The product's dimension numbers contract the table's axis 1 with the matrix's axis 0; the table's axis 0 and the
matrix's axis 1 are free. Each operand index at an output index and a contraction index, axis by axis: -/

theorem lhs_dot_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem lhs_dot_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_dot_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_dot_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The product at (n, k): the sum over j of the table at (n, j) times the matrix at (j, k). -/
theorem mmArr_apply (x : FVec Ideal S50000x128 .f32) (W : FVec Ideal S128x128 .f32) (n : Fin 50000) (k : Fin 128) :
    mmArr x W (ix2 n k) = mm (fun n k => x (ix2 n k)) W n k := by
  unfold mmArr mm
  simp only [Host.dotGeneral]
  rw [Ideal.dotGeneral_apply,
    ← Equiv.sum_comp (contrEquiv1 dot_S50000x128_S128x128_S50000x128_1_0_0_1_n_n 128 rfl rfl).symm]
  refine Finset.sum_congr rfl fun j _ => ?_
  have hk := contrEquiv1_symm_val dot_S50000x128_S128x128_S50000x128_1_0_0_1_n_n 128 rfl rfl j
  have el : dot_S50000x128_S128x128_S50000x128_1_0_0_1_n_n.lhsIdx (ix2 n k)
      ((contrEquiv1 dot_S50000x128_S128x128_S50000x128_1_0_0_1_n_n 128 rfl rfl).symm j) = ix2 n j :=
    funext fun a => Fin.ext (by
      match a with
      | ⟨0, _⟩ => exact lhs_dot_0 _ _
      | ⟨1, _⟩ => exact (lhs_dot_1 _ _).trans hk)
  have er : dot_S50000x128_S128x128_S50000x128_1_0_0_1_n_n.rhsIdx (ix2 n k)
      ((contrEquiv1 dot_S50000x128_S128x128_S50000x128_1_0_0_1_n_n 128 rfl rfl).symm j) = ix2 j k :=
    funext fun a => Fin.ext (by
      match a with
      | ⟨0, _⟩ => exact (rhs_dot_0 _ _).trans hk
      | ⟨1, _⟩ => exact rhs_dot_1 _ _)
  rw [el, er]

/-- The message of edge e at column k: the edge's normalisation times the feature row of its source. -/
theorem msgArr_apply (ei : IVec S2x800000 32) (ew : FVec Ideal S800000 .f32) (F : FVec Ideal S50000x128 .f32)
    (e : Fin 800000) (k : Fin 128) :
    msgArr ei ew F (ix2 e k) = normWith ei ew (dinvP ei ew) e * F (ix2 (gix (row ei e)) k) := by
  unfold msgArr
  rw [mulf_apply, Cert.GraphIdx.norm_bcast_apply, normArr_apply, gatherRows_apply, rowArr_apply]

/-- The propagated features at (n, k): the zero they start from plus the messages of the edges into n. -/
theorem aggArr_apply (ei : IVec S2x800000 32) (ew : FVec Ideal S800000 .f32) (F : FVec Ideal S50000x128 .f32)
    (n : Fin 50000) (k : Fin 128) :
    aggArr ei ew F (ix2 n k) = agg ei (normWith ei ew (dinvP ei ew)) (fun m j => F (ix2 m j)) n k := by
  unfold aggArr
  rw [Cert.GraphIdx.scatter_rows_col scatter_S50000x128_S800000x1_S800000x128_1_0_0_1 rfl rfl rfl rfl bcast_S800000_S800000x1_0,
    Cert.GraphIdx.const_bcast_apply, Cert.GraphIdx.ofBits_zero, zero_add]
  unfold agg into
  simp only [colArr_apply, msgArr_apply]

/-- The second branch before its rectifiers at (n, k). -/
theorem preArr_apply (ei : IVec S2x800000 32) (ew : FVec Ideal S800000 .f32) (xp : FVec Ideal S50000x128 .f32)
    (Wi Wroot : FVec Ideal S128x128 .f32) (b : FVec Ideal S128 .f32) (n : Fin 50000) (k : Fin 128) :
    preArr ei ew xp Wi Wroot b (ix2 n k)
      = agg ei (normWith ei ew (dinvP ei ew)) (mm (fun n k => xp (ix2 n k)) Wi) n k
          + mm (fun n k => xp (ix2 n k)) Wroot n k + b (ix1 k) := by
  have hF : (fun m j => mmArr xp Wi (ix2 m j)) = mm (fun n k => xp (ix2 n k)) Wi :=
    funext fun m => funext fun j => mmArr_apply xp Wi m j
  unfold preArr
  rw [addf_apply, addf_apply, Cert.GraphIdx.bias_bcast_apply, aggArr_apply, mmArr_apply, hF]

/-- The second branch's array at (n, k) is the second branch of the table it is computed from. -/
theorem outArr_apply (ei : IVec S2x800000 32) (ew : FVec Ideal S800000 .f32) (xp : FVec Ideal S50000x128 .f32)
    (Wi Wroot : FVec Ideal S128x128 .f32) (b : FVec Ideal S128 .f32) (n : Fin 50000) (k : Fin 128) :
    outArr ei ew xp Wi Wroot b (ix2 n k) = o2With ei ew Wi Wroot b (fun n k => xp (ix2 n k)) n k := by
  have hrelu : reluArr ei ew xp Wi Wroot b (ix2 n k) = max (preArr ei ew xp Wi Wroot b (ix2 n k)) 0 := by
    unfold reluArr
    rw [maximumf_apply, Cert.GraphIdx.const_bcast_apply, Cert.GraphIdx.ofBits_zero]
  have hs : broadcastInDim S50000x128 ![] bcast_S_S50000x128 (id (constant (F := Ideal) S_ .f32 0x3C23D70A#32)) (ix2 n k)
      = slope := rfl
  unfold outArr
  rw [select_apply, cmpf_apply, mulf_apply, Cert.GraphIdx.const_bcast_apply, Cert.GraphIdx.ofBits_zero, hs, hrelu,
    preArr_apply, select_nonneg]
  unfold o2With leaky
  by_cases h : (0 : EReal) ≤ max (agg ei (normWith ei ew (dinvP ei ew)) (mm (fun n k => xp (ix2 n k)) Wi) n k
      + mm (fun n k => xp (ix2 n k)) Wroot n k + b (ix1 k)) 0 <;> simp only [h, if_true, if_false]

/-! ## The second branch's result -/

/-- After the second stretch the second branch's result is, entry by entry, the second branch of the array x Wx + bx
    the stretch starts with. -/
theorem cB_o2 (n : Fin 50000) (k : Fin 128) :
    vO2 (after cB V) (ix2 n k) = o2With (vEi V) (vEw V) (vWi V) (vWroot V) (vBarma V) (fun n k => vXp V (ix2 n k)) n k := by
  show (after cB V (main_v105 : DevRef τ sig) : S50000x128.Idx → EReal) (ix2 n k) = _
  rw [cB_v105]
  exact outArr_apply (vEi V) (vEw V) (vXp V) (vWi V) (vWroot V) (vBarma V) n k

end Cert.ReferenceIdeal.Val

end
-- ==== Proof.RefOut.lean ====
import proofs.«401336_j87402584473615_3_alg».proof.Proof.RefDefs
import Idealize.ShloMosaic.Lib.IdealHost
import Idealize.ShloMosaic.Lib.Pipeline.Value

set_option maxRecDepth 16384

noncomputable section

open scoped BigOperators

namespace Cert.ReferenceIdeal.Val

open Cert.ReferenceIdeal Cert.ReferenceIdeal.Gen Cert.ReferenceIdeal.Ops Cert.Graph
open Idealize.ShloMosaic Idealize.ShloMosaic.TcCoe Idealize.SL.Sem Idealize.ShloMosaic.StableHlo Idealize.ShloMosaic.ValueIdx

variable (V : Valuation τ sig (Elt Ideal))

/-!
# The reference's last stretch read at an index

The last stretch lays the two branches' results side by side, 128 columns each, and applies the exponential linear
unit entry by entry: where the entry z is above zero the result is z, elsewhere it is 1 · (exp z − 1).
-/

/-- The two branches' results side by side: 256 columns, the first branch in the first 128. -/
def vCat : FVec Ideal S50000x256 .f32 :=
  concatenate S50000x256 1 [⟨S50000x128, vO1 V⟩, ⟨S50000x128, vO2 V⟩] concatenates_S50000x128_S50000x128_S50000x256_d1

/-- The joined array at row n, column j: the first branch at column j below 128, the second at column j − 128 from
    128 on. -/
theorem vCat_apply (n : Fin 50000) (j : Fin 256) :
    vCat V (ix2 n j) = if hj : j.val < 128 then vO1 V (ix2 n ⟨j.val, hj⟩) else vO2 V (ix2 n ⟨j.val - 128, by omega⟩) := by
  unfold vCat
  split
  · next hj =>
    exact concatenate_pair_apply_left (t := S50000x256) (s₁ := S50000x128) (s₂ := S50000x128) (1 : Fin 2)
      (vO1 V) (vO2 V) concatenates_S50000x128_S50000x128_S50000x256_d1 (ix2 n j) rfl
      (ix2 n (⟨j.val, hj⟩ : Fin 128)) (fun b => by fin_cases b <;> rfl)
  · next hj =>
    refine concatenate_pair_apply_right (t := S50000x256) (s₁ := S50000x128) (s₂ := S50000x128) (1 : Fin 2)
      (vO1 V) (vO2 V) concatenates_S50000x128_S50000x128_S50000x256_d1 (ix2 n j) rfl rfl
      (ix2 n (⟨j.val - 128, by omega⟩ : Fin 128)) (fun b hb => ?_) ?_
    · fin_cases b
      · rfl
      · exact absurd rfl hb
    · show j.val - 128 + 128 = j.val
      omega

/-- The exponential linear unit as the host spells it, as a whole array: a zero and a one broadcast, two comparisons
    with zero, the entry kept where it is not above zero, exp − 1 of that, times one, and the entry itself where it is
    above zero. -/
def eluArr (z : FVec Ideal S50000x256 .f32) : FVec Ideal S50000x256 .f32 :=
  select (cmpf .ogt z (broadcastInDim S50000x256 ![] bcast_S_S50000x256 (constant S_ .f32 0x00000000#32)))
    z
    (mulf (broadcastInDim S50000x256 ![] bcast_S_S50000x256 (constant S_ .f32 0x3F800000#32))
      (Host.expm1
        (select (cmpf .ogt z (broadcastInDim S50000x256 ![] bcast_S_S50000x256 (constant S_ .f32 0x00000000#32)))
          (broadcastInDim S50000x256 ![] bcast_S_S50000x256 (id (constant S_ .f32 0x00000000#32)))
          z)))

/-- The host's spelling at an entry is the exponential linear unit of the entry: the comparison's bit decides both
    selects; above zero the entry is kept, elsewhere the inner select keeps the entry and 1 · (exp z − 1) = exp z − 1. -/
theorem eluArr_apply (z : FVec Ideal S50000x256 .f32) (i : S50000x256.Idx) : eluArr z i = elu (z i) := by
  have hs : ∀ c : FVec Ideal S_ .f32, broadcastInDim S50000x256 ![] bcast_S_S50000x256 c i = c ix0 :=
    fun c => broadcastInDim_scalar_apply bcast_S_S50000x256 c i
  unfold eluArr elu
  simp only [select_apply, cmpf_apply, mulf_apply, Host.expm1, hs, constant_apply, id,
    Ideal.ofBits_zero_f32, Ideal.ofBits_one_f32, Ideal.hostUnary_expm1_def, Ideal.cmpf_def, Ideal.cmp, one_mul]
  by_cases h : 0 < z i
  · simp only [h, decide_true, BitVec.ofBool_true, if_true]
    exact select_one _ _
  · simp only [h, decide_false, BitVec.ofBool_false, if_false]
    exact (select_zero _ _).trans (congrArg (fun t => Ideal.exp t - 1) (select_zero _ _))

/-- The result array after the last stretch is the host's exponential linear unit of the joined array. -/
theorem cC_out_arr : vOut (after cC V) = eluArr (vCat V) := by
  show (after cC V (main_v107 : DevRef τ sig) : SN2D.Idx → EReal) = _
  simp only [cC, it14, it15, it16, it17, it18, List.flatten_cons, List.flatten_nil, List.append_nil, List.cons_append, List.nil_append]
  after_results_simp
  rfl

theorem cC_out (n : Fin 50000) (j : Fin 256) :
    vOut (after cC V) (ix2 n j) = elu (if hj : j.val < 128 then vO1 V (ix2 n ⟨j.val, hj⟩) else vO2 V (ix2 n ⟨j.val - 128, by omega⟩)) := by
  rw [cC_out_arr, eluArr_apply, vCat_apply]

end Cert.ReferenceIdeal.Val

end
-- ==== Proof.RefKeeps.lean ====
import proofs.«401336_j87402584473615_3_alg».proof.Proof.RefDefs
import Idealize.ShloMosaic.Lib.StableHlo.Run

/-!
# The reference's three stretches of host operations leave the argument arrays alone

Every host operation writes exactly one buffer, its result. None of the results of the operations is an argument
array, and no operation of the second stretch writes the first branch's result. A buffer that no operation of a line
writes holds after the line what it held before.
-/

set_option maxRecDepth 16384

noncomputable section

open scoped BigOperators

namespace Cert.ReferenceIdeal.Val

open Cert.ReferenceIdeal Cert.ReferenceIdeal.Gen Cert.ReferenceIdeal.Ops Cert.Graph
open Idealize.ShloMosaic Idealize.ShloMosaic.TcCoe Idealize.SL.Sem Idealize.ShloMosaic.StableHlo Idealize.ShloMosaic.ValueIdx

/-- The argument arrays, and with them the first branch's result. -/
abbrev argRefs : List (Ref sig .tc) :=
  [main_arg0, main_arg1, main_arg2, main_arg3, main_arg4, main_arg5, main_arg6, main_arg7, main_arg8, main_arg9,
    main_arg10, main_arg11, main_arg12]
abbrev keptB : List (Ref sig .tc) := main_v57 :: argRefs

/-- Everything the operation writes is a reference outside the list K. -/
def WritesOff (K : List (Ref sig .tc)) (op : HloOp τ sig (Elt Ideal)) : Prop :=
  ∀ d ∈ op.writes, ∃ y : Ref sig .tc, d = Proc.devRef (τ := τ) .tc y ∧ y ∉ K

/-- A line whose operations all write outside K leaves every buffer of K as it was. -/
theorem keeps_of_writesOff {K : List (Ref sig .tc)} {l : List (HloOp τ sig (Elt Ideal))} (h : l.Forall (WritesOff K))
    (b : Ref sig .tc) (hb : b ∈ K) (V : Valuation τ sig (Elt Ideal)) :
    after l V (b : DevRef τ sig) = V (b : DevRef τ sig) :=
  after_of_forall_not_mem l V fun op hop hmem => by
    obtain ⟨y, he, hy⟩ := (List.forall_iff_forall_mem.mp h) op hop _ hmem
    exact hy (Proc.devRef_injective _ he ▸ hb)

/-- For a literal list of operations, unfolded: each operation writes its one result, and that reference is compared
    with the members of K one by one. -/
local macro "writes_off" : tactic => `(tactic| (
  simp only [List.Forall, WritesOff, nullary_writes, unary_writes, binary_writes, ternary_writes, reshape_writes,
    Finset.mem_singleton]
  repeat' apply And.intro
  all_goals exact fun d hd => ⟨_, hd, by decide⟩))

/-! ## The first stretch: no operation writes an argument array -/

theorem it0_off : (it0 (F := Ideal)).Forall (WritesOff argRefs) := by unfold it0; writes_off
theorem it1_off : (it1 (F := Ideal)).Forall (WritesOff argRefs) := by unfold it1; writes_off
theorem it2_off : (it2 (F := Ideal)).Forall (WritesOff argRefs) := by unfold it2; writes_off
theorem it3_off : (it3 (F := Ideal)).Forall (WritesOff argRefs) := by unfold it3; writes_off
theorem it4_off : (it4 (F := Ideal)).Forall (WritesOff argRefs) := by unfold it4; writes_off
theorem it5_off : (it5 (F := Ideal)).Forall (WritesOff argRefs) := by unfold it5; writes_off

/-! ## The second stretch: no operation writes an argument array or the first branch's result -/

theorem it6_off : (it6 (F := Ideal)).Forall (WritesOff keptB) := by unfold it6; writes_off
theorem it7_off : (it7 (F := Ideal)).Forall (WritesOff keptB) := by unfold it7; writes_off
theorem it8_off : (it8 (F := Ideal)).Forall (WritesOff keptB) := by unfold it8; writes_off
theorem it9_off : (it9 (F := Ideal)).Forall (WritesOff keptB) := by unfold it9; writes_off
theorem it10_off : (it10 (F := Ideal)).Forall (WritesOff keptB) := by unfold it10; writes_off
theorem it11_off : (it11 (F := Ideal)).Forall (WritesOff keptB) := by unfold it11; writes_off
theorem it12_off : (it12 (F := Ideal)).Forall (WritesOff keptB) := by unfold it12; writes_off
theorem it13_off : (it13 (F := Ideal)).Forall (WritesOff keptB) := by unfold it13; writes_off

/-! ## The third stretch: no operation writes an argument array -/

theorem it14_off : (it14 (F := Ideal)).Forall (WritesOff argRefs) := by unfold it14; writes_off
theorem it15_off : (it15 (F := Ideal)).Forall (WritesOff argRefs) := by unfold it15; writes_off
theorem it16_off : (it16 (F := Ideal)).Forall (WritesOff argRefs) := by unfold it16; writes_off
theorem it17_off : (it17 (F := Ideal)).Forall (WritesOff argRefs) := by unfold it17; writes_off
theorem it18_off : (it18 (F := Ideal)).Forall (WritesOff argRefs) := by unfold it18; writes_off

/-! ## The three stretches -/

variable (V : Valuation τ sig (Elt Ideal))

theorem cA_keeps (b : Ref sig .tc) (hb : b ∈ [main_arg0, main_arg1, main_arg2, main_arg3, main_arg4, main_arg5, main_arg6, main_arg7, main_arg8, main_arg9, main_arg10, main_arg11, main_arg12]) :
    after cA V (b : DevRef τ sig) = V (b : DevRef τ sig) := by
  have hK : b ∈ argRefs := hb
  simp only [cA, List.flatten_cons, List.flatten_nil, List.append_nil, after_append_lines]
  rw [keeps_of_writesOff it5_off b hK, keeps_of_writesOff it4_off b hK, keeps_of_writesOff it3_off b hK,
    keeps_of_writesOff it2_off b hK, keeps_of_writesOff it1_off b hK, keeps_of_writesOff it0_off b hK]

theorem cB_keeps (b : Ref sig .tc) (hb : b ∈ [main_v57, main_arg0, main_arg1, main_arg2, main_arg3, main_arg4, main_arg5, main_arg6, main_arg7, main_arg8, main_arg9, main_arg10, main_arg11, main_arg12]) :
    after cB V (b : DevRef τ sig) = V (b : DevRef τ sig) := by
  have hK : b ∈ keptB := hb
  simp only [cB, List.flatten_cons, List.flatten_nil, List.append_nil, after_append_lines]
  rw [keeps_of_writesOff it13_off b hK, keeps_of_writesOff it12_off b hK, keeps_of_writesOff it11_off b hK,
    keeps_of_writesOff it10_off b hK, keeps_of_writesOff it9_off b hK, keeps_of_writesOff it8_off b hK,
    keeps_of_writesOff it7_off b hK, keeps_of_writesOff it6_off b hK]

theorem cC_keeps (b : Ref sig .tc) (hb : b ∈ [main_arg0, main_arg1, main_arg2, main_arg3, main_arg4, main_arg5, main_arg6, main_arg7, main_arg8, main_arg9, main_arg10, main_arg11, main_arg12]) :
    after cC V (b : DevRef τ sig) = V (b : DevRef τ sig) := by
  have hK : b ∈ argRefs := hb
  simp only [cC, List.flatten_cons, List.flatten_nil, List.append_nil, after_append_lines]
  rw [keeps_of_writesOff it18_off b hK, keeps_of_writesOff it17_off b hK, keeps_of_writesOff it16_off b hK,
    keeps_of_writesOff it15_off b hK, keeps_of_writesOff it14_off b hK]

end Cert.ReferenceIdeal.Val

end
-- ==== Proof.RValue.lean ====
import proofs.«401336_j87402584473615_3_alg».proof.Proof.RefSg
import proofs.«401336_j87402584473615_3_alg».proof.Proof.RefArma
import proofs.«401336_j87402584473615_3_alg».proof.Proof.RefOut
import proofs.«401336_j87402584473615_3_alg».proof.Proof.RefKeeps

/-!
# The idealized reference's result as the specification's function of its inputs

The three stretches of host operations composed: the first computes x Wx + bx and the first branch, the second the second
branch from x Wx + bx, the third joins the branches under the exponential linear unit; no stretch writes an argument.
-/

set_option maxRecDepth 16384

noncomputable section

open scoped BigOperators

namespace Cert.ReferenceIdeal.Val

open Cert.ReferenceIdeal Cert.ReferenceIdeal.Gen Cert.ReferenceIdeal.Ops Cert.Graph
open Idealize.ShloMosaic Idealize.ShloMosaic.TcCoe Idealize.SL.Sem Idealize.ShloMosaic.StableHlo Idealize.ShloMosaic.ValueIdx

variable (V : Valuation τ sig (Elt Ideal))

/-- An argument array is written by no operation. -/
theorem ops_keeps (b : Ref sig .tc) (hb : b ∈ [main_arg0, main_arg1, main_arg2, main_arg3, main_arg4, main_arg5, main_arg6, main_arg7, main_arg8, main_arg9, main_arg10, main_arg11, main_arg12]) :
    after ops V (b : DevRef τ sig) = V (b : DevRef τ sig) := by
  rw [after_ops, cC_keeps _ b hb, cB_keeps _ b (List.mem_cons_of_mem _ hb), cA_keeps _ b hb]

/-- The reference's result array is the specification's function of the argument arrays: the last stretch joins the two
    branches under the exponential linear unit, the second stretch keeps the first branch's result and computes the second
    from the first stretch's x Wx + bx, and the first stretch keeps the arguments. -/
theorem ref_out (n : Fin 50000) (j : Fin 256) :
    vOut (after ops V) (ix2 n j)
      = out (vH V) (vX V) (vEi V) (vEw V) (vWh V) (vBh V) (vWx V) (vBx V) (vWsg V) (vBsg V) (vWi V) (vWroot V) (vBarma V) n j := by
  have h57 : vO1 (after cB (after cA V)) = vO1 (after cA V) := cB_keeps (after cA V) main_v57 (List.mem_cons_self ..)
  have hEi : vEi (after cA V) = vEi V := cA_keeps V main_arg2 (by simp)
  have hEw : vEw (after cA V) = vEw V := cA_keeps V main_arg3 (by simp)
  have hWi : vWi (after cA V) = vWi V := cA_keeps V main_arg10 (by simp)
  have hWroot : vWroot (after cA V) = vWroot V := cA_keeps V main_arg11 (by simp)
  have hBarma : vBarma (after cA V) = vBarma V := cA_keeps V main_arg12 (by simp)
  rw [after_ops]
  refine (cC_out (after cB (after cA V)) n j).trans ?_
  unfold out
  refine congrArg elu ?_
  by_cases hj : j.val < 128
  · rw [dif_pos hj, dif_pos hj, h57]
    exact cA_o1 V n ⟨j.val, hj⟩
  · rw [dif_neg hj, dif_neg hj]
    refine (cB_o2 (after cA V) n ⟨j.val - 128, by omega⟩).trans ?_
    unfold o2
    rw [hEi, hEw, hWi, hWroot, hBarma]
    refine congrArg (fun f => o2With (vEi V) (vEw V) (vWi V) (vWroot V) (vBarma V) f n ⟨j.val - 128, by omega⟩) ?_
    funext n' k'
    exact cA_xp V n' k'

end Cert.ReferenceIdeal.Val

end
-- ==== Proof.lean ====
/-
  The claim: the kernel program and its idealization run, the idealized reference runs, and the two idealized programs
  end with equal results.

  Both programs return the input x and a 50000 × 256 table: two graph-convolution branches side by side under an
  exponential linear unit. The kernel program computes the linear layers in a first call, propagates along the edges on
  the host — the degree sum once, one gather and one scatter-add for both branches, the self-loops of the first branch as
  the dense term dinvL² · hp — and applies the branches' linear maps and activations in a second call. The reference
  appends one unit self-loop per node to the edge list for the first branch and propagates each branch by itself. Entry
  by entry both are the function `Cert.Graph.out` of the thirteen inputs: a sum over the edges followed by the loops is
  the sum over the edges plus the loop's term, and the kernel's precomposed layer x (Wx Wi) + bx Wi is (x Wx + bx) Wi over
  the reals, which is the one place the precondition (every float input finite) is used.
-/
import proofs.«401336_j87402584473615_3_alg».proof.Defs
import proofs.«401336_j87402584473615_3_alg».proof.Proof.Gen.Kernel
import proofs.«401336_j87402584473615_3_alg».proof.Proof.Gen.Kernel.Frame
import proofs.«401336_j87402584473615_3_alg».proof.Proof.Gen.KernelIdeal
import proofs.«401336_j87402584473615_3_alg».proof.Proof.Gen.KernelIdeal.Frame
import proofs.«401336_j87402584473615_3_alg».proof.Proof.Gen.ReferenceIdeal
import proofs.«401336_j87402584473615_3_alg».proof.Proof.Gen.Pre_finite_inputs
import proofs.«401336_j87402584473615_3_alg».proof.Proof.KernelRun
import proofs.«401336_j87402584473615_3_alg».proof.Proof.KValue
import proofs.«401336_j87402584473615_3_alg».proof.Proof.KFinite
import proofs.«401336_j87402584473615_3_alg».proof.Proof.RValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ

/-- The reference runs and keeps its arguments: its straight line of host operations writes no argument array. -/
theorem frame_ri : Cert.frame_ReferenceIdeal := fun m ρ _ =>
  (θ_run Cert.ReferenceIdeal.defs _ _).mono (fun r h c =>
    ⟨(h c Cert.ReferenceIdeal.main_arg0).trans (Cert.ReferenceIdeal.Val.ops_keeps _ Cert.ReferenceIdeal.main_arg0 (by simp)),
     (h c Cert.ReferenceIdeal.main_arg1).trans (Cert.ReferenceIdeal.Val.ops_keeps _ Cert.ReferenceIdeal.main_arg1 (by simp)),
     (h c Cert.ReferenceIdeal.main_arg2).trans (Cert.ReferenceIdeal.Val.ops_keeps _ Cert.ReferenceIdeal.main_arg2 (by simp)),
     (h c Cert.ReferenceIdeal.main_arg3).trans (Cert.ReferenceIdeal.Val.ops_keeps _ Cert.ReferenceIdeal.main_arg3 (by simp)),
     (h c Cert.ReferenceIdeal.main_arg4).trans (Cert.ReferenceIdeal.Val.ops_keeps _ Cert.ReferenceIdeal.main_arg4 (by simp)),
     (h c Cert.ReferenceIdeal.main_arg5).trans (Cert.ReferenceIdeal.Val.ops_keeps _ Cert.ReferenceIdeal.main_arg5 (by simp)),
     (h c Cert.ReferenceIdeal.main_arg6).trans (Cert.ReferenceIdeal.Val.ops_keeps _ Cert.ReferenceIdeal.main_arg6 (by simp)),
     (h c Cert.ReferenceIdeal.main_arg7).trans (Cert.ReferenceIdeal.Val.ops_keeps _ Cert.ReferenceIdeal.main_arg7 (by simp)),
     (h c Cert.ReferenceIdeal.main_arg8).trans (Cert.ReferenceIdeal.Val.ops_keeps _ Cert.ReferenceIdeal.main_arg8 (by simp)),
     (h c Cert.ReferenceIdeal.main_arg9).trans (Cert.ReferenceIdeal.Val.ops_keeps _ Cert.ReferenceIdeal.main_arg9 (by simp)),
     (h c Cert.ReferenceIdeal.main_arg10).trans (Cert.ReferenceIdeal.Val.ops_keeps _ Cert.ReferenceIdeal.main_arg10 (by simp)),
     (h c Cert.ReferenceIdeal.main_arg11).trans (Cert.ReferenceIdeal.Val.ops_keeps _ Cert.ReferenceIdeal.main_arg11 (by simp)),
     (h c Cert.ReferenceIdeal.main_arg12).trans (Cert.ReferenceIdeal.Val.ops_keeps _ Cert.ReferenceIdeal.main_arg12 (by simp))⟩)
    (Cert.ReferenceIdeal.Val.run_main (F := Ideal) m ρ)

/-- Both idealized programs end with the input x as the first result and, as the second, the specification's function of
    the argument arrays, entry by entry: the kernel by its two calls and the host operations between them (the
    precomposed layer over the reals, which the precondition gives), the reference by its three stretches of host
    operations. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg1),
    fun c => fun i : Cert.Graph.SN2D.Idx => Cert.Graph.out (Cert.KernelIdeal.Val.aH m c) (Cert.KernelIdeal.Val.aX m c) (Cert.KernelIdeal.Val.aEi m c) (Cert.KernelIdeal.Val.aEw m c) (Cert.KernelIdeal.Val.aWh m c) (Cert.KernelIdeal.Val.aBh m c) (Cert.KernelIdeal.Val.aWx m c) (Cert.KernelIdeal.Val.aBx m c) (Cert.KernelIdeal.Val.aWsg m c) (Cert.KernelIdeal.Val.aBsg m c) (Cert.KernelIdeal.Val.aWi m c) (Cert.KernelIdeal.Val.aWroot m c) (Cert.KernelIdeal.Val.aBarma m c) (i 0) (i 1), ?_, ?_⟩
  · refine (θ_run Cert.KernelIdeal.defs _ _).mono (fun r h c => ?_) (Cert.KernelIdeal.Run.run_result (F := Ideal) m ρ)
    obtain ⟨hres, h0, h1, h2, h3, h4, h5, h6, h7, h8, h9, h10, h11, h12⟩ := h c
    obtain ⟨hX, hWx, hbx, hWi⟩ := Cert.KernelIdeal.Val.real_of_pre m hpre c
    refine ⟨h1, hres.trans ?_, h0, h1, h2, h3, h4, h5, h6, h7, h8, h9, h10, h11, h12⟩
    funext i
    rw [eq_ix2 i]
    exact Cert.KernelIdeal.Val.kernel_out m ρ c hX hWx hWi hbx (i 0) (i 1)
  · refine (θ_run Cert.ReferenceIdeal.defs _ _).mono (fun r h c => ?_) (Cert.ReferenceIdeal.Val.run_main (F := Ideal) m' ρ')
    obtain ⟨e0, e1, e2, e3, e4, e5, e6, e7, e8, e9, e10, e11, e12⟩ := hagree c
    have keep : ∀ b ∈ [Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_arg11, Cert.ReferenceIdeal.main_arg12],
        r.2.mem ((c.tc : Thread Cert.ReferenceIdeal.nD Cert.ReferenceIdeal.τ).loc b) = m' ((c.tc : Thread Cert.ReferenceIdeal.nD Cert.ReferenceIdeal.τ).loc b) :=
      fun b hb => (h c b).trans (Cert.ReferenceIdeal.Val.ops_keeps _ b hb)
    refine ⟨(keep _ (by simp)).trans e1, (h c Cert.ReferenceIdeal.main_v107).trans ?_,
      keep Cert.ReferenceIdeal.main_arg0 (by simp), keep Cert.ReferenceIdeal.main_arg1 (by simp), keep Cert.ReferenceIdeal.main_arg2 (by simp), keep Cert.ReferenceIdeal.main_arg3 (by simp), keep Cert.ReferenceIdeal.main_arg4 (by simp), keep Cert.ReferenceIdeal.main_arg5 (by simp), keep Cert.ReferenceIdeal.main_arg6 (by simp), keep Cert.ReferenceIdeal.main_arg7 (by simp), keep Cert.ReferenceIdeal.main_arg8 (by simp), keep Cert.ReferenceIdeal.main_arg9 (by simp), keep Cert.ReferenceIdeal.main_arg10 (by simp), keep Cert.ReferenceIdeal.main_arg11 (by simp), keep Cert.ReferenceIdeal.main_arg12 (by simp)⟩
    funext i
    rw [eq_ix2 i]
    refine (Cert.ReferenceIdeal.Val.ref_out (StableHlo.launchContents m' c) (i 0) (i 1)).trans ?_
    show Cert.Graph.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (i 0) (i 1) = _
    rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
